-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x300x92 : Shape := ⟨3, ![256, 300, 92]⟩
abbrev S256x300x4 : Shape := ⟨3, ![256, 300, 4]⟩
abbrev S256x100 : Shape := ⟨2, ![256, 100]⟩
abbrev S256x100x4 : Shape := ⟨3, ![256, 100, 4]⟩
abbrev S256x4x100 : Shape := ⟨3, ![256, 4, 100]⟩
abbrev S256x300x1 : Shape := ⟨3, ![256, 300, 1]⟩
abbrev S256x300x100 : Shape := ⟨3, ![256, 300, 100]⟩
abbrev S256x1x100 : Shape := ⟨3, ![256, 1, 100]⟩
abbrev S_ : Shape := ⟨0, ![]⟩

class Facts : Prop where
  transposes_S256x100x4_S256x4x100_0_2_1 : S256x100x4.Transposes [0, 2, 1] S256x4x100
  slices_S256x300x4_S256x300x1_0_0_0 : S256x300x4.Slices ![0, 0, 0] S256x300x1
  bcast_S256x300x1_S256x300x100_0_1_2 : S256x300x1.BroadcastsInDim S256x300x100 (![0, 1, 2] : Fin 3 → Fin S256x300x100.rank)
  slices_S256x300x4_S256x300x1_0_0_1 : S256x300x4.Slices ![0, 0, 1] S256x300x1
  slices_S256x300x4_S256x300x1_0_0_2 : S256x300x4.Slices ![0, 0, 2] S256x300x1
  slices_S256x300x4_S256x300x1_0_0_3 : S256x300x4.Slices ![0, 0, 3] S256x300x1
  slices_S256x4x100_S256x1x100_0_0_0 : S256x4x100.Slices ![0, 0, 0] S256x1x100
  bcast_S256x1x100_S256x300x100_0_1_2 : S256x1x100.BroadcastsInDim S256x300x100 (![0, 1, 2] : Fin 3 → Fin S256x300x100.rank)
  slices_S256x4x100_S256x1x100_0_1_0 : S256x4x100.Slices ![0, 1, 0] S256x1x100
  slices_S256x4x100_S256x1x100_0_2_0 : S256x4x100.Slices ![0, 2, 0] S256x1x100
  slices_S256x4x100_S256x1x100_0_3_0 : S256x4x100.Slices ![0, 3, 0] S256x1x100
  bcast_S_S256x300x100 : S_.BroadcastsInDim S256x300x100 (![] : Fin 0 → Fin S256x300x100.rank)
  bcast_S_S256x300x92 : S_.BroadcastsInDim S256x300x92 (![] : Fin 0 → Fin S256x300x92.rank)
  reducesTo_S256x300x92_S_d0_1_2 : S256x300x92.ReducesTo [0, 1, 2] S_
  h_S_ : 0 < S_.numel
  bcast_S_S256x300x4 : S_.BroadcastsInDim S256x300x4 (![] : Fin 0 → Fin S256x300x4.rank)
  reducesTo_S256x300x4_S_d0_1_2 : S256x300x4.ReducesTo [0, 1, 2] S_
  bcast_S_S256x100x4 : S_.BroadcastsInDim S256x100x4 (![] : Fin 0 → Fin S256x100x4.rank)
  reducesTo_S256x100x4_S_d0_1_2 : S256x100x4.ReducesTo [0, 1, 2] S_
  bcast_S_S256x100 : S_.BroadcastsInDim S256x100 (![] : Fin 0 → Fin S256x100.rank)
  reducesTo_S256x100_S_d0_1 : S256x100.ReducesTo [0, 1] S_
  reducesTo_S256x300x100_S_d0_1_2 : S256x300x100.ReducesTo [0, 1, 2] S_

variable [Facts]

def fn_part5 {F : FTy → Type} [FloatOps F] (main_v70 : FVec F S256x300x100 .f32) (main_v92 : IVec S_ 1) (main_v95 : IVec S_ 1) : IVec S_ 1 :=
  let main_v96 : IVec S_ 1 := andi main_v92 main_v95
  let main_cst_22 : FVec F S_ .f32 := constant S_ .f32 0x00000000#32
  let main_v97 : FVec F S256x300x100 .f32 := broadcastInDim S256x300x100 ![] bcast_S_S256x300x100 main_cst_22
  let main_v98 : IVec S256x300x100 1 := cmpf .une main_v70 main_v97
  let main_c_23 : IVec S_ 1 := constantI S_ 1 1#1
  let main_v99 : IVec S_ 1 := (fun x v => Host.reduce IntOp.andi x v reducesTo_S256x300x100_S_d0_1_2 h_S_) main_v98 main_c_23
  let main_v100 : IVec S_ 1 := andi main_v96 main_v99
  main_v100

def fn_part4 {F : FTy → Type} [FloatOps F] (main_arg2 : IVec S256x100 32) (main_arg3 : FVec F S256x100x4 .f32) (main_v59 : FVec F S256x300x100 .f32) (main_v70 : FVec F S256x300x100 .f32) (main_v79 : IVec S_ 1) : IVec S_ 1 :=
  let main_v80 : FVec F S256x100x4 .f32 := Host.absf main_arg3
  let main_cst_14 : FVec F S_ .f32 := constant S_ .f32 0x7F800000#32
  let main_v81 : FVec F S256x100x4 .f32 := broadcastInDim S256x100x4 ![] bcast_S_S256x100x4 main_cst_14
  let main_v82 : IVec S256x100x4 1 := cmpf .olt main_v80 main_v81
  let main_c_15 : IVec S_ 1 := constantI S_ 1 1#1
  let main_v83 : IVec S_ 1 := (fun x v => Host.reduce IntOp.andi x v reducesTo_S256x100x4_S_d0_1_2 h_S_) main_v82 main_c_15
  let main_v84 : IVec S_ 1 := andi main_v79 main_v83
  let main_c_16 : IVec S_ 32 := constantI S_ 32 0#32
  let main_v85 : IVec S256x100 32 := broadcastInDim S256x100 ![] bcast_S_S256x100 main_c_16
  let main_v86 : IVec S256x100 1 := cmpi .sge main_arg2 main_v85
  let main_c_17 : IVec S_ 1 := constantI S_ 1 1#1
  let main_v87 : IVec S_ 1 := (fun x v => Host.reduce IntOp.andi x v reducesTo_S256x100_S_d0_1 h_S_) main_v86 main_c_17
  let main_v88 : IVec S_ 1 := andi main_v84 main_v87
  let main_c_18 : IVec S_ 32 := constantI S_ 32 92#32
  let main_v89 : IVec S256x100 32 := broadcastInDim S256x100 ![] bcast_S_S256x100 main_c_18
  let main_v90 : IVec S256x100 1 := cmpi .slt main_arg2 main_v89
  let main_c_19 : IVec S_ 1 := constantI S_ 1 1#1
  let main_v91 : IVec S_ 1 := (fun x v => Host.reduce IntOp.andi x v reducesTo_S256x100_S_d0_1 h_S_) main_v90 main_c_19
  let main_v92 : IVec S_ 1 := andi main_v88 main_v91
  let main_cst_20 : FVec F S_ .f32 := constant S_ .f32 0x00000000#32
  let main_v93 : FVec F S256x300x100 .f32 := broadcastInDim S256x300x100 ![] bcast_S_S256x300x100 main_cst_20
  let main_v94 : IVec S256x300x100 1 := cmpf .une main_v59 main_v93
  let main_c_21 : IVec S_ 1 := constantI S_ 1 1#1
  let main_v95 : IVec S_ 1 := (fun x v => Host.reduce IntOp.andi x v reducesTo_S256x300x100_S_d0_1_2 h_S_) main_v94 main_c_21
  fn_part5 (F := F) main_v70 main_v92 main_v95

def fn_part3 {F : FTy → Type} [FloatOps F] (main_arg0 : FVec F S256x300x92 .f32) (main_arg1 : FVec F S256x300x4 .f32) (main_arg2 : IVec S256x100 32) (main_arg3 : FVec F S256x100x4 .f32) (main_v22 : FVec F S256x300x100 .f32) (main_v28 : FVec F S256x300x100 .f32) (main_v34 : FVec F S256x300x100 .f32) (main_v40 : FVec F S256x300x100 .f32) (main_v59 : FVec F S256x300x100 .f32) (main_v60 : FVec F S256x300x100 .f32) (main_v61 : FVec F S256x300x100 .f32) : IVec S_ 1 :=
  let main_v62 : FVec F S256x300x100 .f32 := subf main_v60 main_v61
  let main_cst_9 : FVec F S_ .f32 := constant S_ .f32 0x00000000#32
  let main_v63 : FVec F S256x300x100 .f32 := broadcastInDim S256x300x100 ![] bcast_S_S256x300x100 main_cst_9
  let main_v64 : FVec F S256x300x100 .f32 := maximumf main_v62 main_v63
  let main_v65 : FVec F S256x300x100 .f32 := maximumf main_v28 main_v40
  let main_v66 : FVec F S256x300x100 .f32 := minimumf main_v22 main_v34
  let main_v67 : FVec F S256x300x100 .f32 := subf main_v65 main_v66
  let main_cst_10 : FVec F S_ .f32 := constant S_ .f32 0x00000000#32
  let main_v68 : FVec F S256x300x100 .f32 := broadcastInDim S256x300x100 ![] bcast_S_S256x300x100 main_cst_10
  let main_v69 : FVec F S256x300x100 .f32 := maximumf main_v67 main_v68
  let main_v70 : FVec F S256x300x100 .f32 := mulf main_v64 main_v69
  let main_v71 : FVec F S256x300x92 .f32 := Host.absf main_arg0
  let main_cst_11 : FVec F S_ .f32 := constant S_ .f32 0x7F800000#32
  let main_v72 : FVec F S256x300x92 .f32 := broadcastInDim S256x300x92 ![] bcast_S_S256x300x92 main_cst_11
  let main_v73 : IVec S256x300x92 1 := cmpf .olt main_v71 main_v72
  let main_c : IVec S_ 1 := constantI S_ 1 1#1
  let main_v74 : IVec S_ 1 := (fun x v => Host.reduce IntOp.andi x v reducesTo_S256x300x92_S_d0_1_2 h_S_) main_v73 main_c
  let main_v75 : FVec F S256x300x4 .f32 := Host.absf main_arg1
  let main_cst_12 : FVec F S_ .f32 := constant S_ .f32 0x7F800000#32
  let main_v76 : FVec F S256x300x4 .f32 := broadcastInDim S256x300x4 ![] bcast_S_S256x300x4 main_cst_12
  let main_v77 : IVec S256x300x4 1 := cmpf .olt main_v75 main_v76
  let main_c_13 : IVec S_ 1 := constantI S_ 1 1#1
  let main_v78 : IVec S_ 1 := (fun x v => Host.reduce IntOp.andi x v reducesTo_S256x300x4_S_d0_1_2 h_S_) main_v77 main_c_13
  let main_v79 : IVec S_ 1 := andi main_v74 main_v78
  fn_part4 (F := F) main_arg2 main_arg3 main_v59 main_v70 main_v79

def fn_part2 {F : FTy → Type} [FloatOps F] (main_arg0 : FVec F S256x300x92 .f32) (main_arg1 : FVec F S256x300x4 .f32) (main_arg2 : IVec S256x100 32) (main_arg3 : FVec F S256x100x4 .f32) (main_v12 : FVec F S256x300x100 .f32) (main_v19 : FVec F S256x300x100 .f32) (main_v22 : FVec F S256x300x100 .f32) (main_v25 : FVec F S256x300x100 .f32) (main_v28 : FVec F S256x300x100 .f32) (main_v31 : FVec F S256x300x100 .f32) (main_v34 : FVec F S256x300x100 .f32) (main_v37 : FVec F S256x300x100 .f32) (main_v39 : FVec F S256x300x100 .f32) : IVec S_ 1 :=
  let main_v40 : FVec F S256x300x100 .f32 := addf main_v12 main_v39
  let main_v41 : FVec F S256x300x100 .f32 := subf main_v25 main_v19
  let main_v42 : FVec F S256x300x100 .f32 := subf main_v28 main_v22
  let main_v43 : FVec F S256x300x100 .f32 := mulf main_v41 main_v42
  let main_v44 : FVec F S256x300x100 .f32 := subf main_v37 main_v31
  let main_v45 : FVec F S256x300x100 .f32 := subf main_v40 main_v34
  let main_v46 : FVec F S256x300x100 .f32 := mulf main_v44 main_v45
  let main_v47 : FVec F S256x300x100 .f32 := minimumf main_v25 main_v37
  let main_v48 : FVec F S256x300x100 .f32 := maximumf main_v19 main_v31
  let main_v49 : FVec F S256x300x100 .f32 := subf main_v47 main_v48
  let main_cst_7 : FVec F S_ .f32 := constant S_ .f32 0x00000000#32
  let main_v50 : FVec F S256x300x100 .f32 := broadcastInDim S256x300x100 ![] bcast_S_S256x300x100 main_cst_7
  let main_v51 : FVec F S256x300x100 .f32 := maximumf main_v49 main_v50
  let main_v52 : FVec F S256x300x100 .f32 := minimumf main_v28 main_v40
  let main_v53 : FVec F S256x300x100 .f32 := maximumf main_v22 main_v34
  let main_v54 : FVec F S256x300x100 .f32 := subf main_v52 main_v53
  let main_cst_8 : FVec F S_ .f32 := constant S_ .f32 0x00000000#32
  let main_v55 : FVec F S256x300x100 .f32 := broadcastInDim S256x300x100 ![] bcast_S_S256x300x100 main_cst_8
  let main_v56 : FVec F S256x300x100 .f32 := maximumf main_v54 main_v55
  let main_v57 : FVec F S256x300x100 .f32 := mulf main_v51 main_v56
  let main_v58 : FVec F S256x300x100 .f32 := addf main_v43 main_v46
  let main_v59 : FVec F S256x300x100 .f32 := subf main_v58 main_v57
  let main_v60 : FVec F S256x300x100 .f32 := maximumf main_v25 main_v37
  let main_v61 : FVec F S256x300x100 .f32 := minimumf main_v19 main_v31
  fn_part3 (F := F) main_arg0 main_arg1 main_arg2 main_arg3 main_v22 main_v28 main_v34 main_v40 main_v59 main_v60 main_v61

def fn_part1 {F : FTy → Type} [FloatOps F] (main_arg0 : FVec F S256x300x92 .f32) (main_arg1 : FVec F S256x300x4 .f32) (main_arg2 : IVec S256x100 32) (main_arg3 : FVec F S256x100x4 .f32) (main_v2 : FVec F S256x300x100 .f32) (main_v4 : FVec F S256x300x100 .f32) (main_v6 : FVec F S256x300x100 .f32) (main_v8 : FVec F S256x300x100 .f32) (main_v10 : FVec F S256x300x100 .f32) (main_v12 : FVec F S256x300x100 .f32) (main_v14 : FVec F S256x300x100 .f32) (main_v16 : FVec F S256x300x100 .f32) (main_v19 : FVec F S256x300x100 .f32) (main_v21 : FVec F S256x300x100 .f32) : IVec S_ 1 :=
  let main_v22 : FVec F S256x300x100 .f32 := subf main_v4 main_v21
  let main_cst_1 : FVec F S_ .f32 := constant S_ .f32 0x3F000000#32
  let main_v23 : FVec F S256x300x100 .f32 := broadcastInDim S256x300x100 ![] bcast_S_S256x300x100 main_cst_1
  let main_v24 : FVec F S256x300x100 .f32 := mulf main_v23 main_v6
  let main_v25 : FVec F S256x300x100 .f32 := addf main_v2 main_v24
  let main_cst_2 : FVec F S_ .f32 := constant S_ .f32 0x3F000000#32
  let main_v26 : FVec F S256x300x100 .f32 := broadcastInDim S256x300x100 ![] bcast_S_S256x300x100 main_cst_2
  let main_v27 : FVec F S256x300x100 .f32 := mulf main_v26 main_v8
  let main_v28 : FVec F S256x300x100 .f32 := addf main_v4 main_v27
  let main_cst_3 : FVec F S_ .f32 := constant S_ .f32 0x3F000000#32
  let main_v29 : FVec F S256x300x100 .f32 := broadcastInDim S256x300x100 ![] bcast_S_S256x300x100 main_cst_3
  let main_v30 : FVec F S256x300x100 .f32 := mulf main_v29 main_v14
  let main_v31 : FVec F S256x300x100 .f32 := subf main_v10 main_v30
  let main_cst_4 : FVec F S_ .f32 := constant S_ .f32 0x3F000000#32
  let main_v32 : FVec F S256x300x100 .f32 := broadcastInDim S256x300x100 ![] bcast_S_S256x300x100 main_cst_4
  let main_v33 : FVec F S256x300x100 .f32 := mulf main_v32 main_v16
  let main_v34 : FVec F S256x300x100 .f32 := subf main_v12 main_v33
  let main_cst_5 : FVec F S_ .f32 := constant S_ .f32 0x3F000000#32
  let main_v35 : FVec F S256x300x100 .f32 := broadcastInDim S256x300x100 ![] bcast_S_S256x300x100 main_cst_5
  let main_v36 : FVec F S256x300x100 .f32 := mulf main_v35 main_v14
  let main_v37 : FVec F S256x300x100 .f32 := addf main_v10 main_v36
  let main_cst_6 : FVec F S_ .f32 := constant S_ .f32 0x3F000000#32
  let main_v38 : FVec F S256x300x100 .f32 := broadcastInDim S256x300x100 ![] bcast_S_S256x300x100 main_cst_6
  let main_v39 : FVec F S256x300x100 .f32 := mulf main_v38 main_v16
  fn_part2 (F := F) main_arg0 main_arg1 main_arg2 main_arg3 main_v12 main_v19 main_v22 main_v25 main_v28 main_v31 main_v34 main_v37 main_v39

def fn {F : FTy → Type} [FloatOps F] (main_arg0 : FVec F S256x300x92 .f32) (main_arg1 : FVec F S256x300x4 .f32) (main_arg2 : IVec S256x100 32) (main_arg3 : FVec F S256x100x4 .f32) : IVec S_ 1 :=
  let main_v0 : FVec F S256x4x100 .f32 := (transpose S256x4x100 [0, 2, 1] · transposes_S256x100x4_S256x4x100_0_2_1) main_arg3
  let main_v1 : FVec F S256x300x1 .f32 := (extractStridedSlice S256x300x1 ![0, 0, 0] · slices_S256x300x4_S256x300x1_0_0_0) main_arg1
  let main_v2 : FVec F S256x300x100 .f32 := broadcastInDim S256x300x100 ![0, 1, 2] bcast_S256x300x1_S256x300x100_0_1_2 main_v1
  let main_v3 : FVec F S256x300x1 .f32 := (extractStridedSlice S256x300x1 ![0, 0, 1] · slices_S256x300x4_S256x300x1_0_0_1) main_arg1
  let main_v4 : FVec F S256x300x100 .f32 := broadcastInDim S256x300x100 ![0, 1, 2] bcast_S256x300x1_S256x300x100_0_1_2 main_v3
  let main_v5 : FVec F S256x300x1 .f32 := (extractStridedSlice S256x300x1 ![0, 0, 2] · slices_S256x300x4_S256x300x1_0_0_2) main_arg1
  let main_v6 : FVec F S256x300x100 .f32 := broadcastInDim S256x300x100 ![0, 1, 2] bcast_S256x300x1_S256x300x100_0_1_2 main_v5
  let main_v7 : FVec F S256x300x1 .f32 := (extractStridedSlice S256x300x1 ![0, 0, 3] · slices_S256x300x4_S256x300x1_0_0_3) main_arg1
  let main_v8 : FVec F S256x300x100 .f32 := broadcastInDim S256x300x100 ![0, 1, 2] bcast_S256x300x1_S256x300x100_0_1_2 main_v7
  let main_v9 : FVec F S256x1x100 .f32 := (extractStridedSlice S256x1x100 ![0, 0, 0] · slices_S256x4x100_S256x1x100_0_0_0) main_v0
  let main_v10 : FVec F S256x300x100 .f32 := broadcastInDim S256x300x100 ![0, 1, 2] bcast_S256x1x100_S256x300x100_0_1_2 main_v9
  let main_v11 : FVec F S256x1x100 .f32 := (extractStridedSlice S256x1x100 ![0, 1, 0] · slices_S256x4x100_S256x1x100_0_1_0) main_v0
  let main_v12 : FVec F S256x300x100 .f32 := broadcastInDim S256x300x100 ![0, 1, 2] bcast_S256x1x100_S256x300x100_0_1_2 main_v11
  let main_v13 : FVec F S256x1x100 .f32 := (extractStridedSlice S256x1x100 ![0, 2, 0] · slices_S256x4x100_S256x1x100_0_2_0) main_v0
  let main_v14 : FVec F S256x300x100 .f32 := broadcastInDim S256x300x100 ![0, 1, 2] bcast_S256x1x100_S256x300x100_0_1_2 main_v13
  let main_v15 : FVec F S256x1x100 .f32 := (extractStridedSlice S256x1x100 ![0, 3, 0] · slices_S256x4x100_S256x1x100_0_3_0) main_v0
  let main_v16 : FVec F S256x300x100 .f32 := broadcastInDim S256x300x100 ![0, 1, 2] bcast_S256x1x100_S256x300x100_0_1_2 main_v15
  let main_cst : FVec F S_ .f32 := constant S_ .f32 0x3F000000#32
  let main_v17 : FVec F S256x300x100 .f32 := broadcastInDim S256x300x100 ![] bcast_S_S256x300x100 main_cst
  let main_v18 : FVec F S256x300x100 .f32 := mulf main_v17 main_v6
  let main_v19 : FVec F S256x300x100 .f32 := subf main_v2 main_v18
  let main_cst_0 : FVec F S_ .f32 := constant S_ .f32 0x3F000000#32
  let main_v20 : FVec F S256x300x100 .f32 := broadcastInDim S256x300x100 ![] bcast_S_S256x300x100 main_cst_0
  let main_v21 : FVec F S256x300x100 .f32 := mulf main_v20 main_v8
  fn_part1 (F := F) main_arg0 main_arg1 main_arg2 main_arg3 main_v2 main_v4 main_v6 main_v8 main_v10 main_v12 main_v14 main_v16 main_v19 main_v21
-- ==== Kernel.lean ====
abbrev S256x300x92 : Shape := ⟨3, ![256, 300, 92]⟩
abbrev S256x300x4 : Shape := ⟨3, ![256, 300, 4]⟩
abbrev S256x100 : Shape := ⟨2, ![256, 100]⟩
abbrev S256x100x4 : Shape := ⟨3, ![256, 100, 4]⟩
abbrev S256x1x100 : Shape := ⟨3, ![256, 1, 100]⟩
abbrev S256x4x100 : Shape := ⟨3, ![256, 4, 100]⟩
abbrev S256x300x100 : Shape := ⟨3, ![256, 300, 100]⟩
abbrev S8x300x92 : Shape := ⟨3, ![8, 300, 92]⟩
abbrev S8x300x4 : Shape := ⟨3, ![8, 300, 4]⟩
abbrev S8x1x100 : Shape := ⟨3, ![8, 1, 100]⟩
abbrev S8x4x100 : Shape := ⟨3, ![8, 4, 100]⟩
abbrev S8x300x100 : Shape := ⟨3, ![8, 300, 100]⟩
abbrev S8x300 : Shape := ⟨2, ![8, 300]⟩
abbrev S8x300x1 : Shape := ⟨3, ![8, 300, 1]⟩
abbrev S8x92x100 : Shape := ⟨3, ![8, 92, 100]⟩

abbrev nBuf : Space → Nat
  | .hbm => 7
  | .vmem => 10
  | .smem => 0
  | _ => 0

abbrev bufTy : (tb : Table) → Fin (tcTables nBuf tb) → BufTy
  | .hbm, ⟨0, _⟩ => ⟨S256x300x92, .f32⟩
  | .hbm, ⟨1, _⟩ => ⟨S256x300x4, .f32⟩
  | .hbm, ⟨2, _⟩ => ⟨S256x100, .i32⟩
  | .hbm, ⟨3, _⟩ => ⟨S256x100x4, .f32⟩
  | .hbm, ⟨4, _⟩ => ⟨S256x1x100, .i32⟩
  | .hbm, ⟨5, _⟩ => ⟨S256x4x100, .f32⟩
  | .hbm, ⟨6, _⟩ => ⟨S256x300x100, .f32⟩
  | .local _ .vmem, ⟨0, _⟩ => ⟨S8x300x92, .f32⟩
  | .local _ .vmem, ⟨1, _⟩ => ⟨S8x300x92, .f32⟩
  | .local _ .vmem, ⟨2, _⟩ => ⟨S8x300x4, .f32⟩
  | .local _ .vmem, ⟨3, _⟩ => ⟨S8x300x4, .f32⟩
  | .local _ .vmem, ⟨4, _⟩ => ⟨S8x1x100, .i32⟩
  | .local _ .vmem, ⟨5, _⟩ => ⟨S8x1x100, .i32⟩
  | .local _ .vmem, ⟨6, _⟩ => ⟨S8x4x100, .f32⟩
  | .local _ .vmem, ⟨7, _⟩ => ⟨S8x4x100, .f32⟩
  | .local _ .vmem, ⟨8, _⟩ => ⟨S8x300x100, .f32⟩
  | .local _ .vmem, ⟨9, _⟩ => ⟨S8x300x100, .f32⟩
  | _, _ => ⟨S256x300x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x300x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x300x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x100 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x300x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x100_S256x1x100 : S256x100.ShapeCasts S256x1x100
  transposes_S256x100x4_S256x4x100_0_2_1 : S256x100x4.Transposes [0, 2, 1] S256x4x100
  inb_S8x300x92_S8x300x92_0_0_0 : ∀ a, (![0, 0, 0] : Fin 3 → Nat) a + S8x300x92.size a ≤ S8x300x92.size a
  h_S8x300x92 : 0 < S8x300x92.numel
  inb_S8x300x4_S8x300x4_0_0_0 : ∀ a, (![0, 0, 0] : Fin 3 → Nat) a + S8x300x4.size a ≤ S8x300x4.size a
  h_S8x300x4 : 0 < S8x300x4.numel
  inb_S8x1x100_S8x1x100_0_0_0 : ∀ a, (![0, 0, 0] : Fin 3 → Nat) a + S8x1x100.size a ≤ S8x1x100.size a
  h_S8x1x100 : 0 < S8x1x100.numel
  shapeCasts_S8x1x100_S8x1x100 : S8x1x100.ShapeCasts S8x1x100
  inb_S8x4x100_S8x4x100_0_0_0 : ∀ a, (![0, 0, 0] : Fin 3 → Nat) a + S8x4x100.size a ≤ S8x4x100.size a
  h_S8x4x100 : 0 < S8x4x100.numel
  shapeCasts_S8x4x100_S8x4x100 : S8x4x100.ShapeCasts S8x4x100
  reduces_S8x300x92_S8x300 : S8x300x92.Reduces [2] S8x300
  shapeCasts_S8x300_S8x300x1 : S8x300.ShapeCasts S8x300x1
  broadcasts_S8x300x1_S8x300x92 : S8x300x1.Broadcasts S8x300x92
  iota_S8x92x100_d1_w32 : S8x92x100.Iotas .tc 32 [1]
  broadcasts_S8x1x100_S8x92x100 : S8x1x100.Broadcasts S8x92x100
  natLt_1_32 : 1 < 32
  slices_S8x300x4_o0_0_0_S8x300x1 : S8x300x4.Slices ![0, 0, 0] S8x300x1
  slices_S8x300x4_o0_0_1_S8x300x1 : S8x300x4.Slices ![0, 0, 1] S8x300x1
  slices_S8x300x4_o0_0_2_S8x300x1 : S8x300x4.Slices ![0, 0, 2] S8x300x1
  slices_S8x300x4_o0_0_3_S8x300x1 : S8x300x4.Slices ![0, 0, 3] S8x300x1
  slices_S8x4x100_o0_0_0_S8x1x100 : S8x4x100.Slices ![0, 0, 0] S8x1x100
  slices_S8x4x100_o0_1_0_S8x1x100 : S8x4x100.Slices ![0, 1, 0] S8x1x100
  slices_S8x4x100_o0_2_0_S8x1x100 : S8x4x100.Slices ![0, 2, 0] S8x1x100
  slices_S8x4x100_o0_3_0_S8x1x100 : S8x4x100.Slices ![0, 3, 0] S8x1x100
  broadcasts_S8x300x1_S8x300x100 : S8x300x1.Broadcasts S8x300x100
  broadcasts_S8x1x100_S8x300x100 : S8x1x100.Broadcasts S8x300x100
  inb_S8x300x100_S8x300x100_0_0_0 : ∀ a, (![0, 0, 0] : Fin 3 → Nat) a + S8x300x100.size a ≤ S8x300x100.size a
  h_S8x300x100 : 0 < S8x300x100.numel
  dot_S8x300x92_S8x92x100_S8x300x100_2_1_1_2_0_0_wf : DotDims.WF S8x300x92 S8x92x100 S8x300x100 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x92.size a ≤ S256x300x92.size a
  hwx0_0 : ∀ i : grid0.Coords, EltTy.bits .f32 = 32 ∨ (Rect.block (s := S256x300x92) S8x300x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x300x4.size a ≤ S256x300x4.size a
  hwx0_1 : ∀ i : grid0.Coords, EltTy.bits .f32 = 32 ∨ (Rect.block (s := S256x300x4) S8x300x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x100.size a ≤ S256x1x100.size a
  hwx0_2 : ∀ i : grid0.Coords, EltTy.bits .i32 = 32 ∨ (Rect.block (s := S256x1x100) S8x1x100.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x100.size a ≤ S256x4x100.size a
  hwx0_3 : ∀ i : grid0.Coords, EltTy.bits .f32 = 32 ∨ (Rect.block (s := S256x4x100) S8x4x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x300x100.size a ≤ S256x300x100.size a
  hwx0_4 : ∀ i : grid0.Coords, EltTy.bits .f32 = 32 ∨ (Rect.block (s := S256x300x100) S8x300x100.size (cc0_transform_4 i) (hinb0_4 i)).WholeWords (EltTy.packing .f32)

variable [Facts₀]

def dot_S8x300x92_S8x92x100_S8x300x100_2_1_1_2_0_0 : DotDims S8x300x92 S8x92x100 S8x300x100 where
  lhsContracting := [2]
  rhsContracting := [1]
  lhsNonContracting := [1]
  rhsNonContracting := [2]
  lhsBatch := [0]
  rhsBatch := [0]
  wf := dot_S8x300x92_S8x92x100_S8x300x100_2_1_1_2_0_0_wf

abbrev win0_0 : Pipeline.Window sig grid0 :=
  Pipeline.Window.ofSpec (Memref.whole main_arg0) S8x300x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x300x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x4x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x300x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x300x92 : Shape := ⟨3, ![256, 300, 92]⟩
abbrev S256x300x4 : Shape := ⟨3, ![256, 300, 4]⟩
abbrev S256x100 : Shape := ⟨2, ![256, 100]⟩
abbrev S256x100x4 : Shape := ⟨3, ![256, 100, 4]⟩
abbrev S_ : Shape := ⟨0, ![]⟩
abbrev S256x300 : Shape := ⟨2, ![256, 300]⟩
abbrev S256x300x1 : Shape := ⟨3, ![256, 300, 1]⟩
abbrev S256x1x100 : Shape := ⟨3, ![256, 1, 100]⟩
abbrev S256x100x1 : Shape := ⟨3, ![256, 100, 1]⟩
abbrev S1 : Shape := ⟨1, ![1]⟩
abbrev S1x1x1 : Shape := ⟨3, ![1, 1, 1]⟩
abbrev S256x300x100 : Shape := ⟨3, ![256, 300, 100]⟩
abbrev S256x300x1x4 : Shape := ⟨4, ![256, 300, 1, 4]⟩
abbrev S256x1x100x4 : Shape := ⟨4, ![256, 1, 100, 4]⟩
abbrev S256x300x100x4 : Shape := ⟨4, ![256, 300, 100, 4]⟩
abbrev S256x300x1x2 : Shape := ⟨4, ![256, 300, 1, 2]⟩
abbrev S256x1x100x2 : Shape := ⟨4, ![256, 1, 100, 2]⟩
abbrev S256x300x100x2 : Shape := ⟨4, ![256, 300, 100, 2]⟩
abbrev S256x300x100x1 : Shape := ⟨4, ![256, 300, 100, 1]⟩

abbrev nBuf : Space → Nat
  | .hbm => 195
  | .vmem => 0
  | .smem => 0
  | _ => 0

abbrev hbmTy0_0 (i : Nat) : BufTy := match i % 128 with
  | 0 => ⟨S256x300x92, .f32⟩
  | 1 => ⟨S256x300x4, .f32⟩
  | 2 => ⟨S256x100, .i32⟩
  | 3 => ⟨S256x100x4, .f32⟩
  | 4 => ⟨S_, .f32⟩
  | 5 => ⟨S256x300, .f32⟩
  | 6 => ⟨S_, .f32⟩
  | 7 => ⟨S256x300, .f32⟩
  | 8 => ⟨S256x300, .f32⟩
  | 9 => ⟨S256x300x1, .f32⟩
  | 10 => ⟨S256x300x92, .f32⟩
  | 11 => ⟨S256x300x92, .f32⟩
  | 12 => ⟨S256x300x92, .f32⟩
  | 13 => ⟨S_, .f32⟩
  | 14 => ⟨S256x300, .f32⟩
  | 15 => ⟨S256x300x1, .f32⟩
  | 16 => ⟨S256x300x92, .f32⟩
  | 17 => ⟨S256x300x92, .f32⟩
  | 18 => ⟨S256x1x100, .i32⟩
  | 19 => ⟨S_, .i32⟩
  | 20 => ⟨S256x1x100, .i32⟩
  | 21 => ⟨S256x1x100, .i1⟩
  | 22 => ⟨S_, .i32⟩
  | 23 => ⟨S256x1x100, .i32⟩
  | 24 => ⟨S256x1x100, .i32⟩
  | 25 => ⟨S256x1x100, .i32⟩
  | 26 => ⟨S256x100x1, .i32⟩
  | 27 => ⟨S1, .i32⟩
  | 28 => ⟨S_, .i32⟩
  | 29 => ⟨S256x100x1, .i32⟩
  | 30 => ⟨S256x100x1, .i1⟩
  | 31 => ⟨S1x1x1, .i32⟩
  | 32 => ⟨S256x100x1, .i32⟩
  | 33 => ⟨S256x100x1, .i1⟩
  | 34 => ⟨S256x100x1, .i1⟩
  | 35 => ⟨S_, .i1⟩
  | 36 => ⟨S256x100, .i1⟩
  | 37 => ⟨S256x300x100, .f32⟩
  | 38 => ⟨S256x300x100, .i1⟩
  | 39 => ⟨S_, .f32⟩
  | 40 => ⟨S256x300x100, .f32⟩
  | 41 => ⟨S256x300x100, .f32⟩
  | 42 => ⟨S256x300x100, .f32⟩
  | 43 => ⟨S256x300x1x4, .f32⟩
  | 44 => ⟨S256x1x100x4, .f32⟩
  | 45 => ⟨S256x300x100x4, .f32⟩
  | 46 => ⟨S256x300x100x4, .f32⟩
  | 47 => ⟨S256x300x100x4, .f32⟩
  | 48 => ⟨S256x300x100x4, .f32⟩
  | 49 => ⟨S_, .f32⟩
  | 50 => ⟨S256x300x100, .f32⟩
  | 51 => ⟨S256x300x1, .f32⟩
  | 52 => ⟨S256x300, .f32⟩
  | 53 => ⟨S256x300x1, .f32⟩
  | 54 => ⟨S256x300, .f32⟩
  | 55 => ⟨S256x300x1, .f32⟩
  | 56 => ⟨S256x300, .f32⟩
  | 57 => ⟨S256x300x1, .f32⟩
  | 58 => ⟨S256x300, .f32⟩
  | 59 => ⟨S_, .f32⟩
  | 60 => ⟨S256x300, .f32⟩
  | 61 => ⟨S256x300, .f32⟩
  | 62 => ⟨S256x300, .f32⟩
  | 63 => ⟨S_, .f32⟩
  | 64 => ⟨S256x300, .f32⟩
  | 65 => ⟨S256x300, .f32⟩
  | 66 => ⟨S256x300, .f32⟩
  | 67 => ⟨S_, .f32⟩
  | 68 => ⟨S256x300, .f32⟩
  | 69 => ⟨S256x300, .f32⟩
  | 70 => ⟨S256x300, .f32⟩
  | 71 => ⟨S_, .f32⟩
  | 72 => ⟨S256x300, .f32⟩
  | 73 => ⟨S256x300, .f32⟩
  | 74 => ⟨S256x300, .f32⟩
  | 75 => ⟨S256x300x1, .f32⟩
  | 76 => ⟨S256x300x1, .f32⟩
  | 77 => ⟨S256x300x1, .f32⟩
  | 78 => ⟨S256x300x1, .f32⟩
  | 79 => ⟨S256x300x4, .f32⟩
  | 80 => ⟨S256x100x1, .f32⟩
  | 81 => ⟨S256x100, .f32⟩
  | 82 => ⟨S256x100x1, .f32⟩
  | 83 => ⟨S256x100, .f32⟩
  | 84 => ⟨S256x100x1, .f32⟩
  | 85 => ⟨S256x100, .f32⟩
  | 86 => ⟨S256x100x1, .f32⟩
  | 87 => ⟨S256x100, .f32⟩
  | 88 => ⟨S_, .f32⟩
  | 89 => ⟨S256x100, .f32⟩
  | 90 => ⟨S256x100, .f32⟩
  | 91 => ⟨S256x100, .f32⟩
  | 92 => ⟨S_, .f32⟩
  | 93 => ⟨S256x100, .f32⟩
  | 94 => ⟨S256x100, .f32⟩
  | 95 => ⟨S256x100, .f32⟩
  | 96 => ⟨S_, .f32⟩
  | 97 => ⟨S256x100, .f32⟩
  | 98 => ⟨S256x100, .f32⟩
  | 99 => ⟨S256x100, .f32⟩
  | 100 => ⟨S_, .f32⟩
  | 101 => ⟨S256x100, .f32⟩
  | 102 => ⟨S256x100, .f32⟩
  | 103 => ⟨S256x100, .f32⟩
  | 104 => ⟨S256x100x1, .f32⟩
  | 105 => ⟨S256x100x1, .f32⟩
  | 106 => ⟨S256x100x1, .f32⟩
  | 107 => ⟨S256x100x1, .f32⟩
  | 108 => ⟨S256x100x4, .f32⟩
  | 109 => ⟨S256x300x1, .f32⟩
  | 110 => ⟨S256x300, .f32⟩
  | 111 => ⟨S256x300x1, .f32⟩
  | 112 => ⟨S256x300, .f32⟩
  | 113 => ⟨S256x300, .f32⟩
  | 114 => ⟨S256x300x1, .f32⟩
  | 115 => ⟨S256x300, .f32⟩
  | 116 => ⟨S256x300x1, .f32⟩
  | 117 => ⟨S256x300, .f32⟩
  | 118 => ⟨S256x300, .f32⟩
  | 119 => ⟨S256x300, .f32⟩
  | 120 => ⟨S256x100x1, .f32⟩
  | 121 => ⟨S256x100, .f32⟩
  | 122 => ⟨S256x100x1, .f32⟩
  | 123 => ⟨S256x100, .f32⟩
  | 124 => ⟨S256x100, .f32⟩
  | 125 => ⟨S256x100x1, .f32⟩
  | 126 => ⟨S256x100, .f32⟩
  | 127 => ⟨S256x100x1, .f32⟩
  | _ => ⟨S256x300x92, .f32⟩

abbrev hbmTy0_1 (i : Nat) : BufTy := match i % 128 with
  | 0 => ⟨S256x100, .f32⟩
  | 1 => ⟨S256x100, .f32⟩
  | 2 => ⟨S256x100, .f32⟩
  | 3 => ⟨S256x300x1x4, .f32⟩
  | 4 => ⟨S256x1x100x4, .f32⟩
  | 5 => ⟨S256x300x1x2, .f32⟩
  | 6 => ⟨S256x1x100x2, .f32⟩
  | 7 => ⟨S256x300x100x2, .f32⟩
  | 8 => ⟨S256x300x100x2, .f32⟩
  | 9 => ⟨S256x300x100x2, .f32⟩
  | 10 => ⟨S256x300x1x2, .f32⟩
  | 11 => ⟨S256x1x100x2, .f32⟩
  | 12 => ⟨S256x300x100x2, .f32⟩
  | 13 => ⟨S256x300x100x2, .f32⟩
  | 14 => ⟨S256x300x100x2, .f32⟩
  | 15 => ⟨S256x300x100x2, .f32⟩
  | 16 => ⟨S_, .f32⟩
  | 17 => ⟨S_, .f32⟩
  | 18 => ⟨S256x300x100x2, .f32⟩
  | 19 => ⟨S256x300x100x2, .f32⟩
  | 20 => ⟨S256x300x100x1, .f32⟩
  | 21 => ⟨S256x300x100, .f32⟩
  | 22 => ⟨S256x300x100x1, .f32⟩
  | 23 => ⟨S256x300x100, .f32⟩
  | 24 => ⟨S256x300x100, .f32⟩
  | 25 => ⟨S256x300x1, .f32⟩
  | 26 => ⟨S256x1x100, .f32⟩
  | 27 => ⟨S256x300x100, .f32⟩
  | 28 => ⟨S256x300x100, .f32⟩
  | 29 => ⟨S256x300x100, .f32⟩
  | 30 => ⟨S256x300x100, .f32⟩
  | 31 => ⟨S256x300x100, .f32⟩
  | 32 => ⟨S256x300x1x2, .f32⟩
  | 33 => ⟨S256x1x100x2, .f32⟩
  | 34 => ⟨S256x300x100x2, .f32⟩
  | 35 => ⟨S256x300x100x2, .f32⟩
  | 36 => ⟨S256x300x100x2, .f32⟩
  | 37 => ⟨S256x300x1x2, .f32⟩
  | 38 => ⟨S256x1x100x2, .f32⟩
  | 39 => ⟨S256x300x100x2, .f32⟩
  | 40 => ⟨S256x300x100x2, .f32⟩
  | 41 => ⟨S256x300x100x2, .f32⟩
  | 42 => ⟨S256x300x100x2, .f32⟩
  | 43 => ⟨S_, .f32⟩
  | 44 => ⟨S_, .f32⟩
  | 45 => ⟨S256x300x100x2, .f32⟩
  | 46 => ⟨S256x300x100x2, .f32⟩
  | 47 => ⟨S256x300x100x1, .f32⟩
  | 48 => ⟨S256x300x100, .f32⟩
  | 49 => ⟨S256x300x100x1, .f32⟩
  | 50 => ⟨S256x300x100, .f32⟩
  | 51 => ⟨S256x300x100, .f32⟩
  | 52 => ⟨S256x300x100, .f32⟩
  | 53 => ⟨S256x300x100, .f32⟩
  | 54 => ⟨S256x300x100, .f32⟩
  | 55 => ⟨S256x300x100, .f32⟩
  | 56 => ⟨S_, .f32⟩
  | 57 => ⟨S256x300x100, .f32⟩
  | 58 => ⟨S256x300x100, .f32⟩
  | 59 => ⟨S_, .f32⟩
  | 60 => ⟨S256x300x100, .f32⟩
  | 61 => ⟨S256x300x100, .f32⟩
  | 62 => ⟨S256x300x100, .f32⟩
  | 63 => ⟨S_, .f32⟩
  | 64 => ⟨S256x300x100, .f32⟩
  | 65 => ⟨S256x300x100, .f32⟩
  | 66 => ⟨S256x300x100, .f32⟩
  | _ => ⟨S256x300x92, .f32⟩

abbrev hbmTy (i : Nat) : BufTy := match i / 128 with
  | 0 => hbmTy0_0 i
  | 1 => hbmTy0_1 i
  | _ => ⟨S256x300x92, .f32⟩

abbrev bufTy : (tb : Table) → Fin (tcTables nBuf tb) → BufTy
  | .hbm, ⟨i, _⟩ => hbmTy i
  | _, _ => ⟨S256x300x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_9 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_11 : Ref sig .tc := ⟨.hbm, 144, rfl⟩
abbrev main_call1_v0 : Ref sig .tc := ⟨.hbm, 145, rfl⟩
abbrev main_call1_v1 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_12 : Ref sig .tc := ⟨.hbm, 171, rfl⟩
abbrev main_call2_v0 : Ref sig .tc := ⟨.hbm, 172, rfl⟩
abbrev main_call2_v1 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_13 : Ref sig .tc := ⟨.hbm, 184, rfl⟩
abbrev main_v140 : Ref sig .tc := ⟨.hbm, 185, rfl⟩
abbrev main_v141 : Ref sig .tc := ⟨.hbm, 186, rfl⟩
abbrev main_cst_14 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_15 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩

abbrev nD : Nat := 1
abbrev τ : Topo := Topo.v7x

variable {F : FTy → Type} [FloatOps F]

class Facts₀ : Prop where
  reducesTo_S256x300x92_S256x300_d2 : S256x300x92.ReducesTo [2] S256x300
  h_S_ : 0 < S_.numel
  bcast_S_S256x300 : S_.BroadcastsInDim S256x300 (![] : Fin 0 → Fin S256x300.rank)
  bcast_S256x300_S256x300x1_0_1 : S256x300.BroadcastsInDim S256x300x1 (![0, 1] : Fin 2 → Fin S256x300x1.rank)
  bcast_S256x300x1_S256x300x92_0_1_2 : S256x300x1.BroadcastsInDim S256x300x92 (![0, 1, 2] : Fin 3 → Fin S256x300x92.rank)
  bcast_S256x100_S256x1x100_0_2 : S256x100.BroadcastsInDim S256x1x100 (![0, 2] : Fin 2 → Fin S256x1x100.rank)
  bcast_S_S256x1x100 : S_.BroadcastsInDim S256x1x100 (![] : Fin 0 → Fin S256x1x100.rank)
  shapeCasts_S256x1x100_S256x100x1 : S256x1x100.ShapeCasts S256x100x1
  bcast_S_S256x100x1 : S_.BroadcastsInDim S256x100x1 (![] : Fin 0 → Fin S256x100x1.rank)
  bcast_S1_S1x1x1_2 : S1.BroadcastsInDim S1x1x1 (![2] : Fin 1 → Fin S1x1x1.rank)
  bcast_S1x1x1_S256x100x1_0_1_2 : S1x1x1.BroadcastsInDim S256x100x1 (![0, 1, 2] : Fin 3 → Fin S256x100x1.rank)
  reducesTo_S256x100x1_S256x100_d2 : S256x100x1.ReducesTo [2] S256x100
  bcast_S256x100_S256x300x100_0_2 : S256x100.BroadcastsInDim S256x300x100 (![0, 2] : Fin 2 → Fin S256x300x100.rank)
  bcast_S_S256x300x100 : S_.BroadcastsInDim S256x300x100 (![] : Fin 0 → Fin S256x300x100.rank)
  bcast_S256x300x4_S256x300x1x4_0_1_3 : S256x300x4.BroadcastsInDim S256x300x1x4 (![0, 1, 3] : Fin 3 → Fin S256x300x1x4.rank)
  bcast_S256x100x4_S256x1x100x4_0_2_3 : S256x100x4.BroadcastsInDim S256x1x100x4 (![0, 2, 3] : Fin 3 → Fin S256x1x100x4.rank)
  bcast_S256x300x1x4_S256x300x100x4_0_1_2_3 : S256x300x1x4.BroadcastsInDim S256x300x100x4 (![0, 1, 2, 3] : Fin 4 → Fin S256x300x100x4.rank)
  bcast_S256x1x100x4_S256x300x100x4_0_1_2_3 : S256x1x100x4.BroadcastsInDim S256x300x100x4 (![0, 1, 2, 3] : Fin 4 → Fin S256x300x100x4.rank)
  reducesTo_S256x300x100x4_S256x300x100_d3 : S256x300x100x4.ReducesTo [3] S256x300x100
  slices_S256x300x4_S256x300x1_0_0_0 : S256x300x4.Slices ![0, 0, 0] S256x300x1
  shapeCasts_S256x300x1_S256x300 : S256x300x1.ShapeCasts S256x300
  slices_S256x300x4_S256x300x1_0_0_1 : S256x300x4.Slices ![0, 0, 1] S256x300x1
  slices_S256x300x4_S256x300x1_0_0_2 : S256x300x4.Slices ![0, 0, 2] S256x300x1
  slices_S256x300x4_S256x300x1_0_0_3 : S256x300x4.Slices ![0, 0, 3] S256x300x1
  concatenates_S256x300x1_S256x300x1_S256x300x1_S256x300x1_S256x300x4_d2 : Shape.Concatenates [S256x300x1, S256x300x1, S256x300x1, S256x300x1] S256x300x4 2
  slices_S256x100x4_S256x100x1_0_0_0 : S256x100x4.Slices ![0, 0, 0] S256x100x1
  shapeCasts_S256x100x1_S256x100 : S256x100x1.ShapeCasts S256x100
  slices_S256x100x4_S256x100x1_0_0_1 : S256x100x4.Slices ![0, 0, 1] S256x100x1
  slices_S256x100x4_S256x100x1_0_0_2 : S256x100x4.Slices ![0, 0, 2] S256x100x1
  slices_S256x100x4_S256x100x1_0_0_3 : S256x100x4.Slices ![0, 0, 3] S256x100x1
  bcast_S_S256x100 : S_.BroadcastsInDim S256x100 (![] : Fin 0 → Fin S256x100.rank)
  bcast_S256x100_S256x100x1_0_1 : S256x100.BroadcastsInDim S256x100x1 (![0, 1] : Fin 2 → Fin S256x100x1.rank)
  concatenates_S256x100x1_S256x100x1_S256x100x1_S256x100x1_S256x100x4_d2 : Shape.Concatenates [S256x100x1, S256x100x1, S256x100x1, S256x100x1] S256x100x4 2
  slices_S256x300x1x4_S256x300x1x2_0_0_0_0 : S256x300x1x4.Slices ![0, 0, 0, 0] S256x300x1x2
  slices_S256x1x100x4_S256x1x100x2_0_0_0_0 : S256x1x100x4.Slices ![0, 0, 0, 0] S256x1x100x2
  bcast_S256x300x1x2_S256x300x100x2_0_1_2_3 : S256x300x1x2.BroadcastsInDim S256x300x100x2 (![0, 1, 2, 3] : Fin 4 → Fin S256x300x100x2.rank)
  bcast_S256x1x100x2_S256x300x100x2_0_1_2_3 : S256x1x100x2.BroadcastsInDim S256x300x100x2 (![0, 1, 2, 3] : Fin 4 → Fin S256x300x100x2.rank)
  slices_S256x300x1x4_S256x300x1x2_0_0_0_2 : S256x300x1x4.Slices ![0, 0, 0, 2] S256x300x1x2
  slices_S256x1x100x4_S256x1x100x2_0_0_0_2 : S256x1x100x4.Slices ![0, 0, 0, 2] S256x1x100x2
  bcast_S_S256x300x100x2 : S_.BroadcastsInDim S256x300x100x2 (![] : Fin 0 → Fin S256x300x100x2.rank)
  slices_S256x300x100x2_S256x300x100x1_0_0_0_0 : S256x300x100x2.Slices ![0, 0, 0, 0] S256x300x100x1
  shapeCasts_S256x300x100x1_S256x300x100 : S256x300x100x1.ShapeCasts S256x300x100
  slices_S256x300x100x2_S256x300x100x1_0_0_0_1 : S256x300x100x2.Slices ![0, 0, 0, 1] S256x300x100x1
  bcast_S256x300x1_S256x300x100_0_1_2 : S256x300x1.BroadcastsInDim S256x300x100 (![0, 1, 2] : Fin 3 → Fin S256x300x100.rank)
  bcast_S256x1x100_S256x300x100_0_1_2 : S256x1x100.BroadcastsInDim S256x300x100 (![0, 1, 2] : Fin 3 → Fin S256x300x100.rank)
  gather_S256x300x92_S256x100x1_S256x300x100_1_2_0_0_2_2_13001_wf : GatherDims.WF S256x300x92 S256x100x1 S256x300x100 [1] [2] [0] [2] [0] 2 ![1, 300, 1]

variable [Facts₀]

def gather_S256x300x92_S256x100x1_S256x300x100_1_2_0_0_2_2_13001 : GatherDims S256x300x92 S256x100x1 S256x300x100 where
  offsetDims := [1]
  collapsedSliceDims := [2]
  operandBatchingDims := [0]
  startIndicesBatchingDims := [0]
  startIndexMap := [2]
  indexVectorDim := 2
  sliceSizes := ![1, 300, 1]
  wf := gather_S256x300x92_S256x100x1_S256x300x100_1_2_0_0_2_2_13001_wf

class Facts : Prop extends Facts₀ where

variable [Facts]
-- ==== Proof.Spec.lean ====
/-
  The matching cost of one (prediction, target) pair, as the two programs spell it, and the laws that make the two
  spellings one number.

  For a batch entry b, a query q and a target t the cost is
      5 · L1(p, g) − softmax(logits[b, q, ·])[label[b, t]] − 2 · GIoU(p, g)
  where p = pred_boxes[b, q, ·] and g = tgt_boxes[b, t, ·] are boxes (cx, cy, w, h).
  The kernel takes the class probability by a contraction with a one-hot column, writes the softmax's quotient as a
  product with a reciprocal, leaves the enclosing box's extents unclamped and merges GIoU's two quotients into one
  reciprocal of union · enclosing-area. The reference gathers the probability, divides twice, and clamps the enclosing
  extents at zero. On real boxes whose union and (clamped) enclosing area are nonzero the clamps are inactive and the
  merged quotient is the difference of the two: the costs agree.
-/
import Idealize.ShloMosaic.PureOps.Ideal
import Idealize.ShloMosaic.PureOps.Ideal.Laws
import Idealize.ShloMosaic.Lib.ValueIdx

noncomputable section

namespace Cert.MatchCost

open Idealize.ShloMosaic Idealize.ShloMosaic.ValueIdx

/-! ## The literals both programs carry -/

abbrev cZero : EReal := Ideal.ofBits .f32 0x00000000#32
abbrev cHalf : EReal := Ideal.ofBits .f32 0x3F000000#32
abbrev cOne : EReal := Ideal.ofBits .f32 0x3F800000#32
abbrev cTwo : EReal := Ideal.ofBits .f32 0x40000000#32
abbrev cFive : EReal := Ideal.ofBits .f32 0x40A00000#32
abbrev cNegInf : EReal := Ideal.ofBits .f32 0xFF800000#32

/-! ## A box's edges, and the areas of a pair -/

/-- A box is its centre and size, (cx, cy, w, h). Its lower and upper edge along an axis: centre ∓ half the size. -/
def lo (c w : EReal) : EReal := c - cHalf * w
def hi (c w : EReal) : EReal := c + cHalf * w

def x1 (p : Fin 4 → EReal) : EReal := lo (p 0) (p 2)
def y1 (p : Fin 4 → EReal) : EReal := lo (p 1) (p 3)
def x2 (p : Fin 4 → EReal) : EReal := hi (p 0) (p 2)
def y2 (p : Fin 4 → EReal) : EReal := hi (p 1) (p 3)

/-- A box as its four edges (x1, y1, x2, y2): the reference's xyxy form. -/
def corners (p : Fin 4 → EReal) : Fin 4 → EReal := ![x1 p, y1 p, x2 p, y2 p]

/-- (x2 − x1)(y2 − y1). -/
def area (p : Fin 4 → EReal) : EReal := (x2 p - x1 p) * (y2 p - y1 p)

/-- The intersection's area, each extent clamped at zero: the kernel writes max(d, 0), -/
def interK (p g : Fin 4 → EReal) : EReal :=
  max (min (x2 p) (x2 g) - max (x1 p) (x1 g)) cZero * max (min (y2 p) (y2 g) - max (y1 p) (y1 g)) cZero
/-- the reference max(0, d). -/
def interR (p g : Fin 4 → EReal) : EReal :=
  max cZero (min (x2 p) (x2 g) - max (x1 p) (x1 g)) * max cZero (min (y2 p) (y2 g) - max (y1 p) (y1 g))

def unionK (p g : Fin 4 → EReal) : EReal := area p + area g - interK p g
def unionR (p g : Fin 4 → EReal) : EReal := area p + area g - interR p g

/-- The smallest enclosing box's area: the kernel leaves its extents as they are, -/
def encK (p g : Fin 4 → EReal) : EReal :=
  (max (x2 p) (x2 g) - min (x1 p) (x1 g)) * (max (y2 p) (y2 g) - min (y1 p) (y1 g))
/-- the reference clamps them at zero. -/
def encR (p g : Fin 4 → EReal) : EReal :=
  max cZero (max (x2 p) (x2 g) - min (x1 p) (x1 g)) * max cZero (max (y2 p) (y2 g) - min (y1 p) (y1 g))

/-- Generalized IoU: the kernel's one reciprocal, (inter · enc + union²) · (1 / (union · enc)) − 1, -/
def giouK (p g : Fin 4 → EReal) : EReal :=
  (interK p g * encK p g + unionK p g * unionK p g) * Ideal.div cOne (unionK p g * encK p g) - cOne
/-- the reference's two quotients, inter / union − (enc − union) / enc. -/
def giouR (p g : Fin 4 → EReal) : EReal :=
  Ideal.div (interR p g) (unionR p g) - Ideal.div (encR p g - unionR p g) (encR p g)

/-- |x| as both programs' absolute value reads on the extended reals. -/
def abs' (x : EReal) : EReal := max x (-x)

/-- The L1 distance of the two boxes: the kernel adds the four terms left to right, -/
def l1K (p g : Fin 4 → EReal) : EReal :=
  ((abs' (p 0 - g 0) + abs' (p 1 - g 1)) + abs' (p 2 - g 2)) + abs' (p 3 - g 3)
/-- the reference sums them from zero. -/
def l1R (p g : Fin 4 → EReal) : EReal := cZero + ∑ k : Fin 4, abs' (p k - g k)

/-- The whole cost from the boxes and the class probability `cp`: the kernel's combination, -/
def costK (p g : Fin 4 → EReal) (cp : EReal) : EReal := (cFive * l1K p g - cOne * cp) - cTwo * giouK p g
/-- the reference's. -/
def costR (p g : Fin 4 → EReal) (cp : EReal) : EReal := (cFive * l1R p g + cOne * (-cp)) + cTwo * (-(giouR p g))

/-! ## The class probability -/

/-- A row's maximum, folded from −∞ (the kernel's lane reduction; the host's reduce is the same fold, once more
    maxed with −∞). -/
def rowMaxK (l : Fin 92 → EReal) : EReal := (Finset.univ : Finset (Fin 92)).fold max cNegInf l
def rowMaxR (l : Fin 92 → EReal) : EReal := max cNegInf ((Finset.univ : Finset (Fin 92)).fold max cNegInf l)

/-- exp(l c − M). -/
def expShift (l : Fin 92 → EReal) (M : EReal) (c : Fin 92) : EReal := Ideal.exp (l c - M)

/-- The softmax at class c: the kernel's product with the reciprocal of the sum, -/
def probK (l : Fin 92 → EReal) (c : Fin 92) : EReal :=
  expShift l (rowMaxK l) c * Ideal.div cOne (∑ c' : Fin 92, expShift l (rowMaxK l) c')
/-- the reference's quotient by the sum taken from zero. -/
def probR (l : Fin 92 → EReal) (c : Fin 92) : EReal :=
  Ideal.div (expShift l (rowMaxR l) c) (cZero + ∑ c' : Fin 92, expShift l (rowMaxR l) c')

/-- The one-hot column of a label word: 1 at the class whose number the word is, else 0. -/
def onehot (c : Fin 92) (lab : BitVec 32) : EReal := if lab = BitVec.ofNat 32 c.val then 1 else 0

/-- The kernel's class probability: the row of probabilities against the label's one-hot column. -/
def classK (l : Fin 92 → EReal) (lab : BitVec 32) : EReal := ∑ c : Fin 92, probK l c * onehot c lab

/-- The class a label word names (a word in range is its own number). -/
def labIdx (lab : BitVec 32) : Fin 92 := ⟨lab.toNat % 92, Nat.mod_lt _ (by norm_num)⟩

/-- The reference's class probability: the probability at the label's class. -/
def classR (l : Fin 92 → EReal) (lab : BitVec 32) : EReal := probR l (labIdx lab)

/-! ## The two programs' results as functions of the argument arrays -/

abbrev SL : Shape := ⟨3, ![256, 300, 92]⟩
abbrev SP : Shape := ⟨3, ![256, 300, 4]⟩
abbrev SLab : Shape := ⟨2, ![256, 100]⟩
abbrev ST : Shape := ⟨3, ![256, 100, 4]⟩
abbrev SO : Shape := ⟨3, ![256, 300, 100]⟩

/-- The logits of query q of batch entry b, -/
abbrev rowL (x0 : FVec Ideal SL .f32) (b : Fin 256) (q : Fin 300) : Fin 92 → EReal := fun c => x0 (ix3 b q c)
/-- its predicted box, -/
abbrev boxP (x1 : FVec Ideal SP .f32) (b : Fin 256) (q : Fin 300) : Fin 4 → EReal := fun k => x1 (ix3 b q k)
/-- target t's box, -/
abbrev boxT (x3 : FVec Ideal ST .f32) (b : Fin 256) (t : Fin 100) : Fin 4 → EReal := fun k => x3 (ix3 b t k)
/-- and target t's label word. -/
abbrev labAt (x2 : IVec SLab 32) (b : Fin 256) (t : Fin 100) : BitVec 32 := x2 (ix2 b t)

/-- The cost matrix as the kernel computes it, -/
def GK (x0 : FVec Ideal SL .f32) (x1 : FVec Ideal SP .f32) (x2 : IVec SLab 32) (x3 : FVec Ideal ST .f32) : FVec Ideal SO .f32 :=
  fun j => costK (boxP x1 (j 0) (j 1)) (boxT x3 (j 0) (j 2)) (classK (rowL x0 (j 0) (j 1)) (labAt x2 (j 0) (j 2)))
/-- and as the reference does. -/
def GR (x0 : FVec Ideal SL .f32) (x1 : FVec Ideal SP .f32) (x2 : IVec SLab 32) (x3 : FVec Ideal ST .f32) : FVec Ideal SO .f32 :=
  fun j => costR (boxP x1 (j 0) (j 1)) (boxT x3 (j 0) (j 2)) (classR (rowL x0 (j 0) (j 1)) (labAt x2 (j 0) (j 2)))

theorem GK_apply (x0 : FVec Ideal SL .f32) (x1 : FVec Ideal SP .f32) (x2 : IVec SLab 32) (x3 : FVec Ideal ST .f32)
    (b : Fin 256) (q : Fin 300) (t : Fin 100) :
    GK x0 x1 x2 x3 (ix3 b q t) = costK (boxP x1 b q) (boxT x3 b t) (classK (rowL x0 b q) (labAt x2 b t)) := rfl
theorem GR_apply (x0 : FVec Ideal SL .f32) (x1 : FVec Ideal SP .f32) (x2 : IVec SLab 32) (x3 : FVec Ideal ST .f32)
    (b : Fin 256) (q : Fin 300) (t : Fin 100) :
    GR x0 x1 x2 x3 (ix3 b q t) = costR (boxP x1 b q) (boxT x3 b t) (classR (rowL x0 b q) (labAt x2 b t)) := rfl

/-- What the precondition says of the arguments: every float entry is a real number, every label is a class number,
    and the reference's two GIoU denominators are nonzero for every pair. -/
structure InDomain (x0 : FVec Ideal SL .f32) (x1 : FVec Ideal SP .f32) (x2 : IVec SLab 32) (x3 : FVec Ideal ST .f32) : Prop where
  logits_real : ∀ (b : Fin 256) (q : Fin 300) (c : Fin 92), ∃ r : ℝ, x0 (ix3 b q c) = (r : EReal)
  pbox_real : ∀ (b : Fin 256) (q : Fin 300) (k : Fin 4), ∃ r : ℝ, x1 (ix3 b q k) = (r : EReal)
  tbox_real : ∀ (b : Fin 256) (t : Fin 100) (k : Fin 4), ∃ r : ℝ, x3 (ix3 b t k) = (r : EReal)
  label_range : ∀ (b : Fin 256) (t : Fin 100), 0 ≤ (x2 (ix2 b t)).toInt ∧ (x2 (ix2 b t)).toInt < 92
  union_ne : ∀ (b : Fin 256) (q : Fin 300) (t : Fin 100), unionR (boxP x1 b q) (boxT x3 b t) ≠ 0
  enc_ne : ∀ (b : Fin 256) (q : Fin 300) (t : Fin 100), encR (boxP x1 b q) (boxT x3 b t) ≠ 0

end Cert.MatchCost

end
-- ==== Proof.SpecConsts.lean ====
/-
  The float literals of the two programs as the extended reals their bit patterns denote.
-/
import proofs.«410024_j74981539053919_3_alg».proof.Proof.Spec

noncomputable section

namespace Cert.MatchCost

open Idealize.ShloMosaic

theorem cZero_eq : cZero = 0 := by
  simp [cZero, Ideal.ofBits, Ideal.ieee]

theorem cHalf_eq : cHalf = ((1 / 2 : ℝ) : EReal) := by
  simp [cHalf, Ideal.ofBits, Ideal.ieee, -EReal.coe_mul]; norm_num

theorem cOne_eq : cOne = 1 := by
  simp [cOne, Ideal.ofBits, Ideal.ieee, -EReal.coe_mul]; norm_num

theorem cTwo_eq : cTwo = ((2 : ℝ) : EReal) := by
  simp [cTwo, Ideal.ofBits, Ideal.ieee, -EReal.coe_mul]; norm_num

theorem cFive_eq : cFive = ((5 : ℝ) : EReal) := by
  simp [cFive, Ideal.ofBits, Ideal.ieee, -EReal.coe_mul]; norm_num

theorem cNegInf_eq : cNegInf = ⊥ := by
  simp [cNegInf, Ideal.ofBits, Ideal.ieee]

end Cert.MatchCost

end
-- ==== Proof.SpecClass.lean ====
/-
  The class probability: the kernel's contraction of the softmax row with the label's one-hot column against the
  reference's gathered entry of its softmax row.
-/
import proofs.«410024_j74981539053919_3_alg».proof.Proof.Spec
import proofs.«410024_j74981539053919_3_alg».proof.Proof.SpecConsts

noncomputable section

namespace Cert.MatchCost

open Idealize.ShloMosaic

/-- A finite sum of real numbers, read in the extended reals, is the real sum. -/
private theorem coe_sum (f : Fin 92 → ℝ) (s : Finset (Fin 92)) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a nonempty family of real numbers, folded from −∞, is one of them: a real number. -/
private theorem fold_max_real (r : Fin 92 → ℝ) {s : Finset (Fin 92)} (hs : s.Nonempty) :
    ∃ M : ℝ, s.fold max (⊥ : EReal) (fun c => (r c : EReal)) = (M : EReal) := by
  induction hs using Finset.Nonempty.cons_induction with
  | singleton a => exact ⟨r a, by rw [Finset.fold_singleton]; exact max_eq_left bot_le⟩
  | cons a s ha hs ih =>
    obtain ⟨M, hM⟩ := ih
    rw [Finset.fold_cons, hM]
    rcases le_total (r a) M with h | h
    · exact ⟨M, max_eq_right (EReal.coe_le_coe_iff.2 h)⟩
    · exact ⟨r a, max_eq_left (EReal.coe_le_coe_iff.2 h)⟩

/-- On a row of real numbers, and a label in range, the contraction with the one-hot column picks the label's
    probability, the softmax does not depend on its shift, and a product with a reciprocal is the quotient: the two
    class probabilities are one real number. -/
theorem class_eq (l : Fin 92 → EReal) (hl : ∀ c, ∃ r : ℝ, l c = (r : EReal)) (lab : BitVec 32) (hlab : lab.toNat < 92) :
    ∃ r : ℝ, classK l lab = (r : EReal) ∧ classR l lab = (r : EReal) := by
  classical
  choose r hr using hl
  obtain rfl : l = fun c => (r c : EReal) := funext hr
  -- the row maximum is a real number M; the reference's further maximum with −∞ changes nothing
  obtain ⟨M, hM⟩ := fold_max_real r (Finset.univ_nonempty (α := Fin 92))
  have hK : rowMaxK (fun c => (r c : EReal)) = (M : EReal) := by
    rw [rowMaxK, cNegInf_eq]; exact hM
  have hR : rowMaxR (fun c => (r c : EReal)) = (M : EReal) := by
    rw [rowMaxR, cNegInf_eq, hM]; exact max_eq_right bot_le
  -- the shifted exponentials are real, and their sum S is a positive real
  have hexp : ∀ c, expShift (fun c => (r c : EReal)) (M : EReal) c = ((Real.exp (r c - M) : ℝ) : EReal) := by
    intro c
    show Ideal.exp ((r c : EReal) - (M : EReal)) = _
    rw [← EReal.coe_sub]; rfl
  have hSpos : 0 < ∑ c, Real.exp (r c - M) :=
    Finset.sum_pos (fun c _ => Real.exp_pos _) Finset.univ_nonempty
  have hSne : (∑ c, Real.exp (r c - M)) ≠ 0 := ne_of_gt hSpos
  have hsum : (∑ c', expShift (fun c => (r c : EReal)) (M : EReal) c')
      = ((∑ c, Real.exp (r c - M) : ℝ) : EReal) := by
    rw [← coe_sum]; exact Finset.sum_congr rfl (fun c _ => hexp c)
  -- both programs' probability at class c is the real number exp(r c − M) · (1 / S)
  have hpK : ∀ c, probK (fun c => (r c : EReal)) c
      = ((Real.exp (r c - M) * (1 / ∑ c, Real.exp (r c - M)) : ℝ) : EReal) := by
    intro c
    rw [probK, hK, hexp, hsum, Ideal.div_coe hSne, cOne_eq, one_mul, ← EReal.coe_mul]
  have hpR : ∀ c, probR (fun c => (r c : EReal)) c
      = ((Real.exp (r c - M) * (1 / ∑ c, Real.exp (r c - M)) : ℝ) : EReal) := by
    intro c
    rw [probR, hR, hexp, hsum, cZero_eq, zero_add, Ideal.div_coe hSne, ← EReal.coe_mul]
  -- the one-hot column is 1 at the label's class and 0 elsewhere
  have hjval : (labIdx lab).val = lab.toNat := Nat.mod_eq_of_lt hlab
  have hoh_j : onehot (labIdx lab) lab = 1 := by
    rw [onehot, if_pos]
    apply BitVec.eq_of_toNat_eq
    rw [BitVec.toNat_ofNat, hjval]
    exact (Nat.mod_eq_of_lt (lt_trans hlab (by norm_num))).symm
  have hoh_ne : ∀ c, c ≠ labIdx lab → onehot c lab = 0 := by
    intro c hc
    rw [onehot, if_neg]
    intro h
    apply hc
    apply Fin.ext
    rw [hjval, h, BitVec.toNat_ofNat]
    exact (Nat.mod_eq_of_lt (lt_trans c.isLt (by norm_num))).symm
  refine ⟨Real.exp (r (labIdx lab) - M) * (1 / ∑ c, Real.exp (r c - M)), ?_, ?_⟩
  · rw [classK, Finset.sum_eq_single (labIdx lab)]
    · rw [hpK, hoh_j, mul_one]
    · intro c _ hc
      rw [hoh_ne c hc, mul_zero]
    · intro h
      exact absurd (Finset.mem_univ _) h
  · rw [classR]
    exact hpR _

end Cert.MatchCost

end
-- ==== Proof.SpecCost.lean ====
/-
  The cost of a pair from its boxes and class probability: the kernel's arrangement against the reference's.

  Three of the differences hold for all extended reals: max(d, 0) = max(0, d), so the two intersections and the two
  unions are equal; a product max(0, dx) · max(0, dy) that is not zero has both factors positive, so the clamps of the
  enclosing extents do nothing; and a sum of four terms from zero is the four terms added left to right. The fourth,
  one reciprocal against two quotients, is the identity (i·e + u²)/(u·e) − 1 = i/u − (e − u)/e of real numbers with
  u ≠ 0 and e ≠ 0, and needs the intersection, union and enclosing area to be real: they are, as sums, differences,
  products, maxima and minima of real numbers.
-/
import proofs.«410024_j74981539053919_3_alg».proof.Proof.Spec
import proofs.«410024_j74981539053919_3_alg».proof.Proof.SpecConsts

noncomputable section

namespace Cert.MatchCost

open Idealize.ShloMosaic

/-! ## Real numbers among the extended reals are closed under the operations used -/

/-- An extended real that is a real number. -/
private def IsR (x : EReal) : Prop := ∃ r : ℝ, x = (r : EReal)

private theorem isR_add {x y : EReal} (hx : IsR x) (hy : IsR y) : IsR (x + y) := by
  obtain ⟨a, rfl⟩ := hx
  obtain ⟨b, rfl⟩ := hy
  exact ⟨a + b, (EReal.coe_add a b).symm⟩

private theorem isR_sub {x y : EReal} (hx : IsR x) (hy : IsR y) : IsR (x - y) := by
  obtain ⟨a, rfl⟩ := hx
  obtain ⟨b, rfl⟩ := hy
  exact ⟨a - b, (EReal.coe_sub a b).symm⟩

private theorem isR_mul {x y : EReal} (hx : IsR x) (hy : IsR y) : IsR (x * y) := by
  obtain ⟨a, rfl⟩ := hx
  obtain ⟨b, rfl⟩ := hy
  exact ⟨a * b, (EReal.coe_mul a b).symm⟩

private theorem isR_max {x y : EReal} (hx : IsR x) (hy : IsR y) : IsR (max x y) := by
  rcases max_choice x y with h | h
  · rw [h]; exact hx
  · rw [h]; exact hy

private theorem isR_min {x y : EReal} (hx : IsR x) (hy : IsR y) : IsR (min x y) := by
  rcases min_choice x y with h | h
  · rw [h]; exact hx
  · rw [h]; exact hy

private theorem isR_cZero : IsR cZero := ⟨0, cZero_eq.trans EReal.coe_zero.symm⟩

private theorem isR_cHalf : IsR cHalf := ⟨1 / 2, cHalf_eq⟩

/-! ## The edges, areas, intersection, union and enclosing area of real boxes are real -/

private theorem isR_lo {c w : EReal} (hc : IsR c) (hw : IsR w) : IsR (lo c w) :=
  isR_sub hc (isR_mul isR_cHalf hw)

private theorem isR_hi {c w : EReal} (hc : IsR c) (hw : IsR w) : IsR (hi c w) :=
  isR_add hc (isR_mul isR_cHalf hw)

private theorem isR_x1 {p : Fin 4 → EReal} (hp : ∀ k, IsR (p k)) : IsR (x1 p) := isR_lo (hp 0) (hp 2)
private theorem isR_y1 {p : Fin 4 → EReal} (hp : ∀ k, IsR (p k)) : IsR (y1 p) := isR_lo (hp 1) (hp 3)
private theorem isR_x2 {p : Fin 4 → EReal} (hp : ∀ k, IsR (p k)) : IsR (x2 p) := isR_hi (hp 0) (hp 2)
private theorem isR_y2 {p : Fin 4 → EReal} (hp : ∀ k, IsR (p k)) : IsR (y2 p) := isR_hi (hp 1) (hp 3)

private theorem isR_area {p : Fin 4 → EReal} (hp : ∀ k, IsR (p k)) : IsR (area p) :=
  isR_mul (isR_sub (isR_x2 hp) (isR_x1 hp)) (isR_sub (isR_y2 hp) (isR_y1 hp))

private theorem isR_interR {p g : Fin 4 → EReal} (hp : ∀ k, IsR (p k)) (hg : ∀ k, IsR (g k)) : IsR (interR p g) :=
  isR_mul
    (isR_max isR_cZero (isR_sub (isR_min (isR_x2 hp) (isR_x2 hg)) (isR_max (isR_x1 hp) (isR_x1 hg))))
    (isR_max isR_cZero (isR_sub (isR_min (isR_y2 hp) (isR_y2 hg)) (isR_max (isR_y1 hp) (isR_y1 hg))))

private theorem isR_unionR {p g : Fin 4 → EReal} (hp : ∀ k, IsR (p k)) (hg : ∀ k, IsR (g k)) : IsR (unionR p g) :=
  isR_sub (isR_add (isR_area hp) (isR_area hg)) (isR_interR hp hg)

private theorem isR_encR {p g : Fin 4 → EReal} (hp : ∀ k, IsR (p k)) (hg : ∀ k, IsR (g k)) : IsR (encR p g) :=
  isR_mul
    (isR_max isR_cZero (isR_sub (isR_max (isR_x2 hp) (isR_x2 hg)) (isR_min (isR_x1 hp) (isR_x1 hg))))
    (isR_max isR_cZero (isR_sub (isR_max (isR_y2 hp) (isR_y2 hg)) (isR_min (isR_y1 hp) (isR_y1 hg))))

/-! ## The differences that hold for all extended reals -/

/-- max(d, 0) = max(0, d) in both factors. -/
theorem interK_eq (p g : Fin 4 → EReal) : interK p g = interR p g := by
  unfold interK interR
  exact congrArg₂ (· * ·) (max_comm _ _) (max_comm _ _)

theorem unionK_eq (p g : Fin 4 → EReal) : unionK p g = unionR p g := by
  unfold unionK unionR
  rw [interK_eq]

/-- A clamp at zero whose value is not zero has done nothing. -/
private theorem clamp_of_ne {d : EReal} (h : max (0 : EReal) d ≠ 0) : max (0 : EReal) d = d := by
  rcases le_total d 0 with hd | hd
  · exact absurd (max_eq_left hd) h
  · exact max_eq_right hd

/-- If the product of the two clamped enclosing extents is not zero, neither clamp is active. -/
theorem encK_eq (p g : Fin 4 → EReal) (he : encR p g ≠ 0) : encK p g = encR p g := by
  have hz : cZero = 0 := cZero_eq
  unfold encR at he
  unfold encK encR
  rw [hz] at he ⊢
  have h1 : max (0 : EReal) (max (x2 p) (x2 g) - min (x1 p) (x1 g)) ≠ 0 := fun h => he (by rw [h, zero_mul])
  have h2 : max (0 : EReal) (max (y2 p) (y2 g) - min (y1 p) (y1 g)) ≠ 0 := fun h => he (by rw [h, mul_zero])
  rw [clamp_of_ne h1, clamp_of_ne h2]

/-- Zero plus the sum over the four coordinates is the four terms added left to right. -/
theorem l1K_eq (p g : Fin 4 → EReal) : l1K p g = l1R p g := by
  have hz : cZero = 0 := cZero_eq
  unfold l1K l1R
  rw [hz, Fin.sum_univ_four, zero_add]

/-! ## One reciprocal against two quotients -/

/-- (i·e + u²) · (1/(u·e)) − 1 = i/u − (e − u)/e for real i, u, e with u ≠ 0 and e ≠ 0. -/
private theorem giou_real (i u e : ℝ) (hu : u ≠ 0) (he : e ≠ 0) :
    ((i : EReal) * (e : EReal) + (u : EReal) * (u : EReal)) * Ideal.div 1 ((u : EReal) * (e : EReal)) - 1
      = Ideal.div (i : EReal) (u : EReal) - Ideal.div ((e : EReal) - (u : EReal)) (e : EReal) := by
  have hue : u * e ≠ 0 := mul_ne_zero hu he
  rw [← EReal.coe_mul u e, Ideal.div_coe hue, Ideal.div_coe hu, Ideal.div_coe he, ← EReal.coe_one]
  have key : (i * e + u * u) * (1 * (1 / (u * e))) - 1 = i * (1 / u) - (e - u) * (1 / e) := by
    field_simp
    ring
  exact_mod_cast congrArg (fun r : ℝ => (r : EReal)) key

theorem giouK_eq (p g : Fin 4 → EReal) (hp : ∀ k, ∃ r : ℝ, p k = (r : EReal)) (hg : ∀ k, ∃ r : ℝ, g k = (r : EReal))
    (hu : unionR p g ≠ 0) (he : encR p g ≠ 0) : giouK p g = giouR p g := by
  obtain ⟨i, hi⟩ := isR_interR hp hg
  obtain ⟨u, hu'⟩ := isR_unionR hp hg
  obtain ⟨e, he'⟩ := isR_encR hp hg
  have hu0 : u ≠ 0 := fun h => hu (by rw [hu', h, EReal.coe_zero])
  have he0 : e ≠ 0 := fun h => he (by rw [he', h, EReal.coe_zero])
  have h1 : cOne = 1 := cOne_eq
  unfold giouK giouR
  rw [unionK_eq, encK_eq p g he, interK_eq, hi, hu', he', h1]
  exact giou_real i u e hu0 he0

/-! ## The cost -/

/-- On real boxes whose union and clamped enclosing area are nonzero, and a real class probability, the kernel's cost
    is the reference's. -/
theorem cost_eq (p g : Fin 4 → EReal) (hp : ∀ k, ∃ r : ℝ, p k = (r : EReal)) (hg : ∀ k, ∃ r : ℝ, g k = (r : EReal))
    (cp : ℝ) (hu : unionR p g ≠ 0) (he : encR p g ≠ 0) :
    costK p g (cp : EReal) = costR p g (cp : EReal) := by
  have h1 : cOne = 1 := cOne_eq
  unfold costK costR
  rw [giouK_eq p g hp hg hu he, l1K_eq, h1, one_mul, one_mul, mul_neg]
  simp only [sub_eq_add_neg]

end Cert.MatchCost

end
-- ==== Proof.SpecEq.lean ====
/-
  In the precondition's domain the kernel's cost matrix is the reference's, entry by entry.
-/
import proofs.«410024_j74981539053919_3_alg».proof.Proof.Spec
import proofs.«410024_j74981539053919_3_alg».proof.Proof.SpecClass
import proofs.«410024_j74981539053919_3_alg».proof.Proof.SpecCost

noncomputable section

namespace Cert.MatchCost

open Idealize.ShloMosaic Idealize.ShloMosaic.ValueIdx

/-- A label word in the class range is its own number below 92. -/
theorem toNat_lt_of_range (lab : BitVec 32) (h : 0 ≤ lab.toInt ∧ lab.toInt < 92) : lab.toNat < 92 := by
  have h1 := BitVec.toInt_eq_toNat_cond lab
  split_ifs at h1 <;> omega

/-- In the precondition's domain the two cost matrices are equal. -/
theorem GK_eq_GR (x0 : FVec Ideal SL .f32) (x1 : FVec Ideal SP .f32) (x2 : IVec SLab 32) (x3 : FVec Ideal ST .f32)
    (hd : InDomain x0 x1 x2 x3) : GK x0 x1 x2 x3 = GR x0 x1 x2 x3 := by
  funext j
  obtain ⟨b, q, t, rfl⟩ : ∃ (b : Fin 256) (q : Fin 300) (t : Fin 100), j = ix3 b q t := ⟨j 0, j 1, j 2, eq_ix3 j⟩
  rw [GK_apply, GR_apply]
  obtain ⟨r, hK, hR⟩ := class_eq (rowL x0 b q) (hd.logits_real b q) (labAt x2 b t) (toNat_lt_of_range _ (hd.label_range b t))
  rw [hK, hR]
  exact cost_eq _ _ (hd.pbox_real b q) (hd.tbox_real b t) r (hd.union_ne b q t) (hd.enc_ne b q t)

end Cert.MatchCost

end
-- ==== Proof.PreFacts.lean ====
/-
  What the precondition says, read off its printed predicate: every float entry of the arguments is a real number,
  every label is a class number below 92, and for every pair the reference's two GIoU denominators are nonzero.
-/
import proofs.«410024_j74981539053919_3_alg».proof.Proof.Spec
import proofs.«410024_j74981539053919_3_alg».proof.Proof.SpecConsts
import proofs.«410024_j74981539053919_3_alg».proof.Pre_finite_inputs
import proofs.«410024_j74981539053919_3_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.MatchCost

open Idealize.ShloMosaic Idealize.ShloMosaic.ValueIdx

/-! ## Elements -/

/-- The pattern 0x7F800000 denotes +∞. -/
private theorem inf_eq_top : Ideal.ofBits .f32 0x7F800000#32 = (⊤ : EReal) := by
  simp [Ideal.ofBits, Ideal.ieee]

/-- An extended real whose absolute value is below +∞ is a real number. -/
private theorem real_of_abs_lt_inf (x : EReal)
    (h : Ideal.cmp .olt (max x (-x)) (Ideal.ofBits .f32 0x7F800000#32) = 1#1) : ∃ r : ℝ, x = (r : EReal) := by
  rw [inf_eq_top] at h
  simp only [Ideal.cmp, StableHlo.Predicate.ofBool_eq_one_iff, decide_eq_true_eq] at h
  have hx : x ≠ ⊤ := by rintro rfl; simp at h
  have hx' : x ≠ ⊥ := by rintro rfl; simp at h
  exact ⟨x.toReal, (EReal.coe_toReal hx hx').symm⟩

/-- The comparison "not equal" answering one says the two are different. -/
private theorem ne_of_une (x y : EReal) (h : Ideal.cmp .une x y = 1#1) : x ≠ y := by
  simpa only [Ideal.cmp, StableHlo.Predicate.ofBool_eq_one_iff, decide_eq_true_eq] using h

/-- A conjunction of one-bit vectors read at an index. -/
private theorem andi_apply {s : Shape} {w : Nat} (x y : IVec s w) (i : s.Idx) : andi x y i = IntOp.andi (x i) (y i) := rfl

/-- A splat float constant broadcast from a scalar reads its value everywhere. -/
private theorem bcast_const_apply {t : Shape} (h : Cert.Pre_finite_inputs.S_.BroadcastsInDim t (![] : Fin 0 → Fin t.rank)) (w : BitVec 32) (i : t.Idx) :
    broadcastInDim t ![] h (constant (F := Ideal) Cert.Pre_finite_inputs.S_ .f32 w) i = Ideal.ofBits .f32 w := rfl

/-! ## The eight box components at a pair -/

open Cert.Pre_finite_inputs in
/-- Component k of the predicted box, laid along the target axis, reads pred_boxes[b, q, k]. -/
private theorem pslice_read (x1 : FVec Ideal S256x300x4 .f32) (k : Nat) (hk : k < 4)
    (hs : S256x300x4.Slices ![0, 0, k] S256x300x1)
    (hb : S256x300x1.BroadcastsInDim S256x300x100 (![0, 1, 2] : Fin 3 → Fin S256x300x100.rank))
    (b : Fin 256) (q : Fin 300) (t : Fin 100) :
    broadcastInDim S256x300x100 ![0, 1, 2] hb (extractStridedSlice S256x300x1 ![0, 0, k] x1 hs) (ix3 b q t)
      = x1 (ix3 b q ⟨k, hk⟩) := by
  refine (broadcastInDim_apply _ hb _ (ix3 b q t) (ix3 b q (0 : Fin 1)) ?_).trans ?_
  · intro a
    match a with
    | ⟨0, _⟩ => rfl
    | ⟨1, _⟩ => rfl
    | ⟨2, _⟩ => rfl
  · refine extractStridedSlice_apply _ x1 hs (ix3 b q (0 : Fin 1)) (ix3 b q ⟨k, hk⟩) ?_
    intro a
    match a with
    | ⟨0, _⟩ => show b.val = 0 + b.val; omega
    | ⟨1, _⟩ => show q.val = 0 + q.val; omega
    | ⟨2, _⟩ => show k = k + 0; omega

open Cert.Pre_finite_inputs in
/-- Component k of the target box, transposed and laid along the query axis, reads tgt_boxes[b, t, k]. -/
private theorem tslice_read (x3 : FVec Ideal S256x100x4 .f32) (k : Nat) (hk : k < 4)
    (ht : S256x100x4.Transposes [0, 2, 1] S256x4x100)
    (hs : S256x4x100.Slices ![0, k, 0] S256x1x100)
    (hb : S256x1x100.BroadcastsInDim S256x300x100 (![0, 1, 2] : Fin 3 → Fin S256x300x100.rank))
    (b : Fin 256) (q : Fin 300) (t : Fin 100) :
    broadcastInDim S256x300x100 ![0, 1, 2] hb
        (extractStridedSlice S256x1x100 ![0, k, 0] (transpose S256x4x100 [0, 2, 1] x3 ht) hs) (ix3 b q t)
      = x3 (ix3 b t ⟨k, hk⟩) := by
  refine (broadcastInDim_apply _ hb _ (ix3 b q t) (ix3 b (0 : Fin 1) t) ?_).trans ?_
  · intro a
    match a with
    | ⟨0, _⟩ => rfl
    | ⟨1, _⟩ => rfl
    | ⟨2, _⟩ => rfl
  · refine (extractStridedSlice_apply _ _ hs (ix3 b (0 : Fin 1) t) (ix3 b (⟨k, hk⟩ : Fin 4) t) ?_).trans ?_
    · intro a
      match a with
      | ⟨0, _⟩ => show b.val = 0 + b.val; omega
      | ⟨1, _⟩ => show k = k + 0; omega
      | ⟨2, _⟩ => show t.val = 0 + t.val; omega
    · refine transpose_apply _ x3 ht (ix3 b (⟨k, hk⟩ : Fin 4) t) (ix3 b t ⟨k, hk⟩) ?_
      intro a
      match a with
      | ⟨0, _⟩ => rfl
      | ⟨1, _⟩ => rfl
      | ⟨2, _⟩ => rfl

/-- A comparison of float vectors read at an index compares the two extended reals. -/
private theorem cmpf_read {s : Shape} (p : CmpFPredicate) (a c : FVec Ideal s .f32) (i : s.Idx) :
    cmpf p a c i = Ideal.cmp p (a i) (c i) := rfl

/-- The absolute value of a float vector read at an index is the larger of the entry and its negation. -/
private theorem absf_read {s : Shape} (a : FVec Ideal s .f32) (i : s.Idx) : Host.absf a i = max (a i) (-(a i)) := rfl

/-- A comparison of word vectors read at an index compares the two words. -/
private theorem cmpi_read {s : Shape} {w : Nat} (p : CmpIPredicate) (a c : IVec s w) (i : s.Idx) :
    cmpi p a c i = IntOp.cmpi p (a i) (c i) := rfl

/-- A splat word constant broadcast from a scalar reads its value everywhere. -/
private theorem bcast_constI_apply {t : Shape} {w : Nat} (h : Cert.Pre_finite_inputs.S_.BroadcastsInDim t (![] : Fin 0 → Fin t.rank))
    (c : BitVec w) (i : t.Idx) :
    broadcastInDim t ![] h (constantI Cert.Pre_finite_inputs.S_ w c) i = c := rfl

/-! ## The two denominators: the reference's clamps max(0, d) are the predicate's max(d, 0) -/

private theorem unionR_eq_unionK (p g : Fin 4 → EReal) : unionR p g = unionK p g := by
  unfold unionR unionK interR interK
  rw [max_comm cZero, max_comm cZero]

private theorem encR_eq (p g : Fin 4 → EReal) :
    encR p g = max (max (Cert.MatchCost.x2 p) (Cert.MatchCost.x2 g) - min (Cert.MatchCost.x1 p) (Cert.MatchCost.x1 g)) cZero
      * max (max (Cert.MatchCost.y2 p) (Cert.MatchCost.y2 g) - min (Cert.MatchCost.y1 p) (Cert.MatchCost.y1 g)) cZero := by
  unfold encR
  rw [max_comm cZero, max_comm cZero]

/-! ## The predicate read back -/

/-- The precondition, all ones, puts the arguments in the domain. -/
theorem inDomain_of_pre (x0 : FVec Ideal SL .f32) (x1 : FVec Ideal SP .f32) (x2 : IVec SLab 32) (x3 : FVec Ideal ST .f32)
    (h : Cert.Pre_finite_inputs.fn (F := Ideal) x0 x1 x2 x3 = fun _ => 1#1) : InDomain x0 x1 x2 x3 := by
  haveI : Subsingleton Cert.Pre_finite_inputs.S_.Idx := ⟨fun a b => funext fun d => d.elim0⟩
  -- the predicate is a conjunction of seven "all entries" reductions; each is one at every index
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  simp only [andi_apply, IntOp.andi_eq_one] at h0
  obtain ⟨⟨⟨⟨⟨⟨h1, h2⟩, h3⟩, h4⟩, h5⟩, h6⟩, h7⟩ := h0
  have e1 := fun i => Host.reduce_andi_all _ _ _ _ _ h1 i
  have e2 := fun i => Host.reduce_andi_all _ _ _ _ _ h2 i
  have e3 := fun i => Host.reduce_andi_all _ _ _ _ _ h3 i
  have e4 := fun i => Host.reduce_andi_all _ _ _ _ _ h4 i
  have e5 := fun i => Host.reduce_andi_all _ _ _ _ _ h5 i
  have e6 := fun i => Host.reduce_andi_all _ _ _ _ _ h6 i
  have e7 := fun i => Host.reduce_andi_all _ _ _ _ _ h7 i
  clear h1 h2 h3 h4 h5 h6 h7
  have hz : Ideal.ofBits .f32 0x00000000#32 = (0 : EReal) := cZero_eq
  refine ⟨?_, ?_, ?_, ?_, ?_, ?_⟩
  · -- |logits| < +∞
    intro b q c
    have e := e1 (ix3 b q c)
    rw [cmpf_read, absf_read, bcast_const_apply] at e
    exact real_of_abs_lt_inf _ e
  · -- |pred_boxes| < +∞
    intro b q k
    have e := e2 (ix3 b q k)
    rw [cmpf_read, absf_read, bcast_const_apply] at e
    exact real_of_abs_lt_inf _ e
  · -- |tgt_boxes| < +∞
    intro b t k
    have e := e3 (ix3 b t k)
    rw [cmpf_read, absf_read, bcast_const_apply] at e
    exact real_of_abs_lt_inf _ e
  · -- 0 ≤ label < 92, as signed words
    intro b t
    have ea := e4 (ix2 b t)
    rw [cmpi_read, bcast_constI_apply, IntOp.cmpi_sge] at ea
    have eb := e5 (ix2 b t)
    rw [cmpi_read, bcast_constI_apply, IntOp.cmpi_slt] at eb
    have z0 : (0#32 : BitVec 32).toInt = 0 := by decide
    have z92 : (92#32 : BitVec 32).toInt = 92 := by decide
    rw [z0] at ea
    rw [z92] at eb
    exact ⟨ea, eb⟩
  · -- the union of the two boxes is not zero
    intro b q t
    have e := e6 (ix3 b q t)
    rw [cmpf_read] at e
    have e' := ne_of_une _ _ e
    simp only [subf_apply, addf_apply, mulf_apply, maximumf_apply, minimumf_apply, bcast_const_apply] at e'
    rw [pslice_read x1 0 (by decide) _ _ b q t, pslice_read x1 1 (by decide) _ _ b q t,
      pslice_read x1 2 (by decide) _ _ b q t, pslice_read x1 3 (by decide) _ _ b q t,
      tslice_read x3 0 (by decide) _ _ _ b q t, tslice_read x3 1 (by decide) _ _ _ b q t,
      tslice_read x3 2 (by decide) _ _ _ b q t, tslice_read x3 3 (by decide) _ _ _ b q t] at e'
    rw [unionR_eq_unionK, ← hz]
    exact e'
  · -- the enclosing box's clamped area is not zero
    intro b q t
    have e := e7 (ix3 b q t)
    rw [cmpf_read] at e
    have e' := ne_of_une _ _ e
    simp only [subf_apply, addf_apply, mulf_apply, maximumf_apply, minimumf_apply, bcast_const_apply] at e'
    rw [pslice_read x1 0 (by decide) _ _ b q t, pslice_read x1 1 (by decide) _ _ b q t,
      pslice_read x1 2 (by decide) _ _ b q t, pslice_read x1 3 (by decide) _ _ b q t,
      tslice_read x3 0 (by decide) _ _ _ b q t, tslice_read x3 1 (by decide) _ _ _ b q t,
      tslice_read x3 2 (by decide) _ _ _ b q t, tslice_read x3 3 (by decide) _ _ _ b q t] at e'
    rw [encR_eq, ← hz]
    exact e'

end Cert.MatchCost

end
-- ==== Proof.KernelClass.lean ====
/-
  The kernel's class probability at an entry of its block: the softmax of the query's logits contracted with the
  target label's one-hot column.
-/
import proofs.«410024_j74981539053919_3_alg».proof.Proof.Spec
import proofs.«410024_j74981539053919_3_alg».proof.Proof.SpecConsts
import proofs.«410024_j74981539053919_3_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Cert.MatchCost Idealize.ShloMosaic Idealize.ShloMosaic.ValueIdx

namespace ClassProb

/-! ## A unit axis added at the end by a cast, and a unit axis spread by a broadcast -/

section Layout
variable {α : Type}

/-- An `[a, b]` array cast to `[a, b, 1]` reads, at `(i, j, u)`, the operand at `(i, j)`, whatever the unit
    coordinate `u`: the two row-major positions are `i·b + j` and `(i·b + j)·1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, c)`, the operand's one entry `(i, j, 0)` of that
    row. -/
theorem broadcastTo_ab1_abn_apply {a b n : ℕ} (x : (⟨3, ![a, b, 1]⟩ : Shape).Idx → α)
    (h : (⟨3, ![a, b, 1]⟩ : Shape).Broadcasts ⟨3, ![a, b, n]⟩) (i : Fin a) (j : Fin b) (c : Fin n) :
    broadcastTo ⟨3, ![a, b, n]⟩ x h (ix3 i j c) = x (ix3 i j (0 : Fin 1)) := by
  refine broadcastTo_apply x h (ix3 i j c) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else c.val
    rw [if_pos rfl]

/-- An `[a, 1, b]` array broadcast to `[a, n, b]` reads, at `(i, c, j)`, the operand's one entry `(i, 0, j)` of that
    column. -/
theorem broadcastTo_a1b_anb_apply {a b n : ℕ} (x : (⟨3, ![a, 1, b]⟩ : Shape).Idx → α)
    (h : (⟨3, ![a, 1, b]⟩ : Shape).Broadcasts ⟨3, ![a, n, b]⟩) (i : Fin a) (c : Fin n) (j : Fin b) :
    broadcastTo ⟨3, ![a, n, b]⟩ x h (ix3 i c j) = x (ix3 i (0 : Fin 1) j) := by
  refine broadcastTo_apply x h (ix3 i c j) (ix3 i (0 : Fin 1) j) fun ax => ?_
  match ax with
  | ⟨0, _⟩ =>
    show i.val = if a = 1 then 0 else i.val
    split
    · have := i.isLt; omega
    · rfl
  | ⟨1, _⟩ =>
    show (0 : ℕ) = if (1 : ℕ) = 1 then 0 else c.val
    rw [if_pos rfl]
  | ⟨2, _⟩ =>
    show j.val = if b = 1 then 0 else j.val
    split
    · have := j.isLt; omega
    · rfl

end Layout

/-! ## The block's stages: row maximum, shifted exponentials, row sum, probabilities, one-hot columns -/

/-- Each row's maximum over the classes, spread back over the row. -/
def maxBlock (x : FVec Ideal S8x300x92 .f32) : FVec Ideal S8x300x92 .f32 :=
  broadcastTo S8x300x92
    (shapeCast S8x300x1
      (multiReduction (F := Ideal) .maximumf [2] S8x300 x 0xFF800000#32 reduces_S8x300x92_S8x300 (.inl rfl) rfl)
      shapeCasts_S8x300_S8x300x1)
    broadcasts_S8x300x1_S8x300x92

/-- exp(logit − its row's maximum). -/
def expBlock (x : FVec Ideal S8x300x92 .f32) : FVec Ideal S8x300x92 .f32 := exp (subf x (maxBlock x))

/-- Each row's sum of those exponentials, as a column. -/
def sumCol (x : FVec Ideal S8x300x92 .f32) : FVec Ideal S8x300x1 .f32 :=
  shapeCast S8x300x1
    (multiReduction (F := Ideal) .add [2] S8x300 (expBlock x) 0x00000000#32 reduces_S8x300x92_S8x300 (.inl rfl) rfl)
    shapeCasts_S8x300_S8x300x1

/-- The probabilities: each exponential times the reciprocal of its row's sum. -/
def probBlock (x : FVec Ideal S8x300x92 .f32) : FVec Ideal S8x300x92 .f32 :=
  mulf (expBlock x)
    (broadcastTo S8x300x92 (divf (broadcast S8x300x1 (Scalar.ofBits .f32 0x3F800000#32 : Ideal .f32)) (sumCol x))
      broadcasts_S8x300x1_S8x300x92)

/-- The one-hot columns: at `(b, c, t)`, 1 where the class number `c` is the label word of target `t`, else 0. -/
def hotBlock (w : IVec S8x1x100 32) : FVec Ideal S8x92x100 .f32 :=
  sitofp .f32
    (extui 32
      (cmpi .eq (iota .tc S8x92x100 32 [1] iota_S8x92x100_d1_w32)
        (broadcastTo S8x92x100 (shapeCast S8x1x100 w shapeCasts_S8x1x100_S8x1x100) broadcasts_S8x1x100_S8x92x100))
      natLt_1_32)

/-- The block of class probabilities is the contraction of the probabilities with the one-hot columns, from zero. -/
theorem pay3_eq (P2 : Vec Ideal S8x300x92 .f32) (P3 : Vec Ideal S8x1x100 .i32) :
    k0_pay3 (F := Ideal) P2 P3
      = matmul (F := Ideal) dot_S8x300x92_S8x92x100_S8x300x100_2_1_1_2_0_0 (some .fp32) (probBlock P2) (hotBlock P3)
          (constant (F := Ideal) S8x300x100 .f32 0x00000000#32) := by
  first
    | rfl
    | (unfold k0_pay3 probBlock expBlock sumCol maxBlock hotBlock; rfl)

/-! ## The reductions over the classes at a row -/

/-- The index over row `(b, q)` with class `c` put on the reduced axis is `(b, q, c)`. -/
theorem lift_row (b : Fin 8) (q : Fin 300) (c : Fin 92) :
    Shape.Reduces.lift reduces_S8x300x92_S8x300 (ix2 b q) c = ix3 b q c := by
  funext a
  apply Fin.ext
  match a with
  | ⟨0, _⟩ => rfl
  | ⟨1, _⟩ => rfl
  | ⟨2, _⟩ => rfl

/-- The maximum over the classes at row `(b, q)`: the fold of `max` from −∞ over the row. -/
theorem rowMax_at (x : FVec Ideal S8x300x92 .f32) (b : Fin 8) (q : Fin 300) :
    multiReduction (F := Ideal) .maximumf [2] S8x300 x 0xFF800000#32 reduces_S8x300x92_S8x300 (.inl rfl) rfl (ix2 b q)
      = rowMaxK (fun c => x (ix3 b q c)) := by
  refine (Ideal.multiReduction_maximumf_single x _ reduces_S8x300x92_S8x300 (.inl rfl) rfl (ix2 b q)).trans ?_
  have hf : (x ∘ Shape.Reduces.lift reduces_S8x300x92_S8x300 (ix2 b q)) = fun c : Fin 92 => x (ix3 b q c) :=
    funext fun c => congrArg x (lift_row b q c)
  first
    | (rw [hf]; rfl)
    | exact congrArg (fun f : Fin 92 → EReal => (Finset.univ : Finset (Fin 92)).fold max cNegInf f) hf

/-- The sum over the classes at row `(b, q)`. -/
theorem rowSum_at (x : FVec Ideal S8x300x92 .f32) (b : Fin 8) (q : Fin 300) :
    multiReduction (F := Ideal) .add [2] S8x300 x 0x00000000#32 reduces_S8x300x92_S8x300 (.inl rfl) rfl (ix2 b q)
      = ∑ c : Fin 92, x (ix3 b q c) := by
  refine (Ideal.multiReduction_add_single x _ reduces_S8x300x92_S8x300 (.inl rfl) rfl (ix2 b q)).trans ?_
  exact Finset.sum_congr rfl fun c _ => congrArg x (lift_row b q c)

/-! ## The stages at an entry -/

theorem maxBlock_at (x : FVec Ideal S8x300x92 .f32) (b : Fin 8) (q : Fin 300) (c : Fin 92) :
    maxBlock x (ix3 b q c) = rowMaxK (fun c' => x (ix3 b q c')) := by
  unfold maxBlock
  refine (broadcastTo_ab1_abn_apply _ _ b q c).trans ?_
  refine (shapeCast_ab_ab1_apply _ _ b q (0 : Fin 1)).trans ?_
  exact rowMax_at x b q

theorem expBlock_at (x : FVec Ideal S8x300x92 .f32) (b : Fin 8) (q : Fin 300) (c : Fin 92) :
    expBlock x (ix3 b q c) = expShift (fun c' => x (ix3 b q c')) (rowMaxK fun c' => x (ix3 b q c')) c :=
  congrArg (fun m : EReal => Ideal.exp ((x (ix3 b q c) : EReal) - m)) (maxBlock_at x b q c)

theorem sumCol_at (x : FVec Ideal S8x300x92 .f32) (b : Fin 8) (q : Fin 300) (u : Fin 1) :
    sumCol x (ix3 b q u)
      = ∑ c : Fin 92, expShift (fun c' => x (ix3 b q c')) (rowMaxK fun c' => x (ix3 b q c')) c := by
  unfold sumCol
  refine (shapeCast_ab_ab1_apply _ _ b q u).trans ?_
  refine (rowSum_at _ b q).trans ?_
  exact Finset.sum_congr rfl fun c _ => expBlock_at x b q c

/-- The probability at `(b, q, c)` is the softmax of row `(b, q)` at class `c`. -/
theorem probBlock_at (x : FVec Ideal S8x300x92 .f32) (b : Fin 8) (q : Fin 300) (c : Fin 92) :
    probBlock x (ix3 b q c) = probK (fun c' => x (ix3 b q c')) c := by
  have h1 := expBlock_at x b q c
  have h2 : broadcastTo S8x300x92 (divf (broadcast S8x300x1 (Scalar.ofBits .f32 0x3F800000#32 : Ideal .f32)) (sumCol x))
        broadcasts_S8x300x1_S8x300x92 (ix3 b q c)
      = Ideal.div cOne (∑ c'' : Fin 92, expShift (fun c' => x (ix3 b q c')) (rowMaxK fun c' => x (ix3 b q c')) c'') := by
    refine (broadcastTo_ab1_abn_apply _ _ b q c).trans ?_
    exact congrArg (fun s : EReal => Ideal.div cOne s) (sumCol_at x b q (0 : Fin 1))
  exact congrArg₂ (fun e r : EReal => e * r) h1 h2

/-- A one-bit "equal" widened to a word and read as a signed integer is the indicator of the equality. -/
theorem hot_word (c : Fin 92) (lab : BitVec 32) :
    FloatOps.sitofp (F := Ideal) .f32 ((IntOp.cmpi .eq (BitVec.ofNat 32 c.val) lab).setWidth 32) = onehot c lab := by
  have h1 : ((((BitVec.ofBool true).setWidth 32).toInt : ℝ) : EReal) = 1 := by
    have e : ((BitVec.ofBool true).setWidth 32).toInt = 1 := by decide
    rw [e, Int.cast_one, EReal.coe_one]
  have h0 : ((((BitVec.ofBool false).setWidth 32).toInt : ℝ) : EReal) = 0 := by
    have e : ((BitVec.ofBool false).setWidth 32).toInt = 0 := by decide
    rw [e, Int.cast_zero, EReal.coe_zero]
  show ((((BitVec.ofBool (BitVec.ofNat 32 c.val == lab)).setWidth 32).toInt : ℝ) : EReal)
    = if lab = BitVec.ofNat 32 c.val then 1 else 0
  by_cases h : lab = BitVec.ofNat 32 c.val
  · rw [if_pos h, ← h, beq_self_eq_true]; exact h1
  · rw [if_neg h, beq_eq_false_iff_ne.mpr fun e => h e.symm]; exact h0

/-- The one-hot column's entry at `(b, c, t)`: whether class `c` is the label word at `(b, 0, t)`. -/
theorem hotBlock_at (w : IVec S8x1x100 32) (b : Fin 8) (c : Fin 92) (t : Fin 100) :
    hotBlock w (ix3 b c t) = onehot c (w (ix3 b (0 : Fin 1) t)) := by
  have hi : iota .tc S8x92x100 32 [1] iota_S8x92x100_d1_w32 (ix3 b c t) = BitVec.ofNat 32 c.val :=
    iota_single_apply .tc S8x92x100 32 1 iota_S8x92x100_d1_w32 (ix3 b c t)
  have hb : broadcastTo S8x92x100 (shapeCast S8x1x100 w shapeCasts_S8x1x100_S8x1x100) broadcasts_S8x1x100_S8x92x100
        (ix3 b c t) = w (ix3 b (0 : Fin 1) t) :=
    (broadcastTo_a1b_anb_apply _ _ b c t).trans (congrFun (shapeCast_self w _) _)
  refine Eq.trans ?_ (hot_word c (w (ix3 b (0 : Fin 1) t)))
  show FloatOps.sitofp (F := Ideal) .f32
      ((IntOp.cmpi .eq (iota .tc S8x92x100 32 [1] iota_S8x92x100_d1_w32 (ix3 b c t))
        (broadcastTo S8x92x100 (shapeCast S8x1x100 w shapeCasts_S8x1x100_S8x1x100) broadcasts_S8x1x100_S8x92x100
          (ix3 b c t))).setWidth 32) = _
  rw [hi, hb]

/-! ## The contraction's operand indices, axis by axis -/

theorem lhs_0 (i : S8x300x100.Idx) (k : dot_S8x300x92_S8x92x100_S8x300x100_2_1_1_2_0_0.contr.Idx) :
    (dot_S8x300x92_S8x92x100_S8x300x100_2_1_1_2_0_0.lhsIdx i k 0).val = (i 0).val := by
  unfold DotDims.lhsIdx
  rw [dif_pos (show (0 : Fin S8x300x92.rank) ∈ dot_S8x300x92_S8x92x100_S8x300x100_2_1_1_2_0_0.lhsBatch by decide)]
  rfl

theorem lhs_1 (i : S8x300x100.Idx) (k : dot_S8x300x92_S8x92x100_S8x300x100_2_1_1_2_0_0.contr.Idx) :
    (dot_S8x300x92_S8x92x100_S8x300x100_2_1_1_2_0_0.lhsIdx i k 1).val = (i 1).val := by
  unfold DotDims.lhsIdx
  rw [dif_neg (show ¬(1 : Fin S8x300x92.rank) ∈ dot_S8x300x92_S8x92x100_S8x300x100_2_1_1_2_0_0.lhsBatch by decide),
    dif_pos (show (1 : Fin S8x300x92.rank) ∈ dot_S8x300x92_S8x92x100_S8x300x100_2_1_1_2_0_0.lhsNonContracting by decide)]
  rfl

theorem lhs_2 (i : S8x300x100.Idx) (k : dot_S8x300x92_S8x92x100_S8x300x100_2_1_1_2_0_0.contr.Idx) :
    (dot_S8x300x92_S8x92x100_S8x300x100_2_1_1_2_0_0.lhsIdx i k 2).val = (k ⟨0, by decide⟩).val :=
  dot_S8x300x92_S8x92x100_S8x300x100_2_1_1_2_0_0.lhsIdx_val_of_single rfl i k

theorem rhs_0 (i : S8x300x100.Idx) (k : dot_S8x300x92_S8x92x100_S8x300x100_2_1_1_2_0_0.contr.Idx) :
    (dot_S8x300x92_S8x92x100_S8x300x100_2_1_1_2_0_0.rhsIdx i k 0).val = (i 0).val := by
  unfold DotDims.rhsIdx
  rw [dif_pos (show (0 : Fin S8x92x100.rank) ∈ dot_S8x300x92_S8x92x100_S8x300x100_2_1_1_2_0_0.rhsBatch by decide)]
  rfl

theorem rhs_1 (i : S8x300x100.Idx) (k : dot_S8x300x92_S8x92x100_S8x300x100_2_1_1_2_0_0.contr.Idx) :
    (dot_S8x300x92_S8x92x100_S8x300x100_2_1_1_2_0_0.rhsIdx i k 1).val = (k ⟨0, by decide⟩).val :=
  dot_S8x300x92_S8x92x100_S8x300x100_2_1_1_2_0_0.rhsIdx_val_of_single rfl i k

theorem rhs_2 (i : S8x300x100.Idx) (k : dot_S8x300x92_S8x92x100_S8x300x100_2_1_1_2_0_0.contr.Idx) :
    (dot_S8x300x92_S8x92x100_S8x300x100_2_1_1_2_0_0.rhsIdx i k 2).val = (i 2).val := by
  unfold DotDims.rhsIdx
  rw [dif_neg (show ¬(2 : Fin S8x92x100.rank) ∈ dot_S8x300x92_S8x92x100_S8x300x100_2_1_1_2_0_0.rhsBatch by decide),
    dif_pos (show (2 : Fin S8x92x100.rank) ∈ dot_S8x300x92_S8x92x100_S8x300x100_2_1_1_2_0_0.rhsNonContracting by decide)]
  rfl

/-- The contraction from zero at `(b, q, t)`: the sum over the classes `c` of the left operand at `(b, q, c)` times the
    right operand at `(b, c, t)`; the batch coordinate `b` is shared. -/
theorem matmul_at (L : FVec Ideal S8x300x92 .f32) (R : FVec Ideal S8x92x100 .f32) (b : Fin 8) (q : Fin 300) (t : Fin 100) :
    matmul (F := Ideal) dot_S8x300x92_S8x92x100_S8x300x100_2_1_1_2_0_0 (some .fp32) L R (constant (F := Ideal) S8x300x100 .f32 0x00000000#32) (ix3 b q t)
      = ∑ c : Fin 92, L (ix3 b q c) * R (ix3 b c t) := by
  refine (Ideal.matmul_constant_zero_apply _ _ _ _ _).trans ?_
  rw [← Equiv.sum_comp (contrEquiv1 dot_S8x300x92_S8x92x100_S8x300x100_2_1_1_2_0_0 92 rfl rfl).symm]
  refine Finset.sum_congr rfl fun c _ => ?_
  have hk := contrEquiv1_symm_val dot_S8x300x92_S8x92x100_S8x300x100_2_1_1_2_0_0 92 rfl rfl c
  have el : dot_S8x300x92_S8x92x100_S8x300x100_2_1_1_2_0_0.lhsIdx (ix3 b q t) ((contrEquiv1 dot_S8x300x92_S8x92x100_S8x300x100_2_1_1_2_0_0 92 rfl rfl).symm c) = ix3 b q c :=
    funext fun a => Fin.ext (by
      match a with
      | ⟨0, _⟩ => exact lhs_0 _ _
      | ⟨1, _⟩ => exact lhs_1 _ _
      | ⟨2, _⟩ => exact (lhs_2 _ _).trans hk)
  have er : dot_S8x300x92_S8x92x100_S8x300x100_2_1_1_2_0_0.rhsIdx (ix3 b q t) ((contrEquiv1 dot_S8x300x92_S8x92x100_S8x300x100_2_1_1_2_0_0 92 rfl rfl).symm c) = ix3 b c t :=
    funext fun a => Fin.ext (by
      match a with
      | ⟨0, _⟩ => exact rhs_0 _ _
      | ⟨1, _⟩ => exact (rhs_1 _ _).trans hk
      | ⟨2, _⟩ => exact rhs_2 _ _)
  rw [el, er]

end ClassProb

/-- Entry (b, q, t) of the block's class probabilities: row (b, q) of the logits block through the softmax, against
    the one-hot column of the label word at (b, 0, t). -/
theorem classProb_at (P2 : Vec Ideal S8x300x92 .f32) (P3 : Vec Ideal S8x1x100 .i32) (b : Fin 8) (q : Fin 300) (t : Fin 100) :
    k0_pay3 (F := Ideal) P2 P3 (ix3 b q t) = classK (fun c => P2 (ix3 b q c)) (P3 (ix3 b (0 : Fin 1) t)) := by
  refine (congrFun (ClassProb.pay3_eq P2 P3) (ix3 b q t)).trans ?_
  refine (ClassProb.matmul_at _ _ b q t).trans ?_
  unfold classK
  exact Finset.sum_congr rfl fun c _ =>
    congrArg₂ (fun p h : EReal => p * h) (ClassProb.probBlock_at P2 b q c) (ClassProb.hotBlock_at P3 b c t)

end Cert.KernelIdeal.Hand

end
-- ==== Proof.KernelBlock.lean ====
/-
  One entry of the block the kernel body stores: the pair's cost, in the kernel's arrangement, of the entries of the
  point's input blocks.
-/
import proofs.«410024_j74981539053919_3_alg».proof.Proof.Spec
import proofs.«410024_j74981539053919_3_alg».proof.Proof.SpecConsts
import proofs.«410024_j74981539053919_3_alg».proof.Proof.KernelClass
import proofs.«410024_j74981539053919_3_alg».proof.Proof.Gen.KernelIdeal.Skeleton
import Idealize.ShloMosaic.Lib.Pipeline.Value
import Idealize.ShloMosaic.Lib.ValueIdx

noncomputable section

namespace Cert.KernelIdeal.Hand

open Cert.KernelIdeal Cert.KernelIdeal.Gen Cert.MatchCost Idealize.ShloMosaic Idealize.ShloMosaic.ValueIdx

/-- The value the body stores into its output block, from the four blocks it loads: P0 the predicted boxes' block,
    P1 the transposed target boxes' block, P2 the logits' block, P3 the labels' block. -/
abbrev stored (P0 : Vec Ideal S8x300x4 .f32) (P1 : Vec Ideal S8x4x100 .f32) (P2 : Vec Ideal S8x300x92 .f32) (P3 : Vec Ideal S8x1x100 .i32) :
    FVec Ideal S8x300x100 .f32 :=
  k0_pay1 (F := Ideal) (k0_pay3 P2 P3) (k0_pay14 (k0_pay7 P0) (k0_pay11 P1) (k0_pay12 P0 P1) (k0_pay13 P0 P1)) (k0_pay15 (k0_pay4 P0) (k0_pay6 P0)) (k0_pay16 (k0_pay5 P0) (k0_pay7 P0)) (k0_pay17 (k0_pay4 P0) (k0_pay6 P0)) (k0_pay18 (k0_pay5 P0) (k0_pay7 P0)) (k0_pay19 (k0_pay8 P1) (k0_pay10 P1)) (k0_pay20 (k0_pay9 P1) (k0_pay11 P1)) (k0_pay21 (k0_pay8 P1) (k0_pay10 P1)) (k0_pay22 (k0_pay9 P1) (k0_pay11 P1)) (k0_pay23 (k0_pay4 P0) (k0_pay5 P0) (k0_pay6 P0) (k0_pay7 P0)) (k0_pay24 (k0_pay8 P1) (k0_pay9 P1) (k0_pay10 P1) (k0_pay11 P1)) (k0_pay25 (k0_pay5 P0) (k0_pay7 P0) (k0_pay9 P1) (k0_pay11 P1)) (k0_pay26 (k0_pay5 P0) (k0_pay7 P0) (k0_pay9 P1) (k0_pay11 P1)) (k0_pay27 (k0_pay4 P0) (k0_pay6 P0) (k0_pay8 P1) (k0_pay10 P1)) (k0_pay28 (F := Ideal))

namespace Block

/-! ## The body's two spreads, read at an entry

The body works on whole blocks; a column of the queries, shape [8,300,1], and a row of the targets, shape [8,1,100],
are spread to [8,300,100] before they meet. At entry (b, q, t) the first reads its entry (b, q, 0), the second its
entry (b, 0, t). -/

/-- A column over the queries, spread along the targets, at (b, q, t). -/
theorem bcQ_at {α : Type} (v : S8x300x1.Idx → α) (b : Fin 8) (q : Fin 300) (t : Fin 100) :
    broadcastTo S8x300x100 v broadcasts_S8x300x1_S8x300x100 (ix3 b q t) = v (ix3 b q (0 : Fin 1)) :=
  broadcastTo_apply v broadcasts_S8x300x1_S8x300x100 (ix3 b q t) (ix3 b q (0 : Fin 1))
    fun a => match a with
      | ⟨0, _⟩ => by show b.val = (if (8 : Nat) = 1 then 0 else b.val); rw [if_neg (by decide)]
      | ⟨1, _⟩ => by show q.val = (if (300 : Nat) = 1 then 0 else q.val); rw [if_neg (by decide)]
      | ⟨2, _⟩ => by show (0 : Nat) = (if (1 : Nat) = 1 then 0 else t.val); rw [if_pos rfl]

/-- A row over the targets, spread along the queries, at (b, q, t). -/
theorem bcT_at {α : Type} (v : S8x1x100.Idx → α) (b : Fin 8) (q : Fin 300) (t : Fin 100) :
    broadcastTo S8x300x100 v broadcasts_S8x1x100_S8x300x100 (ix3 b q t) = v (ix3 b (0 : Fin 1) t) :=
  broadcastTo_apply v broadcasts_S8x1x100_S8x300x100 (ix3 b q t) (ix3 b (0 : Fin 1) t)
    fun a => match a with
      | ⟨0, _⟩ => by show b.val = (if (8 : Nat) = 1 then 0 else b.val); rw [if_neg (by decide)]
      | ⟨1, _⟩ => by show (0 : Nat) = (if (1 : Nat) = 1 then 0 else q.val); rw [if_pos rfl]
      | ⟨2, _⟩ => by show t.val = (if (100 : Nat) = 1 then 0 else t.val); rw [if_neg (by decide)]

/-- The difference of a spread column and a spread row at (b, q, t), from the two entries it reads. -/
theorem diff_at (u : FVec Ideal S8x300x1 .f32) (w : FVec Ideal S8x1x100 .f32) (b : Fin 8) (q : Fin 300) (t : Fin 100)
    (c d : EReal) (hu : u (ix3 b q (0 : Fin 1)) = c) (hw : w (ix3 b (0 : Fin 1) t) = d) :
    subf (broadcastTo S8x300x100 u broadcasts_S8x300x1_S8x300x100) (broadcastTo S8x300x100 w broadcasts_S8x1x100_S8x300x100)
      (ix3 b q t) = c - d :=
  congrArg₂ (fun r s : EReal => r - s) ((bcQ_at u b q t).trans hu) ((bcT_at w b q t).trans hw)

/-! ## The coordinates of the two boxes

The predicted boxes' block holds (cx, cy, w, h) along its last axis: the body cuts it into four columns. The target
boxes' block is transposed, the four coordinates along its middle axis: four rows. -/

theorem pay4_at (P0 : Vec Ideal S8x300x4 .f32) (b : Fin 8) (q : Fin 300) :
    k0_pay4 (F := Ideal) P0 (ix3 b q (0 : Fin 1)) = P0 (ix3 b q (0 : Fin 4)) :=
  extractStridedSlice_apply ![0, 0, 0] P0 slices_S8x300x4_o0_0_0_S8x300x1 (ix3 b q (0 : Fin 1)) (ix3 b q (0 : Fin 4))
    fun a => match a with
      | ⟨0, _⟩ => by show b.val = 0 + b.val; omega
      | ⟨1, _⟩ => by show q.val = 0 + q.val; omega
      | ⟨2, _⟩ => by show (0 : Nat) = 0 + 0; omega

theorem pay5_at (P0 : Vec Ideal S8x300x4 .f32) (b : Fin 8) (q : Fin 300) :
    k0_pay5 (F := Ideal) P0 (ix3 b q (0 : Fin 1)) = P0 (ix3 b q (1 : Fin 4)) :=
  extractStridedSlice_apply ![0, 0, 1] P0 slices_S8x300x4_o0_0_1_S8x300x1 (ix3 b q (0 : Fin 1)) (ix3 b q (1 : Fin 4))
    fun a => match a with
      | ⟨0, _⟩ => by show b.val = 0 + b.val; omega
      | ⟨1, _⟩ => by show q.val = 0 + q.val; omega
      | ⟨2, _⟩ => by show (1 : Nat) = 1 + 0; omega

theorem pay6_at (P0 : Vec Ideal S8x300x4 .f32) (b : Fin 8) (q : Fin 300) :
    k0_pay6 (F := Ideal) P0 (ix3 b q (0 : Fin 1)) = P0 (ix3 b q (2 : Fin 4)) :=
  extractStridedSlice_apply ![0, 0, 2] P0 slices_S8x300x4_o0_0_2_S8x300x1 (ix3 b q (0 : Fin 1)) (ix3 b q (2 : Fin 4))
    fun a => match a with
      | ⟨0, _⟩ => by show b.val = 0 + b.val; omega
      | ⟨1, _⟩ => by show q.val = 0 + q.val; omega
      | ⟨2, _⟩ => by show (2 : Nat) = 2 + 0; omega

theorem pay7_at (P0 : Vec Ideal S8x300x4 .f32) (b : Fin 8) (q : Fin 300) :
    k0_pay7 (F := Ideal) P0 (ix3 b q (0 : Fin 1)) = P0 (ix3 b q (3 : Fin 4)) :=
  extractStridedSlice_apply ![0, 0, 3] P0 slices_S8x300x4_o0_0_3_S8x300x1 (ix3 b q (0 : Fin 1)) (ix3 b q (3 : Fin 4))
    fun a => match a with
      | ⟨0, _⟩ => by show b.val = 0 + b.val; omega
      | ⟨1, _⟩ => by show q.val = 0 + q.val; omega
      | ⟨2, _⟩ => by show (3 : Nat) = 3 + 0; omega

/-- The body first re-shapes the targets' block to the shape it already has. -/
theorem pay2_eq (P1 : Vec Ideal S8x4x100 .f32) : k0_pay2 (F := Ideal) P1 = P1 :=
  shapeCast_self P1 shapeCasts_S8x4x100_S8x4x100

theorem pay8_at (P1 : Vec Ideal S8x4x100 .f32) (b : Fin 8) (t : Fin 100) :
    k0_pay8 (F := Ideal) P1 (ix3 b (0 : Fin 1) t) = P1 (ix3 b (0 : Fin 4) t) :=
  (extractStridedSlice_apply ![0, 0, 0] (k0_pay2 (F := Ideal) P1) slices_S8x4x100_o0_0_0_S8x1x100 (ix3 b (0 : Fin 1) t)
    (ix3 b (0 : Fin 4) t) fun a => match a with
      | ⟨0, _⟩ => by show b.val = 0 + b.val; omega
      | ⟨1, _⟩ => by show (0 : Nat) = 0 + 0; omega
      | ⟨2, _⟩ => by show t.val = 0 + t.val; omega).trans (congrFun (pay2_eq P1) _)

theorem pay9_at (P1 : Vec Ideal S8x4x100 .f32) (b : Fin 8) (t : Fin 100) :
    k0_pay9 (F := Ideal) P1 (ix3 b (0 : Fin 1) t) = P1 (ix3 b (1 : Fin 4) t) :=
  (extractStridedSlice_apply ![0, 1, 0] (k0_pay2 (F := Ideal) P1) slices_S8x4x100_o0_1_0_S8x1x100 (ix3 b (0 : Fin 1) t)
    (ix3 b (1 : Fin 4) t) fun a => match a with
      | ⟨0, _⟩ => by show b.val = 0 + b.val; omega
      | ⟨1, _⟩ => by show (1 : Nat) = 1 + 0; omega
      | ⟨2, _⟩ => by show t.val = 0 + t.val; omega).trans (congrFun (pay2_eq P1) _)

theorem pay10_at (P1 : Vec Ideal S8x4x100 .f32) (b : Fin 8) (t : Fin 100) :
    k0_pay10 (F := Ideal) P1 (ix3 b (0 : Fin 1) t) = P1 (ix3 b (2 : Fin 4) t) :=
  (extractStridedSlice_apply ![0, 2, 0] (k0_pay2 (F := Ideal) P1) slices_S8x4x100_o0_2_0_S8x1x100 (ix3 b (0 : Fin 1) t)
    (ix3 b (2 : Fin 4) t) fun a => match a with
      | ⟨0, _⟩ => by show b.val = 0 + b.val; omega
      | ⟨1, _⟩ => by show (2 : Nat) = 2 + 0; omega
      | ⟨2, _⟩ => by show t.val = 0 + t.val; omega).trans (congrFun (pay2_eq P1) _)

theorem pay11_at (P1 : Vec Ideal S8x4x100 .f32) (b : Fin 8) (t : Fin 100) :
    k0_pay11 (F := Ideal) P1 (ix3 b (0 : Fin 1) t) = P1 (ix3 b (3 : Fin 4) t) :=
  (extractStridedSlice_apply ![0, 3, 0] (k0_pay2 (F := Ideal) P1) slices_S8x4x100_o0_3_0_S8x1x100 (ix3 b (0 : Fin 1) t)
    (ix3 b (3 : Fin 4) t) fun a => match a with
      | ⟨0, _⟩ => by show b.val = 0 + b.val; omega
      | ⟨1, _⟩ => by show (3 : Nat) = 3 + 0; omega
      | ⟨2, _⟩ => by show t.val = 0 + t.val; omega).trans (congrFun (pay2_eq P1) _)

/-! ## The edges and the areas -/

/-- cx − w/2 of the predicted box. -/
theorem pay15_at (P0 : Vec Ideal S8x300x4 .f32) (b : Fin 8) (q : Fin 300) :
    k0_pay15 (F := Ideal) (k0_pay4 P0) (k0_pay6 P0) (ix3 b q (0 : Fin 1)) = x1 (fun k => P0 (ix3 b q k)) :=
  congrArg₂ lo (pay4_at P0 b q) (pay6_at P0 b q)

/-- cy − h/2 of the predicted box. -/
theorem pay16_at (P0 : Vec Ideal S8x300x4 .f32) (b : Fin 8) (q : Fin 300) :
    k0_pay16 (F := Ideal) (k0_pay5 P0) (k0_pay7 P0) (ix3 b q (0 : Fin 1)) = y1 (fun k => P0 (ix3 b q k)) :=
  congrArg₂ lo (pay5_at P0 b q) (pay7_at P0 b q)

/-- cx + w/2 of the predicted box. -/
theorem pay17_at (P0 : Vec Ideal S8x300x4 .f32) (b : Fin 8) (q : Fin 300) :
    k0_pay17 (F := Ideal) (k0_pay4 P0) (k0_pay6 P0) (ix3 b q (0 : Fin 1)) = x2 (fun k => P0 (ix3 b q k)) :=
  congrArg₂ hi (pay4_at P0 b q) (pay6_at P0 b q)

/-- cy + h/2 of the predicted box. -/
theorem pay18_at (P0 : Vec Ideal S8x300x4 .f32) (b : Fin 8) (q : Fin 300) :
    k0_pay18 (F := Ideal) (k0_pay5 P0) (k0_pay7 P0) (ix3 b q (0 : Fin 1)) = y2 (fun k => P0 (ix3 b q k)) :=
  congrArg₂ hi (pay5_at P0 b q) (pay7_at P0 b q)

/-- cx − w/2 of the target box. -/
theorem pay19_at (P1 : Vec Ideal S8x4x100 .f32) (b : Fin 8) (t : Fin 100) :
    k0_pay19 (F := Ideal) (k0_pay8 P1) (k0_pay10 P1) (ix3 b (0 : Fin 1) t) = x1 (fun k => P1 (ix3 b k t)) :=
  congrArg₂ lo (pay8_at P1 b t) (pay10_at P1 b t)

/-- cy − h/2 of the target box. -/
theorem pay20_at (P1 : Vec Ideal S8x4x100 .f32) (b : Fin 8) (t : Fin 100) :
    k0_pay20 (F := Ideal) (k0_pay9 P1) (k0_pay11 P1) (ix3 b (0 : Fin 1) t) = y1 (fun k => P1 (ix3 b k t)) :=
  congrArg₂ lo (pay9_at P1 b t) (pay11_at P1 b t)

/-- cx + w/2 of the target box. -/
theorem pay21_at (P1 : Vec Ideal S8x4x100 .f32) (b : Fin 8) (t : Fin 100) :
    k0_pay21 (F := Ideal) (k0_pay8 P1) (k0_pay10 P1) (ix3 b (0 : Fin 1) t) = x2 (fun k => P1 (ix3 b k t)) :=
  congrArg₂ hi (pay8_at P1 b t) (pay10_at P1 b t)

/-- cy + h/2 of the target box. -/
theorem pay22_at (P1 : Vec Ideal S8x4x100 .f32) (b : Fin 8) (t : Fin 100) :
    k0_pay22 (F := Ideal) (k0_pay9 P1) (k0_pay11 P1) (ix3 b (0 : Fin 1) t) = y2 (fun k => P1 (ix3 b k t)) :=
  congrArg₂ hi (pay9_at P1 b t) (pay11_at P1 b t)

/-- The predicted box's area (x2 − x1)(y2 − y1). -/
theorem pay23_at (P0 : Vec Ideal S8x300x4 .f32) (b : Fin 8) (q : Fin 300) :
    k0_pay23 (F := Ideal) (k0_pay4 P0) (k0_pay5 P0) (k0_pay6 P0) (k0_pay7 P0) (ix3 b q (0 : Fin 1))
      = area (fun k => P0 (ix3 b q k)) :=
  congrArg₂ (fun r s : EReal => r * s)
    (congrArg₂ (fun r s : EReal => r - s) (pay17_at P0 b q) (pay15_at P0 b q))
    (congrArg₂ (fun r s : EReal => r - s) (pay18_at P0 b q) (pay16_at P0 b q))

/-- The target box's area. -/
theorem pay24_at (P1 : Vec Ideal S8x4x100 .f32) (b : Fin 8) (t : Fin 100) :
    k0_pay24 (F := Ideal) (k0_pay8 P1) (k0_pay9 P1) (k0_pay10 P1) (k0_pay11 P1) (ix3 b (0 : Fin 1) t)
      = area (fun k => P1 (ix3 b k t)) :=
  congrArg₂ (fun r s : EReal => r * s)
    (congrArg₂ (fun r s : EReal => r - s) (pay21_at P1 b t) (pay19_at P1 b t))
    (congrArg₂ (fun r s : EReal => r - s) (pay22_at P1 b t) (pay20_at P1 b t))

/-! ## The L1 distance, term by term in the body's order -/

/-- |cx − cx'| + |cy − cy'|. -/
theorem pay12_at (P0 : Vec Ideal S8x300x4 .f32) (P1 : Vec Ideal S8x4x100 .f32) (b : Fin 8) (q : Fin 300) (t : Fin 100) :
    k0_pay12 (F := Ideal) P0 P1 (ix3 b q t)
      = abs' (P0 (ix3 b q (0 : Fin 4)) - P1 (ix3 b (0 : Fin 4) t)) + abs' (P0 (ix3 b q (1 : Fin 4)) - P1 (ix3 b (1 : Fin 4) t)) :=
  congrArg₂ (fun r s : EReal => abs' r + abs' s)
    (diff_at (k0_pay4 P0) (k0_pay8 P1) b q t _ _ (pay4_at P0 b q) (pay8_at P1 b t))
    (diff_at (k0_pay5 P0) (k0_pay9 P1) b q t _ _ (pay5_at P0 b q) (pay9_at P1 b t))

/-- w − w'. -/
theorem pay13_at (P0 : Vec Ideal S8x300x4 .f32) (P1 : Vec Ideal S8x4x100 .f32) (b : Fin 8) (q : Fin 300) (t : Fin 100) :
    k0_pay13 (F := Ideal) P0 P1 (ix3 b q t) = P0 (ix3 b q (2 : Fin 4)) - P1 (ix3 b (2 : Fin 4) t) :=
  diff_at (k0_pay6 P0) (k0_pay10 P1) b q t _ _ (pay6_at P0 b q) (pay10_at P1 b t)

/-- The four terms together: the kernel's L1 distance of the pair. -/
theorem pay14_at (P0 : Vec Ideal S8x300x4 .f32) (P1 : Vec Ideal S8x4x100 .f32) (b : Fin 8) (q : Fin 300) (t : Fin 100) :
    k0_pay14 (F := Ideal) (k0_pay7 P0) (k0_pay11 P1) (k0_pay12 P0 P1) (k0_pay13 P0 P1) (ix3 b q t)
      = l1K (fun k => P0 (ix3 b q k)) (fun k => P1 (ix3 b k t)) :=
  congrArg₂ (fun r s : EReal => r + abs' s)
    (congrArg₂ (fun r s : EReal => r + abs' s) (pay12_at P0 P1 b q t) (pay13_at P0 P1 b q t))
    (diff_at (k0_pay7 P0) (k0_pay11 P1) b q t _ _ (pay7_at P0 b q) (pay11_at P1 b t))

/-! ## The intersection's extents -/

/-- The larger of the two lower edges along y. -/
theorem pay25_at (P0 : Vec Ideal S8x300x4 .f32) (P1 : Vec Ideal S8x4x100 .f32) (b : Fin 8) (q : Fin 300) (t : Fin 100) :
    k0_pay25 (F := Ideal) (k0_pay5 P0) (k0_pay7 P0) (k0_pay9 P1) (k0_pay11 P1) (ix3 b q t)
      = max (y1 (fun k => P0 (ix3 b q k))) (y1 (fun k => P1 (ix3 b k t))) :=
  congrArg₂ (fun r s : EReal => max r s)
    ((bcQ_at (k0_pay16 (F := Ideal) (k0_pay5 P0) (k0_pay7 P0)) b q t).trans (pay16_at P0 b q))
    ((bcT_at (k0_pay20 (F := Ideal) (k0_pay9 P1) (k0_pay11 P1)) b q t).trans (pay20_at P1 b t))

/-- The smaller of the two upper edges along y. -/
theorem pay26_at (P0 : Vec Ideal S8x300x4 .f32) (P1 : Vec Ideal S8x4x100 .f32) (b : Fin 8) (q : Fin 300) (t : Fin 100) :
    k0_pay26 (F := Ideal) (k0_pay5 P0) (k0_pay7 P0) (k0_pay9 P1) (k0_pay11 P1) (ix3 b q t)
      = min (y2 (fun k => P0 (ix3 b q k))) (y2 (fun k => P1 (ix3 b k t))) :=
  congrArg₂ (fun r s : EReal => min r s)
    ((bcQ_at (k0_pay18 (F := Ideal) (k0_pay5 P0) (k0_pay7 P0)) b q t).trans (pay18_at P0 b q))
    ((bcT_at (k0_pay22 (F := Ideal) (k0_pay9 P1) (k0_pay11 P1)) b q t).trans (pay22_at P1 b t))

/-- The intersection's extent along x, not yet clamped. -/
theorem pay27_at (P0 : Vec Ideal S8x300x4 .f32) (P1 : Vec Ideal S8x4x100 .f32) (b : Fin 8) (q : Fin 300) (t : Fin 100) :
    k0_pay27 (F := Ideal) (k0_pay4 P0) (k0_pay6 P0) (k0_pay8 P1) (k0_pay10 P1) (ix3 b q t)
      = min (x2 (fun k => P0 (ix3 b q k))) (x2 (fun k => P1 (ix3 b k t)))
        - max (x1 (fun k => P0 (ix3 b q k))) (x1 (fun k => P1 (ix3 b k t))) :=
  congrArg₂ (fun r s : EReal => r - s)
    (congrArg₂ (fun r s : EReal => min r s)
      ((bcQ_at (k0_pay17 (F := Ideal) (k0_pay4 P0) (k0_pay6 P0)) b q t).trans (pay17_at P0 b q))
      ((bcT_at (k0_pay21 (F := Ideal) (k0_pay8 P1) (k0_pay10 P1)) b q t).trans (pay21_at P1 b t)))
    (congrArg₂ (fun r s : EReal => max r s)
      ((bcQ_at (k0_pay15 (F := Ideal) (k0_pay4 P0) (k0_pay6 P0)) b q t).trans (pay15_at P0 b q))
      ((bcT_at (k0_pay19 (F := Ideal) (k0_pay8 P1) (k0_pay10 P1)) b q t).trans (pay19_at P1 b t)))

/-! ## The last stretch: the cost from the sixteen numbers it reads -/

/-- The intersection's area from its extent along x, the zero it is clamped at, and the two edges that bound it along y. -/
def interOf (dx z my1 my2 : EReal) : EReal := max dx z * max (my2 - my1) cZero

/-- The enclosing box's area from the eight edges. -/
def encOf (xp1 yp1 xp2 yp2 xg1 yg1 xg2 yg2 : EReal) : EReal := (max xp2 xg2 - min xp1 xg1) * (max yp2 yg2 - min yp1 yg1)

/-- Generalized IoU from intersection, union and enclosing area, with the one reciprocal. -/
def giouOf (I U E : EReal) : EReal := (I * E + U * U) * Ideal.div cOne (U * E) - cOne

/-- The cost from: the class probability, the L1 distance, the predicted box's four edges, the target's four edges, the
    two areas, the larger lower and the smaller upper edge along y, the intersection's extent along x, and the zero. -/
def costOf (cp l xp1 yp1 xp2 yp2 xg1 yg1 xg2 yg2 ap ag my1 my2 dx z : EReal) : EReal :=
  (cFive * l - cOne * cp)
    - cTwo * giouOf (interOf dx z my1 my2) (ap + ag - interOf dx z my1 my2) (encOf xp1 yp1 xp2 yp2 xg1 yg1 xg2 yg2)

/-- The stored value at an index is that function of the sixteen values the last stretch reads there. -/
theorem pay1_read (v22 v49 : FVec Ideal S8x300x100 .f32) (v52 v55 v58 v61 : FVec Ideal S8x300x1 .f32)
    (v64 v67 v70 v73 : FVec Ideal S8x1x100 .f32) (v76 : FVec Ideal S8x300x1 .f32) (v79 : FVec Ideal S8x1x100 .f32)
    (v85 v91 v92 v93 : FVec Ideal S8x300x100 .f32) (i : S8x300x100.Idx) :
    k0_pay1 (F := Ideal) v22 v49 v52 v55 v58 v61 v64 v67 v70 v73 v76 v79 v85 v91 v92 v93 i
      = costOf (v22 i) (v49 i)
          (broadcastTo S8x300x100 v52 broadcasts_S8x300x1_S8x300x100 i) (broadcastTo S8x300x100 v55 broadcasts_S8x300x1_S8x300x100 i)
          (broadcastTo S8x300x100 v58 broadcasts_S8x300x1_S8x300x100 i) (broadcastTo S8x300x100 v61 broadcasts_S8x300x1_S8x300x100 i)
          (broadcastTo S8x300x100 v64 broadcasts_S8x1x100_S8x300x100 i) (broadcastTo S8x300x100 v67 broadcasts_S8x1x100_S8x300x100 i)
          (broadcastTo S8x300x100 v70 broadcasts_S8x1x100_S8x300x100 i) (broadcastTo S8x300x100 v73 broadcasts_S8x1x100_S8x300x100 i)
          (broadcastTo S8x300x100 v76 broadcasts_S8x300x1_S8x300x100 i) (broadcastTo S8x300x100 v79 broadcasts_S8x1x100_S8x300x100 i)
          (v85 i) (v91 i) (v92 i) (v93 i) := rfl

/-- Equal arguments, equal costs. -/
theorem costOf_congr {a1 a2 a3 a4 a5 a6 a7 a8 a9 a10 a11 a12 a13 a14 a15 a16 c1 c2 c3 c4 c5 c6 c7 c8 c9 c10 c11 c12 c13 c14 c15 c16 : EReal}
    (h1 : a1 = c1) (h2 : a2 = c2) (h3 : a3 = c3) (h4 : a4 = c4) (h5 : a5 = c5) (h6 : a6 = c6) (h7 : a7 = c7) (h8 : a8 = c8)
    (h9 : a9 = c9) (h10 : a10 = c10) (h11 : a11 = c11) (h12 : a12 = c12) (h13 : a13 = c13) (h14 : a14 = c14) (h15 : a15 = c15)
    (h16 : a16 = c16) :
    costOf a1 a2 a3 a4 a5 a6 a7 a8 a9 a10 a11 a12 a13 a14 a15 a16 = costOf c1 c2 c3 c4 c5 c6 c7 c8 c9 c10 c11 c12 c13 c14 c15 c16 := by
  subst h1 h2 h3 h4 h5 h6 h7 h8 h9 h10 h11 h12 h13 h14 h15 h16; rfl

/-- On a pair's own edges, areas and extents that function is the kernel's cost. -/
theorem costOf_eq (p g : Fin 4 → EReal) (cp : EReal) :
    costOf cp (l1K p g) (x1 p) (y1 p) (x2 p) (y2 p) (x1 g) (y1 g) (x2 g) (y2 g) (area p) (area g)
      (max (y1 p) (y1 g)) (min (y2 p) (y2 g)) (min (x2 p) (x2 g) - max (x1 p) (x1 g)) cZero = costK p g cp := rfl

end Block

/-- Entry (b, q, t) of the stored block: the cost of predicted box (b, q) of the first block against target box (b, ·, t) of
    the transposed targets block, with the class probability of row (b, q) at label (b, 0, t). -/
theorem block_at (P0 : Vec Ideal S8x300x4 .f32) (P1 : Vec Ideal S8x4x100 .f32) (P2 : Vec Ideal S8x300x92 .f32) (P3 : Vec Ideal S8x1x100 .i32)
    (b : Fin 8) (q : Fin 300) (t : Fin 100) :
    stored P0 P1 P2 P3 (ix3 b q t)
      = costK (fun k => P0 (ix3 b q k)) (fun k => P1 (ix3 b k t)) (classK (fun c => P2 (ix3 b q c)) (P3 (ix3 b (0 : Fin 1) t))) := by
  refine ((Block.pay1_read _ _ _ _ _ _ _ _ _ _ _ _ _ _ _ _ (ix3 b q t)).trans (Block.costOf_congr
    (classProb_at P2 P3 b q t) (Block.pay14_at P0 P1 b q t)
    ((Block.bcQ_at _ b q t).trans (Block.pay15_at P0 b q)) ((Block.bcQ_at _ b q t).trans (Block.pay16_at P0 b q))
    ((Block.bcQ_at _ b q t).trans (Block.pay17_at P0 b q)) ((Block.bcQ_at _ b q t).trans (Block.pay18_at P0 b q))
    ((Block.bcT_at _ b q t).trans (Block.pay19_at P1 b t)) ((Block.bcT_at _ b q t).trans (Block.pay20_at P1 b t))
    ((Block.bcT_at _ b q t).trans (Block.pay21_at P1 b t)) ((Block.bcT_at _ b q t).trans (Block.pay22_at P1 b t))
    ((Block.bcQ_at _ b q t).trans (Block.pay23_at P0 b q)) ((Block.bcT_at _ b q t).trans (Block.pay24_at P1 b t))
    (Block.pay25_at P0 P1 b q t) (Block.pay26_at P0 P1 b q t) (Block.pay27_at P0 P1 b q t) rfl)).trans
    (Block.costOf_eq _ _ _)

end Cert.KernelIdeal.Hand

end
-- ==== Proof.KernelArray.lean ====
/-
  From blocks to the array: grid point t writes batch entries 8t … 8t+7 of the cost matrix, the 32 points cover the
  256 entries, and each written entry is the pair's cost of the argument arrays' own entries (the labels reach the kernel
  reshaped to [256, 1, 100], the target boxes transposed to [256, 4, 100]).
-/
import proofs.«410024_j74981539053919_3_alg».proof.Proof.Spec
import proofs.«410024_j74981539053919_3_alg».proof.Proof.SpecConsts
import proofs.«410024_j74981539053919_3_alg».proof.Proof.KernelBlock
import proofs.«410024_j74981539053919_3_alg».proof.Proof.KernelIdealValue
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Cert.MatchCost Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

namespace ToArray

/-- The three offsets of a whole block are zero. -/
theorem hz : (![0, 0, 0] : Fin 3 → Nat) = fun _ => 0 := funext fun a => by fin_cases a <;> rfl

/-- The grid has 32 points. -/
theorem pt_lt (t : Fin cfg0.N) : t.val < 32 := lt_of_lt_of_eq t.isLt N_0

/-- Row b of grid point t's blocks is batch entry 8t + b. -/
def bat (t : Fin cfg0.N) (b : Fin 8) : Fin 256 :=
  ⟨8 * t.val + b.val, by have := pt_lt t; have := b.isLt; omega⟩

/-! ## The index maps, decided over the grid: every window's block index at point t is (t, 0, 0) -/

theorem idx_logits : ∀ t : Fin cfg0.N,
    win0_0.index t (0 : Fin 3) = t.val ∧ win0_0.index t (1 : Fin 3) = 0 ∧ win0_0.index t (2 : Fin 3) = 0 :=
  (by decide +kernel : ∀ t : Fin grid0.N, _)

theorem idx_boxes : ∀ t : Fin cfg0.N,
    win0_1.index t (0 : Fin 3) = t.val ∧ win0_1.index t (1 : Fin 3) = 0 ∧ win0_1.index t (2 : Fin 3) = 0 :=
  (by decide +kernel : ∀ t : Fin grid0.N, _)

theorem idx_labels : ∀ t : Fin cfg0.N,
    win0_2.index t (0 : Fin 3) = t.val ∧ win0_2.index t (1 : Fin 3) = 0 ∧ win0_2.index t (2 : Fin 3) = 0 :=
  (by decide +kernel : ∀ t : Fin grid0.N, _)

theorem idx_targets : ∀ t : Fin cfg0.N,
    win0_3.index t (0 : Fin 3) = t.val ∧ win0_3.index t (1 : Fin 3) = 0 ∧ win0_3.index t (2 : Fin 3) = 0 :=
  (by decide +kernel : ∀ t : Fin grid0.N, _)

theorem idx_out : ∀ t : Fin cfg0.N,
    win0_4.index t (0 : Fin 3) = t.val ∧ win0_4.index t (1 : Fin 3) = 0 ∧ win0_4.index t (2 : Fin 3) = 0 :=
  (by decide +kernel : ∀ t : Fin grid0.N, _)

/-! ## Each input block, read at an entry, is the argument array at batch entry 8t + b -/

/-- The logits block: entry (b, q, k) is logits[8t + b, q, k]. -/
theorem logits_blk (c : Dev nD) (t : Fin cfg0.N) (b : Fin 8) (q : Fin 300) (k : Fin 92) :
    (iblk m c 0 t : Vec Ideal S8x300x92 .f32) (ix3 b q k)
      = (m ((c : Thread nD τ).loc main_arg0) : FVec Ideal S256x300x92 .f32) (ix3 (bat t b) q k) := by
  obtain ⟨e0, e1, e2⟩ := idx_logits t
  show V m c main_arg0 (((cfg0.win 0).blk t).view.emb (ix3 b q k)) = _
  rw [V_main_arg0]
  refine congrArg _ (funext fun a => Fin.ext ?_)
  match a with
  | ⟨0, _⟩ => show win0_0.index t (0 : Fin 3) * 8 + 1 * b.val = 8 * t.val + b.val; omega
  | ⟨1, _⟩ => show win0_0.index t (1 : Fin 3) * 300 + 1 * q.val = q.val; omega
  | ⟨2, _⟩ => show win0_0.index t (2 : Fin 3) * 92 + 1 * k.val = k.val; omega

/-- The predicted-boxes block: entry (b, q, k) is pred_boxes[8t + b, q, k]. -/
theorem boxes_blk (c : Dev nD) (t : Fin cfg0.N) (b : Fin 8) (q : Fin 300) (k : Fin 4) :
    (iblk m c 1 t : Vec Ideal S8x300x4 .f32) (ix3 b q k)
      = (m ((c : Thread nD τ).loc main_arg1) : FVec Ideal S256x300x4 .f32) (ix3 (bat t b) q k) := by
  obtain ⟨e0, e1, e2⟩ := idx_boxes t
  show V m c main_arg1 (((cfg0.win 1).blk t).view.emb (ix3 b q k)) = _
  rw [V_main_arg1]
  refine congrArg _ (funext fun a => Fin.ext ?_)
  match a with
  | ⟨0, _⟩ => show win0_1.index t (0 : Fin 3) * 8 + 1 * b.val = 8 * t.val + b.val; omega
  | ⟨1, _⟩ => show win0_1.index t (1 : Fin 3) * 300 + 1 * q.val = q.val; omega
  | ⟨2, _⟩ => show win0_1.index t (2 : Fin 3) * 4 + 1 * k.val = k.val; omega

/-- The labels reach the region reshaped from [256, 100] to [256, 1, 100]. -/
theorem labels_arr (c : Dev nD) :
    (V m c main_v0 : IVec S256x1x100 32)
      = shapeCast S256x1x100 (m ((c : Thread nD τ).loc main_arg2) : IVec S256x100 32) shapeCasts_S256x100_S256x1x100 := by
  dsimp only [Gen.V, Gen.hostOps0]; after_results; rfl

/-- The labels block: entry (b, 0, j) is labels[8t + b, j] (the same row-major position on both sides of the reshape). -/
theorem labels_blk (c : Dev nD) (t : Fin cfg0.N) (b : Fin 8) (j : Fin 100) :
    (iblk m c 2 t : Vec Ideal S8x1x100 .i32) (ix3 b (0 : Fin 1) j)
      = (m ((c : Thread nD τ).loc main_arg2) : IVec S256x100 32) (ix2 (bat t b) j) := by
  obtain ⟨e0, e1, e2⟩ := idx_labels t
  show V m c main_v0 (((cfg0.win 2).blk t).view.emb (ix3 b (0 : Fin 1) j)) = _
  rw [labels_arr]
  refine shapeCast_apply _ _ _ (ix2 (bat t b) j) ?_
  rw [Shape.rowMajor_val_two, Shape.rowMajor_val_three]
  show (8 * t.val + b.val) * 100 + j.val
    = ((win0_2.index t (0 : Fin 3) * 8 + 1 * b.val) * 1 + (win0_2.index t (1 : Fin 3) * 1 + 1 * 0)) * 100
      + (win0_2.index t (2 : Fin 3) * 100 + 1 * j.val)
  omega

/-- The target boxes reach the region transposed from [256, 100, 4] to [256, 4, 100]. -/
theorem targets_arr (c : Dev nD) :
    (V m c main_v1 : FVec Ideal S256x4x100 .f32)
      = transpose S256x4x100 [0, 2, 1] (m ((c : Thread nD τ).loc main_arg3) : FVec Ideal S256x100x4 .f32)
          transposes_S256x100x4_S256x4x100_0_2_1 := by
  dsimp only [Gen.V, Gen.hostOps0]; after_results

/-- The transposed-targets block: entry (b, k, j) is tgt_boxes[8t + b, j, k]. -/
theorem targets_blk (c : Dev nD) (t : Fin cfg0.N) (b : Fin 8) (k : Fin 4) (j : Fin 100) :
    (iblk m c 3 t : Vec Ideal S8x4x100 .f32) (ix3 b k j)
      = (m ((c : Thread nD τ).loc main_arg3) : FVec Ideal S256x100x4 .f32) (ix3 (bat t b) j k) := by
  obtain ⟨e0, e1, e2⟩ := idx_targets t
  show V m c main_v1 (((cfg0.win 3).blk t).view.emb (ix3 b k j)) = _
  rw [targets_arr]
  refine transpose_apply _ _ _ _ (ix3 (bat t b) j k) fun a => ?_
  match a with
  | ⟨0, _⟩ => show 8 * t.val + b.val = win0_3.index t (0 : Fin 3) * 8 + 1 * b.val; omega
  | ⟨1, _⟩ => show k.val = win0_3.index t (1 : Fin 3) * 4 + 1 * k.val; omega
  | ⟨2, _⟩ => show j.val = win0_3.index t (2 : Fin 3) * 100 + 1 * j.val; omega

/-! ## What a point leaves in the output block -/

/-- The block the body leaves, over any four input blocks: its one store through the whole block leaves the stored value,
    each load through a whole block reads the block itself. -/
theorem block_value (x0 : Vec Ideal S8x300x92 .f32) (x1 : Vec Ideal S8x300x4 .f32) (x2 : Vec Ideal S8x1x100 .i32)
    (x3 : Vec Ideal S8x4x100 .f32) :
    out0_4 x0 x1 x2 x3 = stored x1 x3 x0 x2 := by
  have e0 : View.ld x0 r0_0 = x0 := View.ld_unit_zero hz _ x0
  have e1 : View.ld x1 r0_1 = x1 := View.ld_unit_zero hz _ x1
  have e2 : View.ld x2 r0_2 = x2 := View.ld_unit_zero hz _ x2
  have e3 : View.ld x3 r0_3 = x3 := View.ld_unit_zero hz _ x3
  unfold out0_4
  rw [e0, e1, e2, e3]
  exact View.canon_unit_zero hz _ _

/-- Over input blocks that are rows B b of four arrays, entry (b, q, j) of the block the body leaves is the kernel's cost
    of those arrays at (B b, q, j). -/
theorem point_value (A0 : FVec Ideal SL .f32) (A1 : FVec Ideal SP .f32) (A2 : IVec SLab 32) (A3 : FVec Ideal ST .f32)
    (x0 : Vec Ideal S8x300x92 .f32) (x1 : Vec Ideal S8x300x4 .f32) (x2 : Vec Ideal S8x1x100 .i32)
    (x3 : Vec Ideal S8x4x100 .f32) (B : Fin 8 → Fin 256)
    (h0 : ∀ (b : Fin 8) (q : Fin 300) (k : Fin 92), x0 (ix3 b q k) = A0 (ix3 (B b) q k))
    (h1 : ∀ (b : Fin 8) (q : Fin 300) (k : Fin 4), x1 (ix3 b q k) = A1 (ix3 (B b) q k))
    (h2 : ∀ (b : Fin 8) (j : Fin 100), x2 (ix3 b (0 : Fin 1) j) = A2 (ix2 (B b) j))
    (h3 : ∀ (b : Fin 8) (k : Fin 4) (j : Fin 100), x3 (ix3 b k j) = A3 (ix3 (B b) j k))
    (b : Fin 8) (q : Fin 300) (j : Fin 100) :
    out0_4 x0 x1 x2 x3 (ix3 b q j) = GK A0 A1 A2 A3 (ix3 (B b) q j) := by
  refine (congrFun (block_value x0 x1 x2 x3) (ix3 b q j)).trans ((block_at x1 x3 x0 x2 b q j).trans ?_)
  have ep : (fun k => x1 (ix3 b q k)) = boxP A1 (B b) q := funext fun k => h1 b q k
  have et : (fun k => x3 (ix3 b k j)) = boxT A3 (B b) j := funext fun k => h3 b k j
  have el : (fun c => x0 (ix3 b q c)) = rowL A0 (B b) q := funext fun c => h0 b q c
  have ew : x2 (ix3 b (0 : Fin 1) j) = labAt A2 (B b) j := h2 b j
  rw [GK_apply]
  exact congr (congr (congrArg costK ep) et) (congr (congrArg classK el) ew)

/-- What point t writes back is block t of the kernel's cost matrix of the argument arrays. -/
theorem flushed_eq (c : Dev nD) (t : Fin cfg0.N) :
    (dats m 0 c).flushed 4 t
      = ((cfg0.win 4).blk t).view.read (Elt Ideal)
          (GK (m ((c : Thread nD τ).loc main_arg0)) (m ((c : Thread nD τ).loc main_arg1))
            (m ((c : Thread nD τ).loc main_arg2)) (m ((c : Thread nD τ).loc main_arg3))) := by
  rw [Cert.KernelIdeal.ValueP.flushed4]
  obtain ⟨e0, e1, e2⟩ := idx_out t
  refine funext fun (y : S8x300x100.Idx) => ?_
  obtain ⟨b, q, j, rfl⟩ : ∃ (b : Fin 8) (q : Fin 300) (j : Fin 100), y = ix3 b q j := ⟨y 0, y 1, y 2, eq_ix3 y⟩
  show out0_4 (iblk m c 0 t) (iblk m c 1 t) (iblk m c 2 t) (iblk m c 3 t) (ix3 b q j)
    = GK _ _ _ _ (((cfg0.win 4).blk t).view.emb (ix3 b q j))
  refine (point_value _ _ _ _ (iblk m c 0 t) (iblk m c 1 t) (iblk m c 2 t) (iblk m c 3 t) (bat t)
    (logits_blk m c t) (boxes_blk m c t) (labels_blk m c t) (targets_blk m c t) b q j).trans ?_
  refine congrArg _ (funext fun a => Fin.ext ?_)
  match a with
  | ⟨0, _⟩ => show 8 * t.val + b.val = win0_4.index t (0 : Fin 3) * 8 + 1 * b.val; omega
  | ⟨1, _⟩ => show q.val = win0_4.index t (1 : Fin 3) * 300 + 1 * q.val; omega
  | ⟨2, _⟩ => show j.val = win0_4.index t (2 : Fin 3) * 100 + 1 * j.val; omega

/-! ## The blocks cover the array -/

/-- An entry of the cost matrix is in point t's block iff each coordinate is in the block's range on its axis. -/
theorem mem_blk (t : Fin cfg0.N) (i : S256x300x100.Idx) :
    i ∈ ((cfg0.win 4).blk t).view.set ↔ ∀ a : Fin 3, win0_4.index t a * S8x300x100.size a ≤ (i a).val
      ∧ (i a).val < win0_4.index t a * S8x300x100.size a + S8x300x100.size a := by
  show i ∈ ((View.whole main_v2).slice (win0_4.rect t)).set ↔ _
  rw [View.set_slice_whole, Rect.mem_set_unit]
  exact Iff.rfl

/-- Entry (B, q, j) is in the block of point B / 8, which writes it back. -/
theorem cover (i : S256x300x100.Idx) :
    ∃ t : Fin cfg0.N, (cfg0.win 4).flush t = true ∧ i ∈ ((cfg0.win 4).blk t).view.set := by
  have hi0 : (i 0).val < 256 := (i 0).isLt
  have hi1 : (i 1).val < 300 := (i 1).isLt
  have hi2 : (i 2).val < 100 := (i 2).isLt
  obtain ⟨t, ht⟩ : ∃ t : Fin cfg0.N, t.val = (i 0).val / 8 :=
    ⟨⟨(i 0).val / 8, by rw [show cfg0.N = 32 from N_0]; omega⟩, rfl⟩
  obtain ⟨e0, e1, e2⟩ := idx_out t
  refine ⟨t, flush0_4 t, ?_⟩
  rw [mem_blk]
  intro a
  match a with
  | ⟨0, _⟩ =>
    show win0_4.index t (0 : Fin 3) * 8 ≤ (i 0).val ∧ (i 0).val < win0_4.index t (0 : Fin 3) * 8 + 8
    omega
  | ⟨1, _⟩ =>
    show win0_4.index t (1 : Fin 3) * 300 ≤ (i 1).val ∧ (i 1).val < win0_4.index t (1 : Fin 3) * 300 + 300
    omega
  | ⟨2, _⟩ =>
    show win0_4.index t (2 : Fin 3) * 100 ≤ (i 2).val ∧ (i 2).val < win0_4.index t (2 : Fin 3) * 100 + 100
    omega

end ToArray

/-- The output array after the region is the kernel's cost matrix of the argument arrays. -/
theorem final4 (c : Dev nD) :
    (dats m 0 c).arrAt 4 cfg0.N
      = GK (m ((c : Thread nD τ).loc main_arg0)) (m ((c : Thread nD τ).loc main_arg1)) (m ((c : Thread nD τ).loc main_arg2)) (m ((c : Thread nD τ).loc main_arg3)) :=
  (dats m 0 c).arrAt_eq_of_cover 4
    (GK (m ((c : Thread nD τ).loc main_arg0)) (m ((c : Thread nD τ).loc main_arg1)) (m ((c : Thread nD τ).loc main_arg2)) (m ((c : Thread nD τ).loc main_arg3)))
    (fun t _ => ToArray.flushed_eq m c t) ToArray.cover

/-- The kernel's run: every weakly fair execution ends with the result at the kernel's cost matrix of the arguments,
    the arguments unchanged. -/
theorem run : θ_run defs (onTc (τ := τ) (main (F := Ideal))) ⟨m, fun _ => 0, ρ⟩ fun r => ∀ c : Dev nD,
      r.2.mem ((c : Thread nD τ).loc main_v2)
        = GK (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (Cert.KernelIdeal.ValueP.run_blocks m ρ)

end Cert.KernelIdeal.Hand

end
-- ==== Proof.RefClass.lean ====
/-
  The reference's class probability: its softmax row, gathered at the target's label (a label in range is read
  as it stands, and the out-of-range fill is not taken).
-/
import proofs.«410024_j74981539053919_3_alg».proof.Proof.Spec
import proofs.«410024_j74981539053919_3_alg».proof.Proof.SpecConsts
import proofs.«410024_j74981539053919_3_alg».proof.Proof.ReferenceRead
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Affine

noncomputable section

namespace Cert.ReferenceIdeal.Hand

open Cert.ReferenceIdeal Cert.ReferenceIdeal.Gen Cert.ReferenceIdeal.ReadP Cert.MatchCost Idealize.ShloMosaic Idealize.ShloMosaic.ValueIdx

/-! ## A label word in the class range -/

/-- A 32-bit word whose signed reading lies in [0, 92) reads the same unsigned, and below 92. -/
theorem toNat_of_range (l : BitVec 32) (h : 0 ≤ l.toInt ∧ l.toInt < 92) : l.toInt.toNat = l.toNat ∧ l.toNat < 92 := by
  have hlt : l.toNat < 4294967296 := l.isLt
  have e := BitVec.toInt_eq_toNat_cond l
  obtain ⟨h0, h1⟩ := h
  split at e
  · constructor <;> omega
  · exfalso
    rw [e] at h0
    have : (2 : Int) ^ 32 = 4294967296 := by norm_num
    omega

/-! ## The start index and the in-bounds mask -/

/-- The start index of pair (b, t): the label itself when it is not negative. -/
theorem startIdx_at (x2 : IVec S256x100 32) (b : Fin 256) (t : Fin 100) (h0 : 0 ≤ (x2 (ix2 b t)).toInt) :
    val_main_call0_v5 (F := Ideal) x2 (ix3 b t (0 : Fin 1)) = x2 (ix2 b t) := by
  have hi : idx_main_v11 (idx_main_call0_v5 (ix3 b t (0 : Fin 1))) = ix2 b t := by
    funext a
    match a with
    | ⟨0, _⟩ => exact Fin.ext (by show ((b.val * 100 + t.val) * 1 + 0) / 100 = b.val; have := t.isLt; omega)
    | ⟨1, _⟩ => exact Fin.ext (by show ((b.val * 100 + t.val) * 1 + 0) % 100 = t.val; have := t.isLt; omega)
  have hc : IntOp.cmpi .slt (x2 (ix2 b t)) 0#32 = 0#1 :=
    eq_zero_of_ne_one fun h => by
      have := IntOp.cmpi_slt.1 h
      rw [BitVec.toInt_zero] at this
      omega
  rw [val_main_call0_v5_apply, val_main_call0_v4_apply, val_main_call0_v1_apply, val_main_v11_apply,
    val_main_call0_v0_apply, val_main_call0_c_apply, hi, hc, select_zero]

/-- A fold over the coordinates of an axis of size one is one application of the operation. -/
theorem fold_of_size_one {α : Type} {n : Nat} (hn : n = 1) (op : α → α → α) [Std.Commutative op] [Std.Associative op]
    (init : α) (f : Fin n → α) :
    (Finset.univ : Finset (Fin n)).fold op init f = op (f ⟨0, by omega⟩) init := by
  subst hn
  rw [Finset.univ_unique, Finset.fold_singleton]
  rfl

/-- The axis the mask is and-reduced over has one coordinate. -/
theorem reduces_mask : S256x100x1.Reduces [2] S256x100 := by decide

/-- The one index of the size-one axis over pair (b, t). -/
theorem lift_mask (b : Fin 256) (t : Fin 100) (k : Fin 1) :
    reduces_mask.lift (ix2 b t) k = ix3 b t (0 : Fin 1) := by
  funext a
  match a with
  | ⟨0, _⟩ => exact Fin.ext rfl
  | ⟨1, _⟩ => exact Fin.ext rfl
  | ⟨2, _⟩ => exact Fin.ext (by show k.val = 0; omega)

/-- For a label in the class range the in-bounds mask of pair (b, t) is set. -/
theorem mask_at (x2 : IVec S256x100 32) (b : Fin 256) (q : Fin 300) (t : Fin 100)
    (hlab : 0 ≤ (x2 (ix2 b t)).toInt ∧ (x2 (ix2 b t)).toInt < 92) :
    val_main_call0_v14 (F := Ideal) x2 (ix3 b q t) = 1#1 := by
  have hi : idx_main_call0_v14 (ix3 b q t) = ix2 b t := by
    funext a
    match a with
    | ⟨0, _⟩ => rfl
    | ⟨1, _⟩ => rfl
  have h91 : (91#32 : BitVec 32).toInt = 91 := by decide
  -- the one conjunct: 0 ≤ label ≤ 91
  have hel : val_main_call0_v11 (F := Ideal) x2 (ix3 b t (0 : Fin 1)) = 1#1 := by
    rw [val_main_call0_v11_apply, val_main_call0_v7_apply, val_main_call0_v10_apply, startIdx_at x2 b t hlab.1,
      val_main_call0_v6_apply, val_main_call0_c_2_apply, val_main_call0_v9_apply, val_main_call0_v8_apply,
      val_main_call0_c_1_apply]
    refine IntOp.andi_eq_one.2 ⟨IntOp.cmpi_sge.2 ?_, IntOp.cmpi_sle.2 ?_⟩
    · rw [BitVec.toInt_zero]; exact hlab.1
    · rw [h91]; omega
  rw [val_main_call0_v14_apply, hi]
  unfold val_main_call0_v12
  refine (Host.reduce_eq_fold_single IntOp.andi (val_main_call0_v11 (F := Ideal) x2) (val_main_call0_c_3 (F := Ideal))
    reducesTo_S256x100x1_S256x100_d2 reduces_mask h_S_ (ix2 b t)).trans ?_
  refine (fold_of_size_one (rfl : S256x100x1.size 2 = 1) IntOp.andi _ _).trans ?_
  show IntOp.andi (val_main_call0_v11 (F := Ideal) x2 (reduces_mask.lift (ix2 b t) (⟨0, by decide⟩ : Fin 1))) 1#1 = 1#1
  rw [lift_mask, hel]
  rfl

/-! ## The gather -/

/-- Entry (b, q, t) of the gather is the operand's at (b, q, ·) with the start index of (b, t) on the class axis;
    for a label in the class range the clamp into [0, 91] leaves it as it is. -/
theorem gather_at (x0 : FVec Ideal S256x300x92 .f32) (x2 : IVec S256x100 32) (b : Fin 256) (q : Fin 300) (t : Fin 100)
    (hlab : 0 ≤ (x2 (ix2 b t)).toInt ∧ (x2 (ix2 b t)).toInt < 92) :
    val_main_call0_v13 (F := Ideal) x0 x2 (ix3 b q t)
      = val_main_v10 (F := Ideal) x0 (ix3 b q (labIdx (x2 (ix2 b t)))) := by
  obtain ⟨hn, hlt⟩ := toNat_of_range _ hlab
  unfold val_main_call0_v13 Host.gather
  refine congrArg (val_main_v10 (F := Ideal) x0) ?_
  have hsi : gather_S256x300x92_S256x100x1_S256x300x100_1_2_0_0_2_2_13001.siIdx (ix3 b q t)
      ⟨0, by decide⟩ = ix3 b t (0 : Fin 1) := by
    funext a
    match a with
    | ⟨0, _⟩ => exact Fin.ext rfl
    | ⟨1, _⟩ => exact Fin.ext rfl
    | ⟨2, _⟩ => exact Fin.ext rfl
  funext a
  match a with
  | ⟨0, _⟩ => exact Fin.ext (by show 0 + b.val + 0 = b.val; omega)
  | ⟨1, _⟩ => exact Fin.ext (by show 0 + 0 + q.val = q.val; omega)
  | ⟨2, _⟩ =>
    refine Fin.ext ?_
    show min ((val_main_call0_v5 (F := Ideal) x2
        (gather_S256x300x92_S256x100x1_S256x300x100_1_2_0_0_2_2_13001.siIdx (ix3 b q t) ⟨0, by decide⟩)).toInt.toNat)
        (92 - 1) + 0 + 0 = (x2 (ix2 b t)).toNat % 92
    rw [hsi, startIdx_at x2 b t hlab.1, hn]
    omega

/-! ## The softmax row -/

/-- The reduced axis of the logits has the 92 class coordinates. -/
theorem reduces_row : S256x300x92.Reduces [2] S256x300 := by decide

/-- Class c of row (b, q). -/
theorem lift_row (b : Fin 256) (q : Fin 300) (c : Fin 92) : reduces_row.lift (ix2 b q) c = ix3 b q c := by
  funext a
  match a with
  | ⟨0, _⟩ => exact Fin.ext rfl
  | ⟨1, _⟩ => exact Fin.ext rfl
  | ⟨2, _⟩ => exact Fin.ext rfl

/-- The subtracted maximum of row (b, q). -/
theorem rowMax_at (x0 : FVec Ideal S256x300x92 .f32) (b : Fin 256) (q : Fin 300) :
    val_main_v2 (F := Ideal) x0 (ix2 b q) = rowMaxR (rowL x0 b q) := by
  rw [val_main_v2_apply, val_main_v1_apply, val_main_cst_0_apply]
  unfold val_main_v0
  rw [Host.reduce_eq_fold_single (FloatOps.maximumf (F := Ideal) (φ := .f32)) x0 (val_main_cst (F := Ideal))
    reducesTo_S256x300x92_S256x300_d2 reduces_row h_S_ (ix2 b q)]
  have hf : x0 ∘ reduces_row.lift (ix2 b q) = fun c => x0 (ix3 b q c) :=
    funext fun c => congrArg x0 (lift_row b q c)
  rw [hf]
  rfl

/-- exp(l c − M) at (b, q, c). -/
theorem exp_at (x0 : FVec Ideal S256x300x92 .f32) (b : Fin 256) (q : Fin 300) (c : Fin 92) :
    val_main_v6 (F := Ideal) x0 (ix3 b q c) = expShift (rowL x0 b q) (rowMaxR (rowL x0 b q)) c := by
  have hi : idx_main_v3 (idx_main_v4 (ix3 b q c)) = ix2 b q := by
    funext a
    match a with
    | ⟨0, _⟩ => rfl
    | ⟨1, _⟩ => rfl
  rw [val_main_v6_apply, val_main_v5_apply, val_main_v4_apply, val_main_v3_apply, hi, rowMax_at]
  rfl

/-- The softmax of row (b, q) at class c. -/
theorem prob_at (x0 : FVec Ideal S256x300x92 .f32) (b : Fin 256) (q : Fin 300) (c : Fin 92) :
    val_main_v10 (F := Ideal) x0 (ix3 b q c) = probR (rowL x0 b q) c := by
  have hi : idx_main_v8 (idx_main_v9 (ix3 b q c)) = ix2 b q := by
    funext a
    match a with
    | ⟨0, _⟩ => rfl
    | ⟨1, _⟩ => rfl
  have hk : ∀ k : Fin 92, idx_main_v7 (ix2 b q) k = ix3 b q k := by
    intro k
    funext a
    match a with
    | ⟨0, _⟩ => rfl
    | ⟨1, _⟩ => rfl
    | ⟨2, _⟩ => rfl
  rw [val_main_v10_apply, val_main_v9_apply, val_main_v8_apply, hi, val_main_v7_apply, val_main_cst_1_apply, exp_at]
  have hs : (∑ k : Fin 92, val_main_v6 (F := Ideal) x0 (idx_main_v7 (ix2 b q) k))
      = ∑ c' : Fin 92, expShift (rowL x0 b q) (rowMaxR (rowL x0 b q)) c' :=
    Finset.sum_congr rfl fun k _ => by rw [hk k, exp_at]
  rw [hs]
  rfl

/-! ## The class probability -/

/-- Entry (b, q, t) of the gathered probabilities, for a label in the class range: the softmax of row (b, q) of the
    logits at the class the label names. -/
theorem class_at (x0 : FVec Ideal S256x300x92 .f32) (x2 : IVec S256x100 32) (b : Fin 256) (q : Fin 300) (t : Fin 100)
    (hlab : 0 ≤ (x2 (ix2 b t)).toInt ∧ (x2 (ix2 b t)).toInt < 92) :
    val_main_v12 (F := Ideal) x0 x2 (ix3 b q t) = classR (rowL x0 b q) (labAt x2 b t) := by
  rw [val_main_v12_apply, mask_at x2 b q t hlab, select_one, gather_at x0 x2 b q t hlab, prob_at]
  rfl

end Cert.ReferenceIdeal.Hand

end
-- ==== Proof.RefEdges.lean ====
/-
  The reference's boxes in edge form: entry k of the concatenated (x1, y1, x2, y2) of a predicted box and of a
  target box.
-/
import proofs.«410024_j74981539053919_3_alg».proof.Proof.Spec
import proofs.«410024_j74981539053919_3_alg».proof.Proof.SpecConsts
import proofs.«410024_j74981539053919_3_alg».proof.Proof.ReferenceRead
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Hand

open Cert.ReferenceIdeal Cert.ReferenceIdeal.Gen Cert.ReferenceIdeal.ReadP Cert.MatchCost Idealize.ShloMosaic Idealize.ShloMosaic.ValueIdx

/-! ## The predicted boxes -/

/-- Coordinate 0 of every predicted box, as the flattened slice reads it: entry (b, r) of the slice is entry (b, r, 0) of
    the boxes, since (b·300 + r) / 300 = b and (b·300 + r) mod 300 = r for r < 300. -/
private theorem p_c0 (xs : FVec Ideal S256x300x4 .f32) (b : Fin 256) (r : Fin 300) :
    val_main_v22 (F := Ideal) xs (ix2 b r) = xs (ix3 b r 0) := by
  rw [val_main_v22_apply, val_main_v21_apply]
  refine congrArg xs (funext fun a => Fin.ext ?_)
  have hb := b.isLt
  have hr := r.isLt
  match a with
  | ⟨0, _⟩ => show (b.val * 300 + r.val) / 300 = b.val; omega
  | ⟨1, _⟩ => show (b.val * 300 + r.val) / 1 % 300 = r.val; omega
  | ⟨2, _⟩ => rfl

/-- Coordinate 1 of every predicted box, as the flattened slice reads it: entry (b, r) of the slice is entry (b, r, 1) of
    the boxes, since (b·300 + r) / 300 = b and (b·300 + r) mod 300 = r for r < 300. -/
private theorem p_c1 (xs : FVec Ideal S256x300x4 .f32) (b : Fin 256) (r : Fin 300) :
    val_main_v24 (F := Ideal) xs (ix2 b r) = xs (ix3 b r 1) := by
  rw [val_main_v24_apply, val_main_v23_apply]
  refine congrArg xs (funext fun a => Fin.ext ?_)
  have hb := b.isLt
  have hr := r.isLt
  match a with
  | ⟨0, _⟩ => show (b.val * 300 + r.val) / 300 = b.val; omega
  | ⟨1, _⟩ => show (b.val * 300 + r.val) / 1 % 300 = r.val; omega
  | ⟨2, _⟩ => rfl

/-- Coordinate 2 of every predicted box, as the flattened slice reads it: entry (b, r) of the slice is entry (b, r, 2) of
    the boxes, since (b·300 + r) / 300 = b and (b·300 + r) mod 300 = r for r < 300. -/
private theorem p_c2 (xs : FVec Ideal S256x300x4 .f32) (b : Fin 256) (r : Fin 300) :
    val_main_v26 (F := Ideal) xs (ix2 b r) = xs (ix3 b r 2) := by
  rw [val_main_v26_apply, val_main_v25_apply]
  refine congrArg xs (funext fun a => Fin.ext ?_)
  have hb := b.isLt
  have hr := r.isLt
  match a with
  | ⟨0, _⟩ => show (b.val * 300 + r.val) / 300 = b.val; omega
  | ⟨1, _⟩ => show (b.val * 300 + r.val) / 1 % 300 = r.val; omega
  | ⟨2, _⟩ => rfl

/-- Coordinate 3 of every predicted box, as the flattened slice reads it: entry (b, r) of the slice is entry (b, r, 3) of
    the boxes, since (b·300 + r) / 300 = b and (b·300 + r) mod 300 = r for r < 300. -/
private theorem p_c3 (xs : FVec Ideal S256x300x4 .f32) (b : Fin 256) (r : Fin 300) :
    val_main_v28 (F := Ideal) xs (ix2 b r) = xs (ix3 b r 3) := by
  rw [val_main_v28_apply, val_main_v27_apply]
  refine congrArg xs (funext fun a => Fin.ext ?_)
  have hb := b.isLt
  have hr := r.isLt
  match a with
  | ⟨0, _⟩ => show (b.val * 300 + r.val) / 300 = b.val; omega
  | ⟨1, _⟩ => show (b.val * 300 + r.val) / 1 % 300 = r.val; omega
  | ⟨2, _⟩ => rfl

/-- The left edge of box (b, r): centre − ½ · size. -/
private theorem p_x1 (xs : FVec Ideal S256x300x4 .f32) (b : Fin 256) (r : Fin 300) :
    val_main_v31 (F := Ideal) xs (ix2 b r) = Cert.MatchCost.x1 (boxP xs b r) := by
  rw [val_main_v31_apply, val_main_v30_apply, val_main_v29_apply, val_main_cst_3_apply, p_c0, p_c2]
  rfl

/-- The lower edge of box (b, r): centre − ½ · size. -/
private theorem p_y1 (xs : FVec Ideal S256x300x4 .f32) (b : Fin 256) (r : Fin 300) :
    val_main_v34 (F := Ideal) xs (ix2 b r) = Cert.MatchCost.y1 (boxP xs b r) := by
  rw [val_main_v34_apply, val_main_v33_apply, val_main_v32_apply, val_main_cst_4_apply, p_c1, p_c3]
  rfl

/-- The right edge of box (b, r): centre + ½ · size. -/
private theorem p_x2 (xs : FVec Ideal S256x300x4 .f32) (b : Fin 256) (r : Fin 300) :
    val_main_v37 (F := Ideal) xs (ix2 b r) = Cert.MatchCost.x2 (boxP xs b r) := by
  rw [val_main_v37_apply, val_main_v36_apply, val_main_v35_apply, val_main_cst_5_apply, p_c0, p_c2]
  rfl

/-- The upper edge of box (b, r): centre + ½ · size. -/
private theorem p_y2 (xs : FVec Ideal S256x300x4 .f32) (b : Fin 256) (r : Fin 300) :
    val_main_v40 (F := Ideal) xs (ix2 b r) = Cert.MatchCost.y2 (boxP xs b r) := by
  rw [val_main_v40_apply, val_main_v39_apply, val_main_v38_apply, val_main_cst_6_apply, p_c1, p_c3]
  rfl

/-- The predicted boxes' edges. -/
theorem pedges_at (x1 : FVec Ideal S256x300x4 .f32) (b : Fin 256) (q : Fin 300) (k : Fin 4) :
    val_main_v45 (F := Ideal) x1 (ix3 b q k) = corners (boxP x1 b q) k := by
  revert k
  generalize x1 = xs
  generalize q = r
  intro k
  unfold val_main_v45
  match k with
  | ⟨0, _⟩ =>
    refine (concatenate_apply_piece 2 _ _ (ix3 b r (⟨0, by decide⟩ : Fin 4)) 0 (by show 0 < 4; decide) S256x300x1
      (val_main_v41 (F := Ideal) xs) rfl rfl 0 rfl (ix3 b r (0 : Fin 1)) (fun c hc => ?_) rfl).trans ?_
    · match c with
      | ⟨0, _⟩ => rfl
      | ⟨1, _⟩ => rfl
      | ⟨2, _⟩ => exact absurd rfl hc
    · have e : idx_main_v41 (ix3 b r (0 : Fin 1)) = ix2 b r := by
        funext a; match a with | ⟨0, _⟩ => rfl | ⟨1, _⟩ => rfl
      rw [val_main_v41_apply, e]
      exact p_x1 xs b r
  | ⟨1, _⟩ =>
    refine (concatenate_apply_piece 2 _ _ (ix3 b r (⟨1, by decide⟩ : Fin 4)) 1 (by show 1 < 4; decide) S256x300x1
      (val_main_v42 (F := Ideal) xs) rfl rfl 1 rfl (ix3 b r (0 : Fin 1)) (fun c hc => ?_) rfl).trans ?_
    · match c with
      | ⟨0, _⟩ => rfl
      | ⟨1, _⟩ => rfl
      | ⟨2, _⟩ => exact absurd rfl hc
    · have e : idx_main_v42 (ix3 b r (0 : Fin 1)) = ix2 b r := by
        funext a; match a with | ⟨0, _⟩ => rfl | ⟨1, _⟩ => rfl
      rw [val_main_v42_apply, e]
      exact p_y1 xs b r
  | ⟨2, _⟩ =>
    refine (concatenate_apply_piece 2 _ _ (ix3 b r (⟨2, by decide⟩ : Fin 4)) 2 (by show 2 < 4; decide) S256x300x1
      (val_main_v43 (F := Ideal) xs) rfl rfl 2 rfl (ix3 b r (0 : Fin 1)) (fun c hc => ?_) rfl).trans ?_
    · match c with
      | ⟨0, _⟩ => rfl
      | ⟨1, _⟩ => rfl
      | ⟨2, _⟩ => exact absurd rfl hc
    · have e : idx_main_v43 (ix3 b r (0 : Fin 1)) = ix2 b r := by
        funext a; match a with | ⟨0, _⟩ => rfl | ⟨1, _⟩ => rfl
      rw [val_main_v43_apply, e]
      exact p_x2 xs b r
  | ⟨3, _⟩ =>
    refine (concatenate_apply_piece 2 _ _ (ix3 b r (⟨3, by decide⟩ : Fin 4)) 3 (by show 3 < 4; decide) S256x300x1
      (val_main_v44 (F := Ideal) xs) rfl rfl 3 rfl (ix3 b r (0 : Fin 1)) (fun c hc => ?_) rfl).trans ?_
    · match c with
      | ⟨0, _⟩ => rfl
      | ⟨1, _⟩ => rfl
      | ⟨2, _⟩ => exact absurd rfl hc
    · have e : idx_main_v44 (ix3 b r (0 : Fin 1)) = ix2 b r := by
        funext a; match a with | ⟨0, _⟩ => rfl | ⟨1, _⟩ => rfl
      rw [val_main_v44_apply, e]
      exact p_y2 xs b r

/-! ## The target boxes -/

/-- Coordinate 0 of every target box, as the flattened slice reads it: entry (b, r) of the slice is entry (b, r, 0) of
    the boxes, since (b·100 + r) / 100 = b and (b·100 + r) mod 100 = r for r < 100. -/
private theorem t_c0 (xs : FVec Ideal S256x100x4 .f32) (b : Fin 256) (r : Fin 100) :
    val_main_v47 (F := Ideal) xs (ix2 b r) = xs (ix3 b r 0) := by
  rw [val_main_v47_apply, val_main_v46_apply]
  refine congrArg xs (funext fun a => Fin.ext ?_)
  have hb := b.isLt
  have hr := r.isLt
  match a with
  | ⟨0, _⟩ => show (b.val * 100 + r.val) / 100 = b.val; omega
  | ⟨1, _⟩ => show (b.val * 100 + r.val) / 1 % 100 = r.val; omega
  | ⟨2, _⟩ => rfl

/-- Coordinate 1 of every target box, as the flattened slice reads it: entry (b, r) of the slice is entry (b, r, 1) of
    the boxes, since (b·100 + r) / 100 = b and (b·100 + r) mod 100 = r for r < 100. -/
private theorem t_c1 (xs : FVec Ideal S256x100x4 .f32) (b : Fin 256) (r : Fin 100) :
    val_main_v49 (F := Ideal) xs (ix2 b r) = xs (ix3 b r 1) := by
  rw [val_main_v49_apply, val_main_v48_apply]
  refine congrArg xs (funext fun a => Fin.ext ?_)
  have hb := b.isLt
  have hr := r.isLt
  match a with
  | ⟨0, _⟩ => show (b.val * 100 + r.val) / 100 = b.val; omega
  | ⟨1, _⟩ => show (b.val * 100 + r.val) / 1 % 100 = r.val; omega
  | ⟨2, _⟩ => rfl

/-- Coordinate 2 of every target box, as the flattened slice reads it: entry (b, r) of the slice is entry (b, r, 2) of
    the boxes, since (b·100 + r) / 100 = b and (b·100 + r) mod 100 = r for r < 100. -/
private theorem t_c2 (xs : FVec Ideal S256x100x4 .f32) (b : Fin 256) (r : Fin 100) :
    val_main_v51 (F := Ideal) xs (ix2 b r) = xs (ix3 b r 2) := by
  rw [val_main_v51_apply, val_main_v50_apply]
  refine congrArg xs (funext fun a => Fin.ext ?_)
  have hb := b.isLt
  have hr := r.isLt
  match a with
  | ⟨0, _⟩ => show (b.val * 100 + r.val) / 100 = b.val; omega
  | ⟨1, _⟩ => show (b.val * 100 + r.val) / 1 % 100 = r.val; omega
  | ⟨2, _⟩ => rfl

/-- Coordinate 3 of every target box, as the flattened slice reads it: entry (b, r) of the slice is entry (b, r, 3) of
    the boxes, since (b·100 + r) / 100 = b and (b·100 + r) mod 100 = r for r < 100. -/
private theorem t_c3 (xs : FVec Ideal S256x100x4 .f32) (b : Fin 256) (r : Fin 100) :
    val_main_v53 (F := Ideal) xs (ix2 b r) = xs (ix3 b r 3) := by
  rw [val_main_v53_apply, val_main_v52_apply]
  refine congrArg xs (funext fun a => Fin.ext ?_)
  have hb := b.isLt
  have hr := r.isLt
  match a with
  | ⟨0, _⟩ => show (b.val * 100 + r.val) / 100 = b.val; omega
  | ⟨1, _⟩ => show (b.val * 100 + r.val) / 1 % 100 = r.val; omega
  | ⟨2, _⟩ => rfl

/-- The left edge of box (b, r): centre − ½ · size. -/
private theorem t_x1 (xs : FVec Ideal S256x100x4 .f32) (b : Fin 256) (r : Fin 100) :
    val_main_v56 (F := Ideal) xs (ix2 b r) = Cert.MatchCost.x1 (boxT xs b r) := by
  rw [val_main_v56_apply, val_main_v55_apply, val_main_v54_apply, val_main_cst_7_apply, t_c0, t_c2]
  rfl

/-- The lower edge of box (b, r): centre − ½ · size. -/
private theorem t_y1 (xs : FVec Ideal S256x100x4 .f32) (b : Fin 256) (r : Fin 100) :
    val_main_v59 (F := Ideal) xs (ix2 b r) = Cert.MatchCost.y1 (boxT xs b r) := by
  rw [val_main_v59_apply, val_main_v58_apply, val_main_v57_apply, val_main_cst_8_apply, t_c1, t_c3]
  rfl

/-- The right edge of box (b, r): centre + ½ · size. -/
private theorem t_x2 (xs : FVec Ideal S256x100x4 .f32) (b : Fin 256) (r : Fin 100) :
    val_main_v62 (F := Ideal) xs (ix2 b r) = Cert.MatchCost.x2 (boxT xs b r) := by
  rw [val_main_v62_apply, val_main_v61_apply, val_main_v60_apply, val_main_cst_9_apply, t_c0, t_c2]
  rfl

/-- The upper edge of box (b, r): centre + ½ · size. -/
private theorem t_y2 (xs : FVec Ideal S256x100x4 .f32) (b : Fin 256) (r : Fin 100) :
    val_main_v65 (F := Ideal) xs (ix2 b r) = Cert.MatchCost.y2 (boxT xs b r) := by
  rw [val_main_v65_apply, val_main_v64_apply, val_main_v63_apply, val_main_cst_10_apply, t_c1, t_c3]
  rfl

/-- The target boxes' edges. -/
theorem tedges_at (x3 : FVec Ideal S256x100x4 .f32) (b : Fin 256) (t : Fin 100) (k : Fin 4) :
    val_main_v70 (F := Ideal) x3 (ix3 b t k) = corners (boxT x3 b t) k := by
  revert k
  generalize x3 = xs
  generalize t = r
  intro k
  unfold val_main_v70
  match k with
  | ⟨0, _⟩ =>
    refine (concatenate_apply_piece 2 _ _ (ix3 b r (⟨0, by decide⟩ : Fin 4)) 0 (by show 0 < 4; decide) S256x100x1
      (val_main_v66 (F := Ideal) xs) rfl rfl 0 rfl (ix3 b r (0 : Fin 1)) (fun c hc => ?_) rfl).trans ?_
    · match c with
      | ⟨0, _⟩ => rfl
      | ⟨1, _⟩ => rfl
      | ⟨2, _⟩ => exact absurd rfl hc
    · have e : idx_main_v66 (ix3 b r (0 : Fin 1)) = ix2 b r := by
        funext a; match a with | ⟨0, _⟩ => rfl | ⟨1, _⟩ => rfl
      rw [val_main_v66_apply, e]
      exact t_x1 xs b r
  | ⟨1, _⟩ =>
    refine (concatenate_apply_piece 2 _ _ (ix3 b r (⟨1, by decide⟩ : Fin 4)) 1 (by show 1 < 4; decide) S256x100x1
      (val_main_v67 (F := Ideal) xs) rfl rfl 1 rfl (ix3 b r (0 : Fin 1)) (fun c hc => ?_) rfl).trans ?_
    · match c with
      | ⟨0, _⟩ => rfl
      | ⟨1, _⟩ => rfl
      | ⟨2, _⟩ => exact absurd rfl hc
    · have e : idx_main_v67 (ix3 b r (0 : Fin 1)) = ix2 b r := by
        funext a; match a with | ⟨0, _⟩ => rfl | ⟨1, _⟩ => rfl
      rw [val_main_v67_apply, e]
      exact t_y1 xs b r
  | ⟨2, _⟩ =>
    refine (concatenate_apply_piece 2 _ _ (ix3 b r (⟨2, by decide⟩ : Fin 4)) 2 (by show 2 < 4; decide) S256x100x1
      (val_main_v68 (F := Ideal) xs) rfl rfl 2 rfl (ix3 b r (0 : Fin 1)) (fun c hc => ?_) rfl).trans ?_
    · match c with
      | ⟨0, _⟩ => rfl
      | ⟨1, _⟩ => rfl
      | ⟨2, _⟩ => exact absurd rfl hc
    · have e : idx_main_v68 (ix3 b r (0 : Fin 1)) = ix2 b r := by
        funext a; match a with | ⟨0, _⟩ => rfl | ⟨1, _⟩ => rfl
      rw [val_main_v68_apply, e]
      exact t_x2 xs b r
  | ⟨3, _⟩ =>
    refine (concatenate_apply_piece 2 _ _ (ix3 b r (⟨3, by decide⟩ : Fin 4)) 3 (by show 3 < 4; decide) S256x100x1
      (val_main_v69 (F := Ideal) xs) rfl rfl 3 rfl (ix3 b r (0 : Fin 1)) (fun c hc => ?_) rfl).trans ?_
    · match c with
      | ⟨0, _⟩ => rfl
      | ⟨1, _⟩ => rfl
      | ⟨2, _⟩ => exact absurd rfl hc
    · have e : idx_main_v69 (ix3 b r (0 : Fin 1)) = ix2 b r := by
        funext a; match a with | ⟨0, _⟩ => rfl | ⟨1, _⟩ => rfl
      rw [val_main_v69_apply, e]
      exact t_y2 xs b r

end Cert.ReferenceIdeal.Hand

end
-- ==== Proof.RefGiou.lean ====
/-
  The reference's L1 distance and generalized IoU of a pair, read entry by entry over the boxes' edges.
-/
import proofs.«410024_j74981539053919_3_alg».proof.Proof.Spec
import proofs.«410024_j74981539053919_3_alg».proof.Proof.SpecConsts
import proofs.«410024_j74981539053919_3_alg».proof.Proof.ReferenceRead
import Idealize.ShloMosaic.PureOps.Ideal.Laws
import Idealize.ShloMosaic.Lib.Pipeline.Value
import Idealize.ShloMosaic.Lib.ValueIdx
import Idealize.ShloMosaic.Lib.ValueLayout
import proofs.«410024_j74981539053919_3_alg».proof.Proof.RefEdges

noncomputable section

namespace Cert.ReferenceIdeal.Hand

open Cert.ReferenceIdeal Cert.ReferenceIdeal.Gen Cert.ReferenceIdeal.ReadP Cert.MatchCost Idealize.ShloMosaic Idealize.ShloMosaic.ValueIdx

/-! ## Row-major positions of a pair and of a triple, read back as coordinates -/

private theorem div300 (a c : Nat) (hc : c < 300) : (a * 300 + c) / 300 = a := by omega
private theorem mod300 (a c : Nat) (hc : c < 300) : (a * 300 + c) / 1 % 300 = c := by omega
private theorem div100 (a c : Nat) (hc : c < 100) : (a * 100 + c) / 100 = a := by omega
private theorem mod100 (a c : Nat) (hc : c < 100) : (a * 100 + c) / 1 % 100 = c := by omega
private theorem flat3_0 (a c d : Nat) (hc : c < 300) (hd : d < 100) : ((a * 300 + c) * 100 + d) / 30000 = a := by omega
private theorem flat3_1 (a c d : Nat) (hc : c < 300) (hd : d < 100) : ((a * 300 + c) * 100 + d) / 100 % 300 = c := by omega
private theorem flat3_2 (a c d : Nat) (hc : c < 300) (hd : d < 100) : ((a * 300 + c) * 100 + d) / 1 % 100 = d := by omega

/-- Entry (b, q) of a [256, 300] array reshaped from [256, 300, 1] is entry (b, q, 0). -/
private theorem pairIdxP (b : Fin 256) (q : Fin 300) : idx_main_v72 (ix2 b q) = ix3 b q (0 : Fin 1) := by
  funext a
  match a with
  | ⟨0, _⟩ => exact Fin.ext (div300 b.val q.val q.isLt)
  | ⟨1, _⟩ => exact Fin.ext (mod300 b.val q.val q.isLt)
  | ⟨2, _⟩ => rfl

/-- Entry (b, t) of a [256, 100] array reshaped from [256, 100, 1] is entry (b, t, 0). -/
private theorem pairIdxT (b : Fin 256) (t : Fin 100) : idx_main_v83 (ix2 b t) = ix3 b t (0 : Fin 1) := by
  funext a
  match a with
  | ⟨0, _⟩ => exact Fin.ext (div100 b.val t.val t.isLt)
  | ⟨1, _⟩ => exact Fin.ext (mod100 b.val t.val t.isLt)
  | ⟨2, _⟩ => rfl

/-- Entry (b, q, t) of a [256, 300, 100] array reshaped from [256, 300, 100, 1] is entry (b, q, t, 0). -/
private theorem tripleIdx (b : Fin 256) (q : Fin 300) (t : Fin 100) :
    idx_main_v108 (ix3 b q t) = ix4 b q t (0 : Fin 1) := by
  funext a
  match a with
  | ⟨0, _⟩ => exact Fin.ext (flat3_0 b.val q.val t.val q.isLt t.isLt)
  | ⟨1, _⟩ => exact Fin.ext (flat3_1 b.val q.val t.val q.isLt t.isLt)
  | ⟨2, _⟩ => exact Fin.ext (flat3_2 b.val q.val t.val q.isLt t.isLt)
  | ⟨3, _⟩ => rfl

/-! ## The summed absolute differences -/

/-- Entry (b, q, t) of the summed absolute differences. -/
theorem l1_at (x1 : FVec Ideal S256x300x4 .f32) (x3 : FVec Ideal S256x100x4 .f32) (b : Fin 256) (q : Fin 300) (t : Fin 100) :
    val_main_v20 (F := Ideal) x1 x3 (ix3 b q t) = l1R (boxP x1 b q) (boxT x3 b t) := by
  rw [val_main_v20_apply]
  refine congrArg (cZero + ·) (Finset.sum_congr rfl fun k _ => ?_)
  rw [val_main_v19_apply, val_main_v18_apply, val_main_v16_apply, val_main_v17_apply, val_main_v14_apply,
    val_main_v15_apply]
  have hp : idx_main_v14 (idx_main_v16 (idx_main_v20 (ix3 b q t) k)) = ix3 b q k := by
    funext a
    match a with
    | ⟨0, _⟩ => rfl
    | ⟨1, _⟩ => rfl
    | ⟨2, _⟩ => rfl
  have hg : idx_main_v15 (idx_main_v17 (idx_main_v20 (ix3 b q t) k)) = ix3 b t k := by
    funext a
    match a with
    | ⟨0, _⟩ => rfl
    | ⟨1, _⟩ => rfl
    | ⟨2, _⟩ => rfl
  rw [hp, hg]
  rfl

/-! ## The two areas -/

/-- Edge k of the predicted box (b, q), read through a unit slice and its reshape to [256, 300]. -/
private theorem pEdge_x2 (x1 : FVec Ideal S256x300x4 .f32) (b : Fin 256) (q : Fin 300) :
    val_main_v72 (F := Ideal) x1 (ix2 b q) = x2 (boxP x1 b q) := by
  rw [val_main_v72_apply, pairIdxP, val_main_v71_apply]
  refine (congrArg (val_main_v45 (F := Ideal) x1) ?_).trans (pedges_at x1 b q 2)
  funext a
  match a with
  | ⟨0, _⟩ => rfl
  | ⟨1, _⟩ => rfl
  | ⟨2, _⟩ => rfl

private theorem pEdge_x1 (x1 : FVec Ideal S256x300x4 .f32) (b : Fin 256) (q : Fin 300) :
    val_main_v74 (F := Ideal) x1 (ix2 b q) = Cert.MatchCost.x1 (boxP x1 b q) := by
  rw [val_main_v74_apply, show idx_main_v74 (ix2 b q) = ix3 b q (0 : Fin 1) from pairIdxP b q, val_main_v73_apply]
  refine (congrArg (val_main_v45 (F := Ideal) x1) ?_).trans (pedges_at x1 b q 0)
  funext a
  match a with
  | ⟨0, _⟩ => rfl
  | ⟨1, _⟩ => rfl
  | ⟨2, _⟩ => rfl

private theorem pEdge_y2 (x1 : FVec Ideal S256x300x4 .f32) (b : Fin 256) (q : Fin 300) :
    val_main_v77 (F := Ideal) x1 (ix2 b q) = y2 (boxP x1 b q) := by
  rw [val_main_v77_apply, show idx_main_v77 (ix2 b q) = ix3 b q (0 : Fin 1) from pairIdxP b q, val_main_v76_apply]
  refine (congrArg (val_main_v45 (F := Ideal) x1) ?_).trans (pedges_at x1 b q 3)
  funext a
  match a with
  | ⟨0, _⟩ => rfl
  | ⟨1, _⟩ => rfl
  | ⟨2, _⟩ => rfl

private theorem pEdge_y1 (x1 : FVec Ideal S256x300x4 .f32) (b : Fin 256) (q : Fin 300) :
    val_main_v79 (F := Ideal) x1 (ix2 b q) = y1 (boxP x1 b q) := by
  rw [val_main_v79_apply, show idx_main_v79 (ix2 b q) = ix3 b q (0 : Fin 1) from pairIdxP b q, val_main_v78_apply]
  refine (congrArg (val_main_v45 (F := Ideal) x1) ?_).trans (pedges_at x1 b q 1)
  funext a
  match a with
  | ⟨0, _⟩ => rfl
  | ⟨1, _⟩ => rfl
  | ⟨2, _⟩ => rfl

/-- The predicted box's area (x2 − x1)(y2 − y1). -/
private theorem area1_at (x1 : FVec Ideal S256x300x4 .f32) (b : Fin 256) (q : Fin 300) :
    val_main_v81 (F := Ideal) x1 (ix2 b q) = area (boxP x1 b q) := by
  rw [val_main_v81_apply, val_main_v75_apply, val_main_v80_apply, pEdge_x2, pEdge_x1, pEdge_y2, pEdge_y1]
  rfl

private theorem tEdge_x2 (x3 : FVec Ideal S256x100x4 .f32) (b : Fin 256) (t : Fin 100) :
    val_main_v83 (F := Ideal) x3 (ix2 b t) = x2 (boxT x3 b t) := by
  rw [val_main_v83_apply, pairIdxT, val_main_v82_apply]
  refine (congrArg (val_main_v70 (F := Ideal) x3) ?_).trans (tedges_at x3 b t 2)
  funext a
  match a with
  | ⟨0, _⟩ => rfl
  | ⟨1, _⟩ => rfl
  | ⟨2, _⟩ => rfl

private theorem tEdge_x1 (x3 : FVec Ideal S256x100x4 .f32) (b : Fin 256) (t : Fin 100) :
    val_main_v85 (F := Ideal) x3 (ix2 b t) = Cert.MatchCost.x1 (boxT x3 b t) := by
  rw [val_main_v85_apply, show idx_main_v85 (ix2 b t) = ix3 b t (0 : Fin 1) from pairIdxT b t, val_main_v84_apply]
  refine (congrArg (val_main_v70 (F := Ideal) x3) ?_).trans (tedges_at x3 b t 0)
  funext a
  match a with
  | ⟨0, _⟩ => rfl
  | ⟨1, _⟩ => rfl
  | ⟨2, _⟩ => rfl

private theorem tEdge_y2 (x3 : FVec Ideal S256x100x4 .f32) (b : Fin 256) (t : Fin 100) :
    val_main_v88 (F := Ideal) x3 (ix2 b t) = y2 (boxT x3 b t) := by
  rw [val_main_v88_apply, show idx_main_v88 (ix2 b t) = ix3 b t (0 : Fin 1) from pairIdxT b t, val_main_v87_apply]
  refine (congrArg (val_main_v70 (F := Ideal) x3) ?_).trans (tedges_at x3 b t 3)
  funext a
  match a with
  | ⟨0, _⟩ => rfl
  | ⟨1, _⟩ => rfl
  | ⟨2, _⟩ => rfl

private theorem tEdge_y1 (x3 : FVec Ideal S256x100x4 .f32) (b : Fin 256) (t : Fin 100) :
    val_main_v90 (F := Ideal) x3 (ix2 b t) = y1 (boxT x3 b t) := by
  rw [val_main_v90_apply, show idx_main_v90 (ix2 b t) = ix3 b t (0 : Fin 1) from pairIdxT b t, val_main_v89_apply]
  refine (congrArg (val_main_v70 (F := Ideal) x3) ?_).trans (tedges_at x3 b t 1)
  funext a
  match a with
  | ⟨0, _⟩ => rfl
  | ⟨1, _⟩ => rfl
  | ⟨2, _⟩ => rfl

/-- The target box's area. -/
private theorem area2_at (x3 : FVec Ideal S256x100x4 .f32) (b : Fin 256) (t : Fin 100) :
    val_main_v92 (F := Ideal) x3 (ix2 b t) = area (boxT x3 b t) := by
  rw [val_main_v92_apply, val_main_v86_apply, val_main_v91_apply, tEdge_x2, tEdge_x1, tEdge_y2, tEdge_y1]
  rfl

/-! ## The boxes' edges spread over every pair -/

/-- The lower edges (x1, y1) of the predicted box, at pair (b, q, t). -/
private theorem pLow_at (x1 : FVec Ideal S256x300x4 .f32) (b : Fin 256) (q : Fin 300) (t : Fin 100) (k : Fin 2) :
    val_main_v97 (F := Ideal) x1 (ix4 b q t k) = corners (boxP x1 b q) ⟨k.val, Nat.lt_of_lt_of_le k.isLt (by decide)⟩ := by
  rw [val_main_v97_apply, val_main_v95_apply, val_main_v93_apply]
  refine (congrArg (val_main_v45 (F := Ideal) x1) ?_).trans (pedges_at x1 b q _)
  funext a
  match a with
  | ⟨0, _⟩ => rfl
  | ⟨1, _⟩ => rfl
  | ⟨2, _⟩ => rfl

/-- The lower edges of the target box. -/
private theorem tLow_at (x3 : FVec Ideal S256x100x4 .f32) (b : Fin 256) (q : Fin 300) (t : Fin 100) (k : Fin 2) :
    val_main_v98 (F := Ideal) x3 (ix4 b q t k) = corners (boxT x3 b t) ⟨k.val, Nat.lt_of_lt_of_le k.isLt (by decide)⟩ := by
  rw [val_main_v98_apply, val_main_v96_apply, val_main_v94_apply]
  refine (congrArg (val_main_v70 (F := Ideal) x3) ?_).trans (tedges_at x3 b t _)
  funext a
  match a with
  | ⟨0, _⟩ => rfl
  | ⟨1, _⟩ => rfl
  | ⟨2, _⟩ => rfl

/-- The upper edges (x2, y2) of the predicted box. -/
private theorem pHigh_at (x1 : FVec Ideal S256x300x4 .f32) (b : Fin 256) (q : Fin 300) (t : Fin 100) (k : Fin 2) :
    val_main_v102 (F := Ideal) x1 (ix4 b q t k) = corners (boxP x1 b q) ⟨2 + k.val, Nat.add_lt_add_left k.isLt 2⟩ := by
  rw [val_main_v102_apply, val_main_v100_apply, val_main_v93_apply]
  refine (congrArg (val_main_v45 (F := Ideal) x1) ?_).trans (pedges_at x1 b q _)
  funext a
  match a with
  | ⟨0, _⟩ => rfl
  | ⟨1, _⟩ => rfl
  | ⟨2, _⟩ => rfl

/-- The upper edges of the target box. -/
private theorem tHigh_at (x3 : FVec Ideal S256x100x4 .f32) (b : Fin 256) (q : Fin 300) (t : Fin 100) (k : Fin 2) :
    val_main_v103 (F := Ideal) x3 (ix4 b q t k) = corners (boxT x3 b t) ⟨2 + k.val, Nat.add_lt_add_left k.isLt 2⟩ := by
  rw [val_main_v103_apply, val_main_v101_apply, val_main_v94_apply]
  refine (congrArg (val_main_v70 (F := Ideal) x3) ?_).trans (tedges_at x3 b t _)
  funext a
  match a with
  | ⟨0, _⟩ => rfl
  | ⟨1, _⟩ => rfl
  | ⟨2, _⟩ => rfl

/-! ## The intersection -/

/-- The clamp's lower bound is the literal zero everywhere. -/
private theorem clipZero1 (i : S256x300x100x2.Idx) : val_main_call1_v1 (F := Ideal) i = cZero := by
  rw [val_main_call1_v1_apply]
  rfl

/-- The intersection's extent along axis k, clamped at zero from the left. -/
private theorem wh_at (x1 : FVec Ideal S256x300x4 .f32) (x3 : FVec Ideal S256x100x4 .f32) (b : Fin 256) (q : Fin 300) (t : Fin 100)
    (k : Fin 2) :
    val_main_v106 (F := Ideal) x1 x3 (ix4 b q t k)
      = max cZero (min (corners (boxP x1 b q) ⟨2 + k.val, Nat.add_lt_add_left k.isLt 2⟩)
            (corners (boxT x3 b t) ⟨2 + k.val, Nat.add_lt_add_left k.isLt 2⟩)
          - max (corners (boxP x1 b q) ⟨k.val, Nat.lt_of_lt_of_le k.isLt (by decide)⟩)
            (corners (boxT x3 b t) ⟨k.val, Nat.lt_of_lt_of_le k.isLt (by decide)⟩)) := by
  rw [val_main_v106_apply, val_main_v105_apply, val_main_v104_apply, val_main_v99_apply, clipZero1, pLow_at, tLow_at,
    pHigh_at, tHigh_at]
  rfl

/-- The intersection's area. -/
private theorem inter_at (x1 : FVec Ideal S256x300x4 .f32) (x3 : FVec Ideal S256x100x4 .f32) (b : Fin 256) (q : Fin 300)
    (t : Fin 100) :
    val_main_v111 (F := Ideal) x1 x3 (ix3 b q t) = interR (boxP x1 b q) (boxT x3 b t) := by
  rw [val_main_v111_apply, val_main_v108_apply, val_main_v110_apply, tripleIdx,
    show idx_main_v110 (ix3 b q t) = ix4 b q t (0 : Fin 1) from tripleIdx b q t, val_main_v107_apply, val_main_v109_apply]
  have h0 : idx_main_v107 (ix4 b q t (0 : Fin 1)) = ix4 b q t (0 : Fin 2) := by
    funext a
    match a with
    | ⟨0, _⟩ => rfl
    | ⟨1, _⟩ => rfl
    | ⟨2, _⟩ => rfl
    | ⟨3, _⟩ => rfl
  have h1 : idx_main_v109 (ix4 b q t (0 : Fin 1)) = ix4 b q t (1 : Fin 2) := by
    funext a
    match a with
    | ⟨0, _⟩ => rfl
    | ⟨1, _⟩ => rfl
    | ⟨2, _⟩ => rfl
    | ⟨3, _⟩ => rfl
  rw [h0, h1, wh_at, wh_at]
  rfl

/-! ## The union -/

/-- area p + area g − intersection. -/
private theorem union_at (x1 : FVec Ideal S256x300x4 .f32) (x3 : FVec Ideal S256x100x4 .f32) (b : Fin 256) (q : Fin 300)
    (t : Fin 100) :
    val_main_v117 (F := Ideal) x1 x3 (ix3 b q t) = unionR (boxP x1 b q) (boxT x3 b t) := by
  rw [val_main_v117_apply, val_main_v116_apply, val_main_v114_apply, val_main_v115_apply, val_main_v112_apply,
    val_main_v113_apply, inter_at]
  have hp : idx_main_v112 (idx_main_v114 (ix3 b q t)) = ix2 b q := by
    funext a
    match a with
    | ⟨0, _⟩ => rfl
    | ⟨1, _⟩ => rfl
  have hg : idx_main_v113 (idx_main_v115 (ix3 b q t)) = ix2 b t := by
    funext a
    match a with
    | ⟨0, _⟩ => rfl
    | ⟨1, _⟩ => rfl
  rw [hp, hg, area1_at, area2_at]
  rfl

/-! ## The smallest enclosing box -/

private theorem pLowE_at (x1 : FVec Ideal S256x300x4 .f32) (b : Fin 256) (q : Fin 300) (t : Fin 100) (k : Fin 2) :
    val_main_v121 (F := Ideal) x1 (ix4 b q t k) = corners (boxP x1 b q) ⟨k.val, Nat.lt_of_lt_of_le k.isLt (by decide)⟩ := by
  rw [val_main_v121_apply, val_main_v119_apply, val_main_v93_apply]
  refine (congrArg (val_main_v45 (F := Ideal) x1) ?_).trans (pedges_at x1 b q _)
  funext a
  match a with
  | ⟨0, _⟩ => rfl
  | ⟨1, _⟩ => rfl
  | ⟨2, _⟩ => rfl

private theorem tLowE_at (x3 : FVec Ideal S256x100x4 .f32) (b : Fin 256) (q : Fin 300) (t : Fin 100) (k : Fin 2) :
    val_main_v122 (F := Ideal) x3 (ix4 b q t k) = corners (boxT x3 b t) ⟨k.val, Nat.lt_of_lt_of_le k.isLt (by decide)⟩ := by
  rw [val_main_v122_apply, val_main_v120_apply, val_main_v94_apply]
  refine (congrArg (val_main_v70 (F := Ideal) x3) ?_).trans (tedges_at x3 b t _)
  funext a
  match a with
  | ⟨0, _⟩ => rfl
  | ⟨1, _⟩ => rfl
  | ⟨2, _⟩ => rfl

private theorem pHighE_at (x1 : FVec Ideal S256x300x4 .f32) (b : Fin 256) (q : Fin 300) (t : Fin 100) (k : Fin 2) :
    val_main_v126 (F := Ideal) x1 (ix4 b q t k) = corners (boxP x1 b q) ⟨2 + k.val, Nat.add_lt_add_left k.isLt 2⟩ := by
  rw [val_main_v126_apply, val_main_v124_apply, val_main_v93_apply]
  refine (congrArg (val_main_v45 (F := Ideal) x1) ?_).trans (pedges_at x1 b q _)
  funext a
  match a with
  | ⟨0, _⟩ => rfl
  | ⟨1, _⟩ => rfl
  | ⟨2, _⟩ => rfl

private theorem tHighE_at (x3 : FVec Ideal S256x100x4 .f32) (b : Fin 256) (q : Fin 300) (t : Fin 100) (k : Fin 2) :
    val_main_v127 (F := Ideal) x3 (ix4 b q t k) = corners (boxT x3 b t) ⟨2 + k.val, Nat.add_lt_add_left k.isLt 2⟩ := by
  rw [val_main_v127_apply, val_main_v125_apply, val_main_v94_apply]
  refine (congrArg (val_main_v70 (F := Ideal) x3) ?_).trans (tedges_at x3 b t _)
  funext a
  match a with
  | ⟨0, _⟩ => rfl
  | ⟨1, _⟩ => rfl
  | ⟨2, _⟩ => rfl

private theorem clipZero2 (i : S256x300x100x2.Idx) : val_main_call2_v1 (F := Ideal) i = cZero := by
  rw [val_main_call2_v1_apply]
  rfl

/-- The enclosing box's extent along axis k, clamped at zero from the left. -/
private theorem whE_at (x1 : FVec Ideal S256x300x4 .f32) (x3 : FVec Ideal S256x100x4 .f32) (b : Fin 256) (q : Fin 300) (t : Fin 100)
    (k : Fin 2) :
    val_main_v130 (F := Ideal) x1 x3 (ix4 b q t k)
      = max cZero (max (corners (boxP x1 b q) ⟨2 + k.val, Nat.add_lt_add_left k.isLt 2⟩)
            (corners (boxT x3 b t) ⟨2 + k.val, Nat.add_lt_add_left k.isLt 2⟩)
          - min (corners (boxP x1 b q) ⟨k.val, Nat.lt_of_lt_of_le k.isLt (by decide)⟩)
            (corners (boxT x3 b t) ⟨k.val, Nat.lt_of_lt_of_le k.isLt (by decide)⟩)) := by
  rw [val_main_v130_apply, val_main_v129_apply, val_main_v128_apply, val_main_v123_apply, clipZero2, pLowE_at, tLowE_at,
    pHighE_at, tHighE_at]
  rfl

/-- The enclosing box's area. -/
private theorem enc_at (x1 : FVec Ideal S256x300x4 .f32) (x3 : FVec Ideal S256x100x4 .f32) (b : Fin 256) (q : Fin 300)
    (t : Fin 100) :
    val_main_v135 (F := Ideal) x1 x3 (ix3 b q t) = encR (boxP x1 b q) (boxT x3 b t) := by
  rw [val_main_v135_apply, val_main_v132_apply, val_main_v134_apply,
    show idx_main_v132 (ix3 b q t) = ix4 b q t (0 : Fin 1) from tripleIdx b q t,
    show idx_main_v134 (ix3 b q t) = ix4 b q t (0 : Fin 1) from tripleIdx b q t, val_main_v131_apply, val_main_v133_apply]
  have h0 : idx_main_v131 (ix4 b q t (0 : Fin 1)) = ix4 b q t (0 : Fin 2) := by
    funext a
    match a with
    | ⟨0, _⟩ => rfl
    | ⟨1, _⟩ => rfl
    | ⟨2, _⟩ => rfl
    | ⟨3, _⟩ => rfl
  have h1 : idx_main_v133 (ix4 b q t (0 : Fin 1)) = ix4 b q t (1 : Fin 2) := by
    funext a
    match a with
    | ⟨0, _⟩ => rfl
    | ⟨1, _⟩ => rfl
    | ⟨2, _⟩ => rfl
    | ⟨3, _⟩ => rfl
  rw [h0, h1, whE_at, whE_at]
  rfl

/-! ## The generalized IoU -/

/-- Entry (b, q, t) of the generalized IoU. -/
theorem giou_at (x1 : FVec Ideal S256x300x4 .f32) (x3 : FVec Ideal S256x100x4 .f32) (b : Fin 256) (q : Fin 300) (t : Fin 100) :
    val_main_v138 (F := Ideal) x1 x3 (ix3 b q t) = giouR (boxP x1 b q) (boxT x3 b t) := by
  rw [val_main_v138_apply, val_main_v118_apply, val_main_v137_apply, val_main_v136_apply, inter_at, union_at, enc_at]
  rfl

end Cert.ReferenceIdeal.Hand

end
-- ==== Proof.RefTop.lean ====
/-
  The reference's result, entry by entry: 5 · L1 + 1 · (−probability) + 2 · (−GIoU), for labels in the class range.
-/
import proofs.«410024_j74981539053919_3_alg».proof.Proof.Spec
import proofs.«410024_j74981539053919_3_alg».proof.Proof.SpecConsts
import proofs.«410024_j74981539053919_3_alg».proof.Proof.ReferenceRead
import Idealize.ShloMosaic.PureOps.Ideal.Laws
import Idealize.ShloMosaic.Lib.Pipeline.Value
import Idealize.ShloMosaic.Lib.ValueIdx
import Idealize.ShloMosaic.Lib.ValueLayout
import proofs.«410024_j74981539053919_3_alg».proof.Proof.RefClass
import proofs.«410024_j74981539053919_3_alg».proof.Proof.RefGiou

noncomputable section

namespace Cert.ReferenceIdeal.Hand

open Cert.ReferenceIdeal Cert.ReferenceIdeal.Gen Cert.ReferenceIdeal.ReadP Cert.MatchCost Idealize.ShloMosaic Idealize.ShloMosaic.ValueIdx

/-- The reference's result array is the reference's cost matrix of the arguments, when every label is a class number. -/
theorem result_eq (x0 : FVec Ideal S256x300x92 .f32) (x1 : FVec Ideal S256x300x4 .f32) (x2 : IVec S256x100 32) (x3 : FVec Ideal S256x100x4 .f32)
    (hlab : ∀ (b : Fin 256) (t : Fin 100), 0 ≤ (x2 (ix2 b t)).toInt ∧ (x2 (ix2 b t)).toInt < 92) :
    val_main_v147 (F := Ideal) x0 x1 x2 x3 = GR x0 x1 x2 x3 := by
  funext j
  obtain ⟨b, q, t, rfl⟩ : ∃ (b : Fin 256) (q : Fin 300) (t : Fin 100), j = ix3 b q t := ⟨j 0, j 1, j 2, eq_ix3 j⟩
  rw [GR_apply, val_main_v147_apply, val_main_v144_apply, val_main_v141_apply, val_main_v143_apply, val_main_v146_apply,
    val_main_v13_apply, val_main_v139_apply, val_main_v140_apply, val_main_v142_apply, val_main_v145_apply,
    val_main_cst_13_apply, val_main_cst_14_apply, val_main_cst_15_apply, l1_at, giou_at, class_at x0 x2 b q t (hlab b t)]
  rfl

end Cert.ReferenceIdeal.Hand

end
-- ==== Proof.lean ====
/- The matching-cost kernel against its jnp reference.

   Both programs compute, for every batch entry b, query q and target t,
       5 · L1(p, g) − softmax(logits[b, q, ·])[label[b, t]] − 2 · GIoU(p, g),   p = pred_boxes[b, q, ·], g = tgt_boxes[b, t, ·].
   The kernel's value is read off its generated frame run block by block (grid point t writes batch entries 8t … 8t+7),
   the reference's off its generated run one operation at a time, and the two are set equal entry by entry in the
   precondition's domain: real inputs, labels that are class numbers, and the reference's two GIoU denominators nonzero
   (there the reference's clamps of the enclosing box are inactive, the kernel's single reciprocal is the difference of
   the reference's two quotients, the one-hot contraction is the gather, and the softmax's product with a reciprocal is
   its quotient). The idealization rewrote nothing, so `preserves` is trivial. -/
import proofs.«410024_j74981539053919_3_alg».proof.Defs
import proofs.«410024_j74981539053919_3_alg».proof.Proof.Gen.Kernel
import proofs.«410024_j74981539053919_3_alg».proof.Proof.Gen.Kernel.Skeleton
import proofs.«410024_j74981539053919_3_alg».proof.Proof.Gen.Kernel.Launch
import proofs.«410024_j74981539053919_3_alg».proof.Proof.Gen.Kernel.Points
import proofs.«410024_j74981539053919_3_alg».proof.Proof.Gen.Kernel.Frame
import proofs.«410024_j74981539053919_3_alg».proof.Proof.Gen.KernelIdeal
import proofs.«410024_j74981539053919_3_alg».proof.Proof.Gen.KernelIdeal.Skeleton
import proofs.«410024_j74981539053919_3_alg».proof.Proof.Gen.KernelIdeal.Launch
import proofs.«410024_j74981539053919_3_alg».proof.Proof.Gen.KernelIdeal.Points
import proofs.«410024_j74981539053919_3_alg».proof.Proof.Gen.KernelIdeal.Frame
import proofs.«410024_j74981539053919_3_alg».proof.Proof.Gen.ReferenceIdeal
import proofs.«410024_j74981539053919_3_alg».proof.Proof.Gen.Pre_finite_inputs
import proofs.«410024_j74981539053919_3_alg».proof.Proof.KernelIdealValue
import proofs.«410024_j74981539053919_3_alg».proof.Proof.ReferenceRun
import proofs.«410024_j74981539053919_3_alg».proof.Proof.ReferenceRead
import proofs.«410024_j74981539053919_3_alg».proof.Proof.SpecEq
import proofs.«410024_j74981539053919_3_alg».proof.Proof.PreFacts
import proofs.«410024_j74981539053919_3_alg».proof.Proof.KernelArray
import proofs.«410024_j74981539053919_3_alg».proof.Proof.RefTop
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both runs end at one array: the kernel's at its cost matrix of the arguments, the reference's at its own, and in the
    precondition's domain the two matrices are equal. -/
theorem algebraic : Cert.algebraic_KernelIdeal_ReferenceIdeal := by
  intro m ρ m' ρ' hpre hagree
  refine ⟨fun c => Cert.MatchCost.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  have hd := Cert.MatchCost.inDomain_of_pre _ _ _ _ (hpre c)
  rw [Cert.ReferenceIdeal.ReadP.val_main_v147_eq, (hagree c).1, (hagree c).2.1, (hagree c).2.2.1, (hagree c).2.2.2,
    Cert.ReferenceIdeal.Hand.result_eq _ _ _ _ hd.label_range]
  exact (Cert.MatchCost.GK_eq_GR _ _ _ _ hd).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
